-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v80_0)) (v1 : (c : Dev Cert.KernelIdeal.nD) → Buf (Elt Ideal) ((c.tc : Thread Cert.KernelIdeal.nD Cert.KernelIdeal.τ).loc Cert.KernelIdeal.main_v80_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80_0) = v0 c
          ∧ r.2.mem ((c.tc : Thread Cert.KernelIdeal.nD Cert.KernelIdeal.τ).loc Cert.KernelIdeal.main_v80_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S50000x3 : Shape := ⟨2, ![50000, 3]⟩
abbrev S2x800000 : Shape := ⟨2, ![2, 800000]⟩
abbrev S800000x16 : Shape := ⟨2, ![800000, 16]⟩
abbrev S50000 : Shape := ⟨1, ![50000]⟩
abbrev S145x128 : Shape := ⟨2, ![145, 128]⟩
abbrev S128 : Shape := ⟨1, ![128]⟩
abbrev S128x128 : Shape := ⟨2, ![128, 128]⟩
abbrev S192x128 : Shape := ⟨2, ![192, 128]⟩
abbrev S128x64 : Shape := ⟨2, ![128, 64]⟩
abbrev S64 : Shape := ⟨1, ![64]⟩
abbrev S128x1 : Shape := ⟨2, ![128, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S800000x16 : S_.BroadcastsInDim S800000x16 (![] : Fin 0 → Fin S800000x16.rank)
  reducesTo_S800000x16_S_d0_1 : S800000x16.ReducesTo [0, 1] S_
  bcast_S_S50000 : S_.BroadcastsInDim S50000 (![] : Fin 0 → Fin S50000.rank)
  reducesTo_S50000_S_d0 : S50000.ReducesTo [0] S_
  bcast_S_S145x128 : S_.BroadcastsInDim S145x128 (![] : Fin 0 → Fin S145x128.rank)
  reducesTo_S145x128_S_d0_1 : S145x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S192x128 : S_.BroadcastsInDim S192x128 (![] : Fin 0 → Fin S192x128.rank)
  reducesTo_S192x128_S_d0_1 : S192x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S64 .f32) (main_arg13 : FVec F S128x1 .f32) (main_arg14 : FVec F S1 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S128x1 .f32 := Host.absf main_arg13
  let main_cst_22 : FVec F S_ .f32 := constant S_ .f32 0x7F800000#32
  let main_v60 : FVec F S128x1 .f32 := broadcastInDim S128x1 ![] bcast_S_S128x1 main_cst_22
  let main_v61 : IVec S128x1 1 := cmpf .olt main_v59 main_v60
  let main_c_23 : IVec S_ 1 := constantI S_ 1 1#1
  let main_v62 : IVec S_ 1 := (fun x v => Host.reduce IntOp.andi x v reducesTo_S128x1_S_d0_1 h_S_) main_v61 main_c_23
  let main_v63 : IVec S_ 1 := andi main_v58 main_v62
  let main_v64 : FVec F S1 .f32 := Host.absf main_arg14
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg8 : FVec F S128 .f32) (main_arg9 : FVec F S192x128 .f32) (main_arg10 : FVec F S128 .f32) (main_arg11 : FVec F S128x64 .f32) (main_arg12 : FVec F S64 .f32) (main_arg13 : FVec F S128x1 .f32) (main_arg14 : FVec F S1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S192x128 .f32 := Host.absf main_arg9
  let main_cst_14 : FVec F S_ .f32 := constant S_ .f32 0x7F800000#32
  let main_v40 : FVec F S192x128 .f32 := broadcastInDim S192x128 ![] bcast_S_S192x128 main_cst_14
  let main_v41 : IVec S192x128 1 := cmpf .olt main_v39 main_v40
  let main_c_15 : IVec S_ 1 := constantI S_ 1 1#1
  let main_v42 : IVec S_ 1 := (fun x v => Host.reduce IntOp.andi x v reducesTo_S192x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x64 .f32 := Host.absf main_arg11
  let main_cst_18 : FVec F S_ .f32 := constant S_ .f32 0x7F800000#32
  let main_v50 : FVec F S128x64 .f32 := broadcastInDim S128x64 ![] bcast_S_S128x64 main_cst_18
  fn_part3 (F := F) main_arg12 main_arg13 main_arg14 main_v48 main_v49 main_v50

def fn_part1 {F : FTy → Type} [FloatOps F] (main_arg5 : FVec F S145x128 .f32) (main_arg6 : FVec F S128 .f32) (main_arg7 : FVec F S128x128 .f32) (main_arg8 : FVec F S128 .f32) (main_arg9 : FVec F S192x128 .f32) (main_arg10 : FVec F S128 .f32) (main_arg11 : FVec F S128x64 .f32) (main_arg12 : FVec F S64 .f32) (main_arg13 : FVec F S128x1 .f32) (main_arg14 : FVec F S1 .f32) (main_v13 : IVec S_ 1) (main_v16 : IVec S50000 1) : IVec S_ 1 :=
  let main_c_5 : IVec S_ 1 := constantI S_ 1 1#1
  let main_v17 : IVec S_ 1 := (fun x v => Host.reduce IntOp.andi x v reducesTo_S50000_S_d0 h_S_) main_v16 main_c_5
  let main_v18 : IVec S_ 1 := andi main_v13 main_v17
  let main_v19 : FVec F S145x128 .f32 := Host.absf main_arg5
  let main_cst_6 : FVec F S_ .f32 := constant S_ .f32 0x7F800000#32
  let main_v20 : FVec F S145x128 .f32 := broadcastInDim S145x128 ![] bcast_S_S145x128 main_cst_6
  let main_v21 : IVec S145x128 1 := cmpf .olt main_v19 main_v20
  let main_c_7 : IVec S_ 1 := constantI S_ 1 1#1
  let main_v22 : IVec S_ 1 := (fun x v => Host.reduce IntOp.andi x v reducesTo_S145x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S50000x64 .f32) (main_arg1 : FVec F S50000x3 .f32) (main_arg2 : IVec S2x800000 32) (main_arg3 : FVec F S800000x16 .f32) (main_arg4 : FVec F S50000 .f32) (main_arg5 : FVec F S145x128 .f32) (main_arg6 : FVec F S128 .f32) (main_arg7 : FVec F S128x128 .f32) (main_arg8 : FVec F S128 .f32) (main_arg9 : FVec F S192x128 .f32) (main_arg10 : FVec F S128 .f32) (main_arg11 : FVec F S128x64 .f32) (main_arg12 : FVec F S64 .f32) (main_arg13 : FVec F S128x1 .f32) (main_arg14 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S800000x16 .f32 := Host.absf main_arg3
  let main_cst_2 : FVec F S_ .f32 := constant S_ .f32 0x7F800000#32
  let main_v10 : FVec F S800000x16 .f32 := broadcastInDim S800000x16 ![] bcast_S_S800000x16 main_cst_2
  let main_v11 : IVec S800000x16 1 := cmpf .olt main_v9 main_v10
  let main_c_3 : IVec S_ 1 := constantI S_ 1 1#1
  let main_v12 : IVec S_ 1 := (fun x v => Host.reduce IntOp.andi x v reducesTo_S800000x16_S_d0_1 h_S_) main_v11 main_c_3
  let main_v13 : IVec S_ 1 := andi main_v8 main_v12
  let main_v14 : FVec F S50000 .f32 := Host.absf main_arg4
  let main_cst_4 : FVec F S_ .f32 := constant S_ .f32 0x7F800000#32
  let main_v15 : FVec F S50000 .f32 := broadcastInDim S50000 ![] bcast_S_S50000 main_cst_4
  let main_v16 : IVec S50000 1 := cmpf .olt main_v14 main_v15
  fn_part1 (F := F) main_arg5 main_arg6 main_arg7 main_arg8 main_arg9 main_arg10 main_arg11 main_arg12 main_arg13 main_arg14 main_v13 main_v16
-- ==== Kernel.lean ====
abbrev S50000x64 : Shape := ⟨2, ![50000, 64]⟩
abbrev S50000x3 : Shape := ⟨2, ![50000, 3]⟩
abbrev S2x800000 : Shape := ⟨2, ![2, 800000]⟩
abbrev S800000x16 : Shape := ⟨2, ![800000, 16]⟩
abbrev S50000 : Shape := ⟨1, ![50000]⟩
abbrev S145x128 : Shape := ⟨2, ![145, 128]⟩
abbrev S128 : Shape := ⟨1, ![128]⟩
abbrev S128x128 : Shape := ⟨2, ![128, 128]⟩
abbrev S192x128 : Shape := ⟨2, ![192, 128]⟩
abbrev S128x64 : Shape := ⟨2, ![128, 64]⟩
abbrev S64 : Shape := ⟨1, ![64]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x3 : Shape := ⟨2, ![800000, 3]⟩
abbrev S64x128 : Shape := ⟨2, ![64, 128]⟩
abbrev S1x128 : Shape := ⟨2, ![1, 128]⟩
abbrev S16x128 : Shape := ⟨2, ![16, 128]⟩
abbrev S1x1 : Shape := ⟨2, ![1, 1]⟩
abbrev S800000x128 : Shape := ⟨2, ![800000, 128]⟩
abbrev S4000x64 : Shape := ⟨2, ![4000, 64]⟩
abbrev S4000x3 : Shape := ⟨2, ![4000, 3]⟩
abbrev S4000x16 : Shape := ⟨2, ![4000, 16]⟩
abbrev S4000x1 : Shape := ⟨2, ![4000, 1]⟩
abbrev S4000x128 : Shape := ⟨2, ![4000, 128]⟩
abbrev S4000 : Shape := ⟨1, ![4000]⟩
abbrev S800000x132 : Shape := ⟨2, ![800000, 132]⟩
abbrev S50000x132 : Shape := ⟨2, ![50000, 132]⟩
abbrev S50000x128 : Shape := ⟨2, ![50000, 128]⟩
abbrev S50000x1 : Shape := ⟨2, ![50000, 1]⟩
abbrev S1x64 : Shape := ⟨2, ![1, 64]⟩
abbrev S5000x64 : Shape := ⟨2, ![5000, 64]⟩
abbrev S5000x128 : Shape := ⟨2, ![5000, 128]⟩
abbrev S5000x3 : Shape := ⟨2, ![5000, 3]⟩

abbrev nBuf : Space → Nat
  | .hbm => 111
  | .vmem => 40
  | .smem => 0
  | _ => 0

abbrev bufTy : (tb : Table) → Fin (tcTables nBuf tb) → BufTy
  | .hbm, ⟨0, _⟩ => ⟨S50000x64, .f32⟩
  | .hbm, ⟨1, _⟩ => ⟨S50000x3, .f32⟩
  | .hbm, ⟨2, _⟩ => ⟨S2x800000, .i32⟩
  | .hbm, ⟨3, _⟩ => ⟨S800000x16, .f32⟩
  | .hbm, ⟨4, _⟩ => ⟨S50000, .f32⟩
  | .hbm, ⟨5, _⟩ => ⟨S145x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S192x128, .f32⟩
  | .hbm, ⟨10, _⟩ => ⟨S128, .f32⟩
  | .hbm, ⟨11, _⟩ => ⟨S128x64, .f32⟩
  | .hbm, ⟨12, _⟩ => ⟨S64, .f32⟩
  | .hbm, ⟨13, _⟩ => ⟨S128x1, .f32⟩
  | .hbm, ⟨14, _⟩ => ⟨S1, .f32⟩
  | .hbm, ⟨15, _⟩ => ⟨S1x800000, .i32⟩
  | .hbm, ⟨16, _⟩ => ⟨S800000, .i32⟩
  | .hbm, ⟨17, _⟩ => ⟨S1x800000, .i32⟩
  | .hbm, ⟨18, _⟩ => ⟨S800000, .i32⟩
  | .hbm, ⟨19, _⟩ => ⟨S50000x64, .bf16⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x64, .bf16⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x64, .bf16⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x3, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x3, .f32⟩
  | .hbm, ⟨56, _⟩ => ⟨S800000x3, .f32⟩
  | .hbm, ⟨57, _⟩ => ⟨S_, .i32⟩
  | .hbm, ⟨58, _⟩ => ⟨S800000, .i32⟩
  | .hbm, ⟨59, _⟩ => ⟨S800000, .i1⟩
  | .hbm, ⟨60, _⟩ => ⟨S_, .i32⟩
  | .hbm, ⟨61, _⟩ => ⟨S800000, .i32⟩
  | .hbm, ⟨62, _⟩ => ⟨S800000, .i32⟩
  | .hbm, ⟨63, _⟩ => ⟨S800000, .i32⟩
  | .hbm, ⟨64, _⟩ => ⟨S800000x1, .i32⟩
  | .hbm, ⟨65, _⟩ => ⟨S800000, .f32⟩
  | .hbm, ⟨66, _⟩ => ⟨S800000x1, .f32⟩
  | .hbm, ⟨67, _⟩ => ⟨S64x128, .f32⟩
  | .hbm, ⟨68, _⟩ => ⟨S64x128, .bf16⟩
  | .hbm, ⟨69, _⟩ => ⟨S64x128, .f32⟩
  | .hbm, ⟨70, _⟩ => ⟨S64x128, .bf16⟩
  | .hbm, ⟨71, _⟩ => ⟨S1x128, .f32⟩
  | .hbm, ⟨72, _⟩ => ⟨S16x128, .f32⟩
  | .hbm, ⟨73, _⟩ => ⟨S16x128, .bf16⟩
  | .hbm, ⟨74, _⟩ => ⟨S1x128, .f32⟩
  | .hbm, ⟨75, _⟩ => ⟨S128x128, .bf16⟩
  | .hbm, ⟨76, _⟩ => ⟨S1x128, .f32⟩
  | .hbm, ⟨77, _⟩ => ⟨S128x1, .bf16⟩
  | .hbm, ⟨78, _⟩ => ⟨S1x1, .f32⟩
  | .hbm, ⟨79, _⟩ => ⟨S800000x128, .bf16⟩
  | .hbm, ⟨80, _⟩ => ⟨S800000x1, .f32⟩
  | .hbm, ⟨81, _⟩ => ⟨S800000x128, .f32⟩
  | .hbm, ⟨82, _⟩ => ⟨S800000x3, .f32⟩
  | .hbm, ⟨83, _⟩ => ⟨S800000x3, .f32⟩
  | .hbm, ⟨84, _⟩ => ⟨S_, .f32⟩
  | .hbm, ⟨85, _⟩ => ⟨S800000x1, .f32⟩
  | .hbm, ⟨86, _⟩ => ⟨S800000x132, .f32⟩
  | .hbm, ⟨87, _⟩ => ⟨S_, .f32⟩
  | .hbm, ⟨88, _⟩ => ⟨S50000x132, .f32⟩
  | .hbm, ⟨89, _⟩ => ⟨S800000x1, .i32⟩
  | .hbm, ⟨90, _⟩ => ⟨S50000x132, .f32⟩
  | .hbm, ⟨91, _⟩ => ⟨S50000x128, .f32⟩
  | .hbm, ⟨92, _⟩ => ⟨S50000x3, .f32⟩
  | .hbm, ⟨93, _⟩ => ⟨S50000x1, .f32⟩
  | .hbm, ⟨94, _⟩ => ⟨S_, .f32⟩
  | .hbm, ⟨95, _⟩ => ⟨S50000x1, .f32⟩
  | .hbm, ⟨96, _⟩ => ⟨S50000x1, .f32⟩
  | .hbm, ⟨97, _⟩ => ⟨S50000x128, .f32⟩
  | .hbm, ⟨98, _⟩ => ⟨S50000x128, .f32⟩
  | .hbm, ⟨99, _⟩ => ⟨S50000x3, .f32⟩
  | .hbm, ⟨100, _⟩ => ⟨S50000x3, .f32⟩
  | .hbm, ⟨101, _⟩ => ⟨S50000x128, .bf16⟩
  | .hbm, ⟨102, _⟩ => ⟨S64x128, .f32⟩
  | .hbm, ⟨103, _⟩ => ⟨S64x128, .bf16⟩
  | .hbm, ⟨104, _⟩ => ⟨S128x128, .f32⟩
  | .hbm, ⟨105, _⟩ => ⟨S128x128, .bf16⟩
  | .hbm, ⟨106, _⟩ => ⟨S1x128, .f32⟩
  | .hbm, ⟨107, _⟩ => ⟨S128x64, .bf16⟩
  | .hbm, ⟨108, _⟩ => ⟨S1x64, .f32⟩
  | .hbm, ⟨109, _⟩ => ⟨S50000x64, .f32⟩
  | .hbm, ⟨110, _⟩ => ⟨S50000x3, .f32⟩
  | .local _ .vmem, ⟨0, _⟩ => ⟨S4000x64, .bf16⟩
  | .local _ .vmem, ⟨1, _⟩ => ⟨S4000x64, .bf16⟩
  | .local _ .vmem, ⟨2, _⟩ => ⟨S4000x64, .bf16⟩
  | .local _ .vmem, ⟨3, _⟩ => ⟨S4000x64, .bf16⟩
  | .local _ .vmem, ⟨4, _⟩ => ⟨S4000x3, .f32⟩
  | .local _ .vmem, ⟨5, _⟩ => ⟨S4000x3, .f32⟩
  | .local _ .vmem, ⟨6, _⟩ => ⟨S4000x16, .f32⟩
  | .local _ .vmem, ⟨7, _⟩ => ⟨S4000x16, .f32⟩
  | .local _ .vmem, ⟨8, _⟩ => ⟨S4000x1, .f32⟩
  | .local _ .vmem, ⟨9, _⟩ => ⟨S4000x1, .f32⟩
  | .local _ .vmem, ⟨10, _⟩ => ⟨S64x128, .bf16⟩
  | .local _ .vmem, ⟨11, _⟩ => ⟨S64x128, .bf16⟩
  | .local _ .vmem, ⟨12, _⟩ => ⟨S1x128, .f32⟩
  | .local _ .vmem, ⟨13, _⟩ => ⟨S16x128, .bf16⟩
  | .local _ .vmem, ⟨14, _⟩ => ⟨S1x128, .f32⟩
  | .local _ .vmem, ⟨15, _⟩ => ⟨S128x128, .bf16⟩
  | .local _ .vmem, ⟨16, _⟩ => ⟨S1x128, .f32⟩
  | .local _ .vmem, ⟨17, _⟩ => ⟨S128x1, .bf16⟩
  | .local _ .vmem, ⟨18, _⟩ => ⟨S1x1, .f32⟩
  | .local _ .vmem, ⟨19, _⟩ => ⟨S4000x128, .bf16⟩
  | .local _ .vmem, ⟨20, _⟩ => ⟨S4000x128, .bf16⟩
  | .local _ .vmem, ⟨21, _⟩ => ⟨S4000x1, .f32⟩
  | .local _ .vmem, ⟨22, _⟩ => ⟨S4000x1, .f32⟩
  | .local _ .vmem, ⟨23, _⟩ => ⟨S5000x64, .bf16⟩
  | .local _ .vmem, ⟨24, _⟩ => ⟨S5000x64, .bf16⟩
  | .local _ .vmem, ⟨25, _⟩ => ⟨S5000x128, .bf16⟩
  | .local _ .vmem, ⟨26, _⟩ => ⟨S5000x128, .bf16⟩
  | .local _ .vmem, ⟨27, _⟩ => ⟨S5000x3, .f32⟩
  | .local _ .vmem, ⟨28, _⟩ => ⟨S5000x3, .f32⟩
  | .local _ .vmem, ⟨29, _⟩ => ⟨S5000x3, .f32⟩
  | .local _ .vmem, ⟨30, _⟩ => ⟨S5000x3, .f32⟩
  | .local _ .vmem, ⟨31, _⟩ => ⟨S64x128, .bf16⟩
  | .local _ .vmem, ⟨32, _⟩ => ⟨S128x128, .bf16⟩
  | .local _ .vmem, ⟨33, _⟩ => ⟨S1x128, .f32⟩
  | .local _ .vmem, ⟨34, _⟩ => ⟨S128x64, .bf16⟩
  | .local _ .vmem, ⟨35, _⟩ => ⟨S1x64, .f32⟩
  | .local _ .vmem, ⟨36, _⟩ => ⟨S5000x64, .f32⟩
  | .local _ .vmem, ⟨37, _⟩ => ⟨S5000x64, .f32⟩
  | .local _ .vmem, ⟨38, _⟩ => ⟨S5000x3, .f32⟩
  | .local _ .vmem, ⟨39, _⟩ => ⟨S5000x3, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_c : Ref sig .tc := ⟨.hbm, 20, rfl⟩
abbrev main_v5 : Ref sig .tc := ⟨.hbm, 21, rfl⟩
abbrev main_v6 : Ref sig .tc := ⟨.hbm, 22, rfl⟩
abbrev main_c_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c_1 : Ref sig .tc := ⟨.hbm, 29, rfl⟩
abbrev main_v12 : Ref sig .tc := ⟨.hbm, 30, rfl⟩
abbrev main_v13 : Ref sig .tc := ⟨.hbm, 31, rfl⟩
abbrev main_c_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_3 : Ref sig .tc := ⟨.hbm, 38, rfl⟩
abbrev main_v19 : Ref sig .tc := ⟨.hbm, 39, rfl⟩
abbrev main_v20 : Ref sig .tc := ⟨.hbm, 40, rfl⟩
abbrev main_c_4 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_c_6 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_7 : Ref sig .tc := ⟨.hbm, 57, rfl⟩
abbrev main_v34 : Ref sig .tc := ⟨.hbm, 58, rfl⟩
abbrev main_v35 : Ref sig .tc := ⟨.hbm, 59, rfl⟩
abbrev main_c_8 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54_0 : Ref sig .tc := ⟨.hbm, 79, rfl⟩
abbrev main_v54_1 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst : Ref sig .tc := ⟨.hbm, 84, rfl⟩
abbrev main_v58 : Ref sig .tc := ⟨.hbm, 85, rfl⟩
abbrev main_v59 : Ref sig .tc := ⟨.hbm, 86, rfl⟩
abbrev main_cst_9 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_10 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80_0 : Ref sig .tc := ⟨.hbm, 109, rfl⟩
abbrev main_v80_1 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc1_stg0_0 : Ref sig .tc := ⟨.vmem, 23, rfl⟩
abbrev cc1_stg0_1 : Ref sig .tc := ⟨.vmem, 24, rfl⟩
abbrev cc1_stg1_0 : Ref sig .tc := ⟨.vmem, 25, rfl⟩
abbrev cc1_stg1_1 : Ref sig .tc := ⟨.vmem, 26, rfl⟩
abbrev cc1_stg2_0 : Ref sig .tc := ⟨.vmem, 27, rfl⟩
abbrev cc1_stg2_1 : Ref sig .tc := ⟨.vmem, 28, rfl⟩
abbrev cc1_stg3_0 : Ref sig .tc := ⟨.vmem, 29, rfl⟩
abbrev cc1_stg3_1 : Ref sig .tc := ⟨.vmem, 30, rfl⟩
abbrev cc1_stg4_0 : Ref sig .tc := ⟨.vmem, 31, rfl⟩
abbrev cc1_stg5_0 : Ref sig .tc := ⟨.vmem, 32, rfl⟩
abbrev cc1_stg6_0 : Ref sig .tc := ⟨.vmem, 33, rfl⟩
abbrev cc1_stg7_0 : Ref sig .tc := ⟨.vmem, 34, rfl⟩
abbrev cc1_stg8_0 : Ref sig .tc := ⟨.vmem, 35, rfl⟩
abbrev cc1_stg9_0 : Ref sig .tc := ⟨.vmem, 36, rfl⟩
abbrev cc1_stg9_1 : Ref sig .tc := ⟨.vmem, 37, rfl⟩
abbrev cc1_stg10_0 : Ref sig .tc := ⟨.vmem, 38, rfl⟩
abbrev cc1_stg10_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20
abbrev cc0_sem15_0 : DmaSem sig := 21
abbrev cc0_sem15_1 : DmaSem sig := 22
abbrev cc1_sem0_0 : DmaSem sig := 23
abbrev cc1_sem0_1 : DmaSem sig := 24
abbrev cc1_sem1_0 : DmaSem sig := 25
abbrev cc1_sem1_1 : DmaSem sig := 26
abbrev cc1_sem2_0 : DmaSem sig := 27
abbrev cc1_sem2_1 : DmaSem sig := 28
abbrev cc1_sem3_0 : DmaSem sig := 29
abbrev cc1_sem3_1 : DmaSem sig := 30
abbrev cc1_sem4_0 : DmaSem sig := 31
abbrev cc1_sem5_0 : DmaSem sig := 32
abbrev cc1_sem6_0 : DmaSem sig := 33
abbrev cc1_sem7_0 : DmaSem sig := 34
abbrev cc1_sem8_0 : DmaSem sig := 35
abbrev cc1_sem9_0 : DmaSem sig := 36
abbrev cc1_sem9_1 : DmaSem sig := 37
abbrev cc1_sem10_0 : DmaSem sig := 38
abbrev cc1_sem10_1 : DmaSem sig := 39

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S64x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x1 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S4000x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S4000x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x3 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x3 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S64x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x64 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S5000x3 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  shapeCasts_S800000_S800000x1 : S800000.ShapeCasts S800000x1
  slices_S145x128_S64x128_0_0 : S145x128.Slices ![0, 0] S64x128
  slices_S145x128_S64x128_64_0 : S145x128.Slices ![64, 0] S64x128
  slices_S145x128_S1x128_128_0 : S145x128.Slices ![128, 0] S1x128
  slices_S145x128_S16x128_129_0 : S145x128.Slices ![129, 0] S16x128
  shapeCasts_S128_S1x128 : S128.ShapeCasts S1x128
  shapeCasts_S1_S1x1 : S1.ShapeCasts S1x1
  inb_S4000x3_S4000x3_0_0 : ∀ a, (![0, 0] : Fin 2 → Nat) a + S4000x3.size a ≤ S4000x3.size a
  h_S4000x3 : 0 < S4000x3.numel
  shapeCasts_S4000x3_S4000x3 : S4000x3.ShapeCasts S4000x3
  reduces_S4000x3_S4000 : S4000x3.Reduces [1] S4000
  shapeCasts_S4000_S4000x1 : S4000.ShapeCasts S4000x1
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S4000x16_S4000x16_0_0 : ∀ a, (![0, 0] : Fin 2 → Nat) a + S4000x16.size a ≤ S4000x16.size a
  h_S4000x16 : 0 < S4000x16.numel
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S4000x1_S4000x128 : S4000x1.Broadcasts S4000x128
  broadcasts_S1x128_S4000x128 : S1x128.Broadcasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  inb_S4000x128_S4000x128_0_0 : ∀ a, (![0, 0] : Fin 2 → Nat) a + S4000x128.size a ≤ S4000x128.size a
  h_S4000x128 : 0 < S4000x128.numel
  packedbf16_S4000x128_S4000x128_0_0 : (Rect.unit (s := S4000x128) ![0, 0] S4000x128.size inb_S4000x128_S4000x128_0_0).PackedRows (EltTy.packing .bf16)
  bcast_S800000x1_S800000x3_0_1 : S800000x1.BroadcastsInDim S800000x3 (![0, 1] : Fin 2 → Fin S800000x3.rank)
  bcast_S_S800000x1 : S_.BroadcastsInDim S800000x1 (![] : Fin 0 → Fin S800000x1.rank)
  concatenates_S800000x128_S800000x3_S800000x1_S800000x132_d1 : Shape.Concatenates [S800000x128, S800000x3, S800000x1] S800000x132 1
  bcast_S_S50000x132 : S_.BroadcastsInDim S50000x132 (![] : Fin 0 → Fin S50000x132.rank)
  slices_S50000x132_S50000x128_0_0 : S50000x132.Slices ![0, 0] S50000x128
  slices_S50000x132_S50000x3_0_128 : S50000x132.Slices ![0, 128] S50000x3
  slices_S50000x132_S50000x1_0_131 : S50000x132.Slices ![0, 131] S50000x1
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S50000x1_S50000x3_0_1 : S50000x1.BroadcastsInDim S50000x3 (![0, 1] : Fin 2 → Fin S50000x3.rank)
  slices_S192x128_S64x128_0_0 : S192x128.Slices ![0, 0] S64x128
  slices_S192x128_S128x128_64_0 : S192x128.Slices ![64, 0] S128x128
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x3_S5000x3_0_0 : ∀ a, (![0, 0] : Fin 2 → Nat) a + S5000x3.size a ≤ S5000x3.size a
  h_S5000x3 : 0 < S5000x3.numel
  shapeCasts_S5000x3_S5000x3 : S5000x3.ShapeCasts S5000x3
  gather_S50000x64_S800000x1_S800000x64_1_0_n_n_0_1_164_wf : GatherDims.WF S50000x64 S800000x1 S800000x64 [1] [0] [] [0] [] 1 ![1, 64]
  gather_S50000x3_S800000x1_S800000x3_1_0_n_n_0_1_13_wf : GatherDims.WF S50000x3 S800000x1 S800000x3 [1] [0] [] [0] [] 1 ![1, 3]
  gather_S50000_S800000x1_S800000_n_0_n_n_0_1_1_wf : GatherDims.WF S50000 S800000x1 S800000 [] [0] [] [0] [] 1 ![1]
  dot_S4000x64_S64x128_S4000x128_1_0_0_1_n_n_wf : DotDims.WF S4000x64 S64x128 S4000x128 [1] [0] [0] [1] [] []
  dot_S4000x16_S16x128_S4000x128_1_0_0_1_n_n_wf : DotDims.WF S4000x16 S16x128 S4000x128 [1] [0] [0] [1] [] []
  dot_S4000x128_S128x128_S4000x128_1_0_0_1_n_n_wf : DotDims.WF S4000x128 S128x128 S4000x128 [1] [0] [0] [1] [] []
  dot_S4000x128_S128x1_S4000x1_1_0_0_1_n_n_wf : DotDims.WF S4000x128 S128x1 S4000x1 [1] [0] [0] [1] [] []
  scatter_S50000x132_S800000x1_S800000x132_1_0_0_1_wf : ScatterDims.WF S50000x132 S800000x1 S800000x132 [1] [0] [0] 1
  dot_S5000x64_S64x128_S5000x128_1_0_0_1_n_n_wf : DotDims.WF S5000x64 S64x128 S5000x128 [1] [0] [0] [1] [] []
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S800000x64.size a
  hwx0_0 : ∀ i : grid0.Coords, EltTy.bits .bf16 = 32 ∨ (Rect.block (s := S800000x64) S4000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S800000x64.size a
  hwx0_1 : ∀ i : grid0.Coords, EltTy.bits .bf16 = 32 ∨ (Rect.block (s := S800000x64) S4000x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x3.size a ≤ S800000x3.size a
  hwx0_2 : ∀ i : grid0.Coords, EltTy.bits .f32 = 32 ∨ (Rect.block (s := S800000x3) S4000x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x16.size a ≤ S800000x16.size a
  hwx0_3 : ∀ i : grid0.Coords, EltTy.bits .f32 = 32 ∨ (Rect.block (s := S800000x16) S4000x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x1.size a ≤ S800000x1.size a
  hwx0_4 : ∀ i : grid0.Coords, EltTy.bits .f32 = 32 ∨ (Rect.block (s := S800000x1) S4000x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .bf16 = 32 ∨ (Rect.block (s := S64x128) S64x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x128.size a ≤ S64x128.size a
  hwx0_6 : ∀ i : grid0.Coords, EltTy.bits .bf16 = 32 ∨ (Rect.block (s := S64x128) S64x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S16x128.size a ≤ S16x128.size a
  hwx0_8 : ∀ i : grid0.Coords, EltTy.bits .bf16 = 32 ∨ (Rect.block (s := S16x128) S16x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .bf16 = 32 ∨ (Rect.block (s := S128x128) S128x128.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x1.size a ≤ S128x1.size a
  hwx0_12 : ∀ i : grid0.Coords, EltTy.bits .bf16 = 32 ∨ (Rect.block (s := S128x1) S128x1.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1.size a ≤ S1x1.size a
  hwx0_13 : ∀ i : grid0.Coords, EltTy.bits .f32 = 32 ∨ (Rect.block (s := S1x1) S1x1.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S4000x128.size a ≤ S800000x128.size a
  hwx0_14 : ∀ i : grid0.Coords, EltTy.bits .bf16 = 32 ∨ (Rect.block (s := S800000x128) S4000x128.size (cc0_transform_14 i) (hinb0_14 i)).WholeWords (EltTy.packing .bf16)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S4000x1.size a ≤ S800000x1.size a
  hwx0_15 : ∀ i : grid0.Coords, EltTy.bits .f32 = 32 ∨ (Rect.block (s := S800000x1) S4000x1.size (cc0_transform_15 i) (hinb0_15 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .bf16 = 32 ∨ (Rect.block (s := S50000x64) S5000x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .bf16 = 32 ∨ (Rect.block (s := S50000x128) S5000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x3.size a ≤ S50000x3.size a
  hwx1_2 : ∀ i : grid1.Coords, EltTy.bits .f32 = 32 ∨ (Rect.block (s := S50000x3) S5000x3.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x3.size a ≤ S50000x3.size a
  hwx1_3 : ∀ i : grid1.Coords, EltTy.bits .f32 = 32 ∨ (Rect.block (s := S50000x3) S5000x3.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x128.size a ≤ S64x128.size a
  hwx1_4 : ∀ i : grid1.Coords, EltTy.bits .bf16 = 32 ∨ (Rect.block (s := S64x128) S64x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .bf16 = 32 ∨ (Rect.block (s := S128x128) S128x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x64.size a ≤ S128x64.size a
  hwx1_7 : ∀ i : grid1.Coords, EltTy.bits .bf16 = 32 ∨ (Rect.block (s := S128x64) S128x64.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x64.size a ≤ S50000x64.size a
  hwx1_9 : ∀ i : grid1.Coords, EltTy.bits .f32 = 32 ∨ (Rect.block (s := S50000x64) S5000x64.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5000x3.size a ≤ S50000x3.size a
  hwx1_10 : ∀ i : grid1.Coords, EltTy.bits .f32 = 32 ∨ (Rect.block (s := S50000x3) S5000x3.size (cc1_transform_10 i) (hinb1_10 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def dot_S4000x16_S16x128_S4000x128_1_0_0_1_n_n : DotDims S4000x16 S16x128 S4000x128 where
  lhsContracting := [1]
  rhsContracting := [0]
  lhsNonContracting := [0]
  rhsNonContracting := [1]
  lhsBatch := []
  rhsBatch := []
  wf := dot_S4000x16_S16x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x1_S4000x1_1_0_0_1_n_n : DotDims S4000x128 S128x1 S4000x1 where
  lhsContracting := [1]
  rhsContracting := [0]
  lhsNonContracting := [0]
  rhsNonContracting := [1]
  lhsBatch := []
  rhsBatch := []
  wf := dot_S4000x128_S128x1_S4000x1_1_0_0_1_n_n_wf
def scatter_S50000x132_S800000x1_S800000x132_1_0_0_1 : ScatterDims S50000x132 S800000x1 S800000x132 where
  updateWindowDims := [1]
  insertedWindowDims := [0]
  scatterDimsToOperandDims := [0]
  indexVectorDim := 1
  wf := scatter_S50000x132_S800000x1_S800000x132_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v11) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v33) S4000x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4000x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v41) S4000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v43) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v45) S64x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v46) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v48) S16x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v49) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v50) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v51) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v52) S128x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v53) S1x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v54_0) S4000x128.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v54_1) S4000x1.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev win1_0 : Pipeline.Window sig grid1 :=
  Pipeline.Window.ofSpec (Memref.whole main_v4) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v72) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S5000x3.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v71) S5000x3.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v74) S64x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v76) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v77) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v78) S128x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v79) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v80_0) S5000x64.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v80_1) S5000x3.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S50000x64 : Shape := ⟨2, ![50000, 64]⟩
abbrev S50000x3 : Shape := ⟨2, ![50000, 3]⟩
abbrev S2x800000 : Shape := ⟨2, ![2, 800000]⟩
abbrev S800000x16 : Shape := ⟨2, ![800000, 16]⟩
abbrev S50000 : Shape := ⟨1, ![50000]⟩
abbrev S145x128 : Shape := ⟨2, ![145, 128]⟩
abbrev S128 : Shape := ⟨1, ![128]⟩
abbrev S128x128 : Shape := ⟨2, ![128, 128]⟩
abbrev S192x128 : Shape := ⟨2, ![192, 128]⟩
abbrev S128x64 : Shape := ⟨2, ![128, 64]⟩
abbrev S64 : Shape := ⟨1, ![64]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x3 : Shape := ⟨2, ![800000, 3]⟩
abbrev S800000x64 : Shape := ⟨2, ![800000, 64]⟩
abbrev S800000x145 : Shape := ⟨2, ![800000, 145]⟩
abbrev S800000x128 : Shape := ⟨2, ![800000, 128]⟩
abbrev S1x128 : Shape := ⟨2, ![1, 128]⟩
abbrev S50000x128 : Shape := ⟨2, ![50000, 128]⟩
abbrev S50000x1 : Shape := ⟨2, ![50000, 1]⟩
abbrev S50000x192 : Shape := ⟨2, ![50000, 192]⟩
abbrev S1x64 : Shape := ⟨2, ![1, 64]⟩
abbrev S1x1 : Shape := ⟨2, ![1, 1]⟩

abbrev nBuf : Space → Nat
  | .hbm => 145
  | .vmem => 0
  | .smem => 0
  | _ => 0

abbrev hbmTy0_0 (i : Nat) : BufTy := match i % 128 with
  | 0 => ⟨S50000x64, .f32⟩
  | 1 => ⟨S50000x3, .f32⟩
  | 2 => ⟨S2x800000, .i32⟩
  | 3 => ⟨S800000x16, .f32⟩
  | 4 => ⟨S50000, .f32⟩
  | 5 => ⟨S145x128, .f32⟩
  | 6 => ⟨S128, .f32⟩
  | 7 => ⟨S128x128, .f32⟩
  | 8 => ⟨S128, .f32⟩
  | 9 => ⟨S192x128, .f32⟩
  | 10 => ⟨S128, .f32⟩
  | 11 => ⟨S128x64, .f32⟩
  | 12 => ⟨S64, .f32⟩
  | 13 => ⟨S128x1, .f32⟩
  | 14 => ⟨S1, .f32⟩
  | 15 => ⟨S1x800000, .i32⟩
  | 16 => ⟨S800000, .i32⟩
  | 17 => ⟨S1x800000, .i32⟩
  | 18 => ⟨S800000, .i32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x3, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000x3, .f32⟩
  | 37 => ⟨S800000x3, .f32⟩
  | 38 => ⟨S800000x3, .f32⟩
  | 39 => ⟨S_, .f32⟩
  | 40 => ⟨S800000, .f32⟩
  | 41 => ⟨S800000x1, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000x64, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000x64, .f32⟩
  | 60 => ⟨S800000x145, .f32⟩
  | 61 => ⟨S800000x128, .f32⟩
  | 62 => ⟨S1x128, .f32⟩
  | 63 => ⟨S800000x128, .f32⟩
  | 64 => ⟨S800000x128, .f32⟩
  | 65 => ⟨S800000x128, .f32⟩
  | 66 => ⟨S800000x128, .f32⟩
  | 67 => ⟨S_, .f32⟩
  | 68 => ⟨S800000x128, .f32⟩
  | 69 => ⟨S800000x128, .f32⟩
  | 70 => ⟨S_, .f32⟩
  | 71 => ⟨S800000x128, .f32⟩
  | 72 => ⟨S800000x128, .f32⟩
  | 73 => ⟨S800000x128, .f32⟩
  | 74 => ⟨S800000x128, .f32⟩
  | 75 => ⟨S1x128, .f32⟩
  | 76 => ⟨S800000x128, .f32⟩
  | 77 => ⟨S800000x128, .f32⟩
  | 78 => ⟨S800000x128, .f32⟩
  | 79 => ⟨S800000x128, .f32⟩
  | 80 => ⟨S_, .f32⟩
  | 81 => ⟨S800000x128, .f32⟩
  | 82 => ⟨S800000x128, .f32⟩
  | 83 => ⟨S_, .f32⟩
  | 84 => ⟨S800000x128, .f32⟩
  | 85 => ⟨S800000x128, .f32⟩
  | 86 => ⟨S800000x128, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000, .f32⟩
  | 96 => ⟨S800000x1, .f32⟩
  | 97 => ⟨S800000x128, .f32⟩
  | 98 => ⟨S800000x128, .f32⟩
  | 99 => ⟨S_, .f32⟩
  | 100 => ⟨S50000x128, .f32⟩
  | 101 => ⟨S800000x1, .i32⟩
  | 102 => ⟨S50000x128, .f32⟩
  | 103 => ⟨S_, .f32⟩
  | 104 => ⟨S800000x1, .f32⟩
  | 105 => ⟨S_, .f32⟩
  | 106 => ⟨S50000x1, .f32⟩
  | 107 => ⟨S800000x1, .i32⟩
  | 108 => ⟨S50000x1, .f32⟩
  | 109 => ⟨S_, .f32⟩
  | 110 => ⟨S50000x1, .f32⟩
  | 111 => ⟨S50000x1, .f32⟩
  | 112 => ⟨S50000x128, .f32⟩
  | 113 => ⟨S50000x128, .f32⟩
  | 114 => ⟨S50000x192, .f32⟩
  | 115 => ⟨S50000x128, .f32⟩
  | 116 => ⟨S1x128, .f32⟩
  | 117 => ⟨S50000x128, .f32⟩
  | 118 => ⟨S50000x128, .f32⟩
  | 119 => ⟨S50000x128, .f32⟩
  | 120 => ⟨S50000x128, .f32⟩
  | 121 => ⟨S_, .f32⟩
  | 122 => ⟨S50000x128, .f32⟩
  | 123 => ⟨S50000x128, .f32⟩
  | 124 => ⟨S_, .f32⟩
  | 125 => ⟨S50000x128, .f32⟩
  | 126 => ⟨S50000x128, .f32⟩
  | 127 => ⟨S50000x128, .f32⟩
  | _ => ⟨S50000x64, .f32⟩

abbrev hbmTy0_1 (i : Nat) : BufTy := match i % 128 with
  | 0 => ⟨S50000x64, .f32⟩
  | 1 => ⟨S1x64, .f32⟩
  | 2 => ⟨S50000x64, .f32⟩
  | 3 => ⟨S50000x64, .f32⟩
  | 4 => ⟨S800000x1, .f32⟩
  | 5 => ⟨S1x1, .f32⟩
  | 6 => ⟨S800000x1, .f32⟩
  | 7 => ⟨S800000x1, .f32⟩
  | 8 => ⟨S800000x3, .f32⟩
  | 9 => ⟨S800000x3, .f32⟩
  | 10 => ⟨S_, .f32⟩
  | 11 => ⟨S50000x3, .f32⟩
  | 12 => ⟨S800000x1, .i32⟩
  | 13 => ⟨S50000x3, .f32⟩
  | 14 => ⟨S50000x3, .f32⟩
  | 15 => ⟨S50000x3, .f32⟩
  | 16 => ⟨S50000x3, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst : Ref sig .tc := ⟨.hbm, 39, rfl⟩
abbrev main_v20 : Ref sig .tc := ⟨.hbm, 40, rfl⟩
abbrev main_v21 : Ref sig .tc := ⟨.hbm, 41, rfl⟩
abbrev main_c_3 : Ref sig .tc := ⟨.hbm, 42, rfl⟩
abbrev main_v22 : Ref sig .tc := ⟨.hbm, 43, rfl⟩
abbrev main_v23 : Ref sig .tc := ⟨.hbm, 44, rfl⟩
abbrev main_c_4 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_5 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_call0_v0 : Ref sig .tc := ⟨.hbm, 65, rfl⟩
abbrev main_call0_v1 : Ref sig .tc := ⟨.hbm, 66, rfl⟩
abbrev main_call0_cst : Ref sig .tc := ⟨.hbm, 67, rfl⟩
abbrev main_call0_v2 : Ref sig .tc := ⟨.hbm, 68, rfl⟩
abbrev main_call0_v3 : Ref sig .tc := ⟨.hbm, 69, rfl⟩
abbrev main_call0_cst_0 : Ref sig .tc := ⟨.hbm, 70, rfl⟩
abbrev main_call0_v4 : Ref sig .tc := ⟨.hbm, 71, rfl⟩
abbrev main_call0_v5 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_call1_v0 : Ref sig .tc := ⟨.hbm, 78, rfl⟩
abbrev main_call1_v1 : Ref sig .tc := ⟨.hbm, 79, rfl⟩
abbrev main_call1_cst : Ref sig .tc := ⟨.hbm, 80, rfl⟩
abbrev main_call1_v2 : Ref sig .tc := ⟨.hbm, 81, rfl⟩
abbrev main_call1_v3 : Ref sig .tc := ⟨.hbm, 82, rfl⟩
abbrev main_call1_cst_0 : Ref sig .tc := ⟨.hbm, 83, rfl⟩
abbrev main_call1_v4 : Ref sig .tc := ⟨.hbm, 84, rfl⟩
abbrev main_call1_v5 : Ref sig .tc := ⟨.hbm, 85, rfl⟩
abbrev main_v46 : Ref sig .tc := ⟨.hbm, 86, rfl⟩
abbrev main_c_7 : Ref sig .tc := ⟨.hbm, 87, rfl⟩
abbrev main_v47 : Ref sig .tc := ⟨.hbm, 88, rfl⟩
abbrev main_v48 : Ref sig .tc := ⟨.hbm, 89, rfl⟩
abbrev main_c_8 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_cst_9 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_cst_10 : Ref sig .tc := ⟨.hbm, 103, rfl⟩
abbrev main_v60 : Ref sig .tc := ⟨.hbm, 104, rfl⟩
abbrev main_cst_11 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_cst_12 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_call2_v0 : Ref sig .tc := ⟨.hbm, 119, rfl⟩
abbrev main_call2_v1 : Ref sig .tc := ⟨.hbm, 120, rfl⟩
abbrev main_call2_cst : Ref sig .tc := ⟨.hbm, 121, rfl⟩
abbrev main_call2_v2 : Ref sig .tc := ⟨.hbm, 122, rfl⟩
abbrev main_call2_v3 : Ref sig .tc := ⟨.hbm, 123, rfl⟩
abbrev main_call2_cst_0 : Ref sig .tc := ⟨.hbm, 124, rfl⟩
abbrev main_call2_v4 : Ref sig .tc := ⟨.hbm, 125, rfl⟩
abbrev main_call2_v5 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_cst_13 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  reducesTo_S800000x3_S800000_d1 : S800000x3.ReducesTo [1] S800000
  h_S_ : 0 < S_.numel
  concatenates_S800000x64_S800000x64_S800000x1_S800000x16_S800000x145_d1 : Shape.Concatenates [S800000x64, S800000x64, S800000x1, S800000x16] S800000x145 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  concatenates_S50000x64_S50000x128_S50000x192_d1 : Shape.Concatenates [S50000x64, S50000x128] S50000x192 1
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S800000x1_S800000x3_0_1 : S800000x1.BroadcastsInDim S800000x3 (![0, 1] : Fin 2 → Fin S800000x3.rank)
  bcast_S_S50000x3 : S_.BroadcastsInDim S50000x3 (![] : Fin 0 → Fin S50000x3.rank)
  bcast_S50000x1_S50000x3_0_1 : S50000x1.BroadcastsInDim S50000x3 (![0, 1] : Fin 2 → Fin S50000x3.rank)
  gather_S50000x3_S800000x1_S800000x3_1_0_n_n_0_1_13_wf : GatherDims.WF S50000x3 S800000x1 S800000x3 [1] [0] [] [0] [] 1 ![1, 3]
  gather_S50000x64_S800000x1_S800000x64_1_0_n_n_0_1_164_wf : GatherDims.WF S50000x64 S800000x1 S800000x64 [1] [0] [] [0] [] 1 ![1, 64]
  dot_S800000x145_S145x128_S800000x128_1_0_0_1_n_n_wf : DotDims.WF S800000x145 S145x128 S800000x128 [1] [0] [0] [1] [] []
  dot_S800000x128_S128x128_S800000x128_1_0_0_1_n_n_wf : DotDims.WF S800000x128 S128x128 S800000x128 [1] [0] [0] [1] [] []
  gather_S50000_S800000x1_S800000_n_0_n_n_0_1_1_wf : GatherDims.WF S50000 S800000x1 S800000 [] [0] [] [0] [] 1 ![1]
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  dot_S50000x192_S192x128_S50000x128_1_0_0_1_n_n_wf : DotDims.WF S50000x192 S192x128 S50000x128 [1] [0] [0] [1] [] []
  dot_S50000x128_S128x64_S50000x64_1_0_0_1_n_n_wf : DotDims.WF S50000x128 S128x64 S50000x64 [1] [0] [0] [1] [] []
  dot_S800000x128_S128x1_S800000x1_1_0_0_1_n_n_wf : DotDims.WF S800000x128 S128x1 S800000x1 [1] [0] [0] [1] [] []
  scatter_S50000x3_S800000x1_S800000x3_1_0_0_1_wf : ScatterDims.WF S50000x3 S800000x1 S800000x3 [1] [0] [0] 1

variable [Facts₀]

def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x145_S145x128_S800000x128_1_0_0_1_n_n : DotDims S800000x145 S145x128 S800000x128 where
  lhsContracting := [1]
  rhsContracting := [0]
  lhsNonContracting := [0]
  rhsNonContracting := [1]
  lhsBatch := []
  rhsBatch := []
  wf := dot_S800000x145_S145x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x192_S192x128_S50000x128_1_0_0_1_n_n : DotDims S50000x192 S192x128 S50000x128 where
  lhsContracting := [1]
  rhsContracting := [0]
  lhsNonContracting := [0]
  rhsNonContracting := [1]
  lhsBatch := []
  rhsBatch := []
  wf := dot_S50000x192_S192x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf

class Facts : Prop extends Facts₀ where

variable [Facts]
-- ==== Proof.KData.lean ====
/- The two pallas_calls of this program as data: for each call, a window's block at a grid point read off the
   array the call finds, what the body leaves in each output window's buffer as a function of the input blocks
   (one whole-block store each, over the payload terms of the body), the resulting per-point contents, and the
   buffer contents at each boundary of the program: after the first host stretch, after the first call, after
   the second host stretch, after the second call. Only definitions and their projections are here. -/
import proofs.«400004_j53979148976481_3_alg».proof.Proof.Gen.Kernel.Launch
import proofs.«400004_j53979148976481_3_alg».proof.Proof.Gen.Kernel.Skeleton
import proofs.«400004_j53979148976481_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.GenP

open Idealize.ShloMosaic Idealize.ShloMosaic.TcCoe
open Idealize.SL Idealize.SL.RA Idealize.SL.BI
open scoped Idealize.SL.BI
open Idealize.SL.Sem
open Idealize.ShloMosaic.Pipeline (Dat Cfg Window)
open Cert.Kernel Cert.Kernel.Gen

variable {F : FTy → Type} [FloatOps F]

variable (m : (ℓ : Loc nD τ sig) → Buf (Elt F) ℓ) (ρ : Dev nD → PrngReg)

section Regions
variable (V : (c : Dev nD) → (b : Ref sig .tc) → Buf (Elt F) ((c : Thread nD τ).loc b))

/-! ## First call (the per-edge network): 14 input windows, 2 output windows, 200 grid points of 4000 edges -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The gated message block (window 14): one store of the whole 4000×128 block. -/
def out0_14 (x0 : Vec F S4000x64 .bf16) (x1 : Vec F S4000x64 .bf16) (x2 : Vec F S4000x3 .f32) (x3 : Vec F S4000x16 .f32) (x4 : Vec F S4000x1 .f32) (x5 : Vec F S64x128 .bf16) (x6 : Vec F S64x128 .bf16) (x7 : Vec F S1x128 .f32) (x8 : Vec F S16x128 .bf16) (x9 : Vec F S1x128 .f32) (x10 : Vec F S128x128 .bf16) (x11 : Vec F S1x128 .f32) (x12 : Vec F S128x1 .bf16) (x13 : Vec F S1x1 .f32) : Vec F S4000x128 .bf16 :=
  View.canon [⟨(Rect.unit (s := S4000x128) ![0, 0] S4000x128.size inb_S4000x128_S4000x128_0_0), k0_pay3 (k0_pay4 (View.ld x2 (Rect.unit (s := S4000x3) ![0, 0] S4000x3.size inb_S4000x3_S4000x3_0_0)) (View.ld x0 (Rect.unit (s := S4000x64) ![0, 0] S4000x64.size inb_S4000x64_S4000x64_0_0)) (View.ld x5 (Rect.unit (s := S64x128) ![0, 0] S64x128.size inb_S64x128_S64x128_0_0)) (View.ld x1 (Rect.unit (s := S4000x64) ![0, 0] S4000x64.size inb_S4000x64_S4000x64_0_0)) (View.ld x6 (Rect.unit (s := S64x128) ![0, 0] S64x128.size inb_S64x128_S64x128_0_0)) (View.ld x3 (Rect.unit (s := S4000x16) ![0, 0] S4000x16.size inb_S4000x16_S4000x16_0_0)) (View.ld x8 (Rect.unit (s := S16x128) ![0, 0] S16x128.size inb_S16x128_S16x128_0_0)) (View.ld x7 (Rect.unit (s := S1x128) ![0, 0] S1x128.size inb_S1x128_S1x128_0_0)) (View.ld x9 (Rect.unit (s := S1x128) ![0, 0] S1x128.size inb_S1x128_S1x128_0_0))) (View.ld x10 (Rect.unit (s := S128x128) ![0, 0] S128x128.size inb_S128x128_S128x128_0_0)) (View.ld x11 (Rect.unit (s := S1x128) ![0, 0] S1x128.size inb_S1x128_S1x128_0_0)) (View.ld x4 (Rect.unit (s := S4000x1) ![0, 0] S4000x1.size inb_S4000x1_S4000x1_0_0))⟩]

/-- The coordinate weight block (window 15): one store of the whole 4000×1 block. -/
def out0_15 (x0 : Vec F S4000x64 .bf16) (x1 : Vec F S4000x64 .bf16) (x2 : Vec F S4000x3 .f32) (x3 : Vec F S4000x16 .f32) (x4 : Vec F S4000x1 .f32) (x5 : Vec F S64x128 .bf16) (x6 : Vec F S64x128 .bf16) (x7 : Vec F S1x128 .f32) (x8 : Vec F S16x128 .bf16) (x9 : Vec F S1x128 .f32) (x10 : Vec F S128x128 .bf16) (x11 : Vec F S1x128 .f32) (x12 : Vec F S128x1 .bf16) (x13 : Vec F S1x1 .f32) : Vec F S4000x1 .f32 :=
  View.canon [⟨(Rect.unit (s := S4000x1) ![0, 0] S4000x1.size inb_S4000x1_S4000x1_0_0), k0_pay2 (k0_pay4 (View.ld x2 (Rect.unit (s := S4000x3) ![0, 0] S4000x3.size inb_S4000x3_S4000x3_0_0)) (View.ld x0 (Rect.unit (s := S4000x64) ![0, 0] S4000x64.size inb_S4000x64_S4000x64_0_0)) (View.ld x5 (Rect.unit (s := S64x128) ![0, 0] S64x128.size inb_S64x128_S64x128_0_0)) (View.ld x1 (Rect.unit (s := S4000x64) ![0, 0] S4000x64.size inb_S4000x64_S4000x64_0_0)) (View.ld x6 (Rect.unit (s := S64x128) ![0, 0] S64x128.size inb_S64x128_S64x128_0_0)) (View.ld x3 (Rect.unit (s := S4000x16) ![0, 0] S4000x16.size inb_S4000x16_S4000x16_0_0)) (View.ld x8 (Rect.unit (s := S16x128) ![0, 0] S16x128.size inb_S16x128_S16x128_0_0)) (View.ld x7 (Rect.unit (s := S1x128) ![0, 0] S1x128.size inb_S1x128_S1x128_0_0)) (View.ld x9 (Rect.unit (s := S1x128) ![0, 0] S1x128.size inb_S1x128_S1x128_0_0))) (View.ld x10 (Rect.unit (s := S128x128) ![0, 0] S128x128.size inb_S128x128_S128x128_0_0)) (View.ld x11 (Rect.unit (s := S1x128) ![0, 0] S1x128.size inb_S1x128_S1x128_0_0)) (View.ld x4 (Rect.unit (s := S4000x1) ![0, 0] S4000x1.size inb_S4000x1_S4000x1_0_0)) (View.ld x12 (Rect.unit (s := S128x1) ![0, 0] S128x1.size inb_S128x1_S128x1_0_0)) (View.ld x13 (Rect.unit (s := S1x1) ![0, 0] S1x1.size inb_S1x1_S1x1_0_0))⟩]

/-- Per-point contents of the first call on core `c`: arrays as found; each input's buffer at its block, each
    output's at the body's result on the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)
    | ⟨15, _⟩ => out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)
    | ⟨_ + 16, h⟩ => absurd h (Nat.not_lt.2 (Nat.le_add_left _ _))
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) : (dat0 V c).after 14 t = out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) := by dsimp only [dat0]
theorem after0_15 (c : Dev nD) (t : Fin cfg0.N) : (dat0 V c).after 15 t = out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) := by dsimp only [dat0]

/-! ## Second call (the per-node network): 9 input windows, 2 output windows, 10 grid points of 5000 nodes -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The new node features (window 9): one store of the whole 5000×64 block. -/
def out1_9 (x0 : Vec F S5000x64 .bf16) (x1 : Vec F S5000x128 .bf16) (x2 : Vec F S5000x3 .f32) (x3 : Vec F S5000x3 .f32) (x4 : Vec F S64x128 .bf16) (x5 : Vec F S128x128 .bf16) (x6 : Vec F S1x128 .f32) (x7 : Vec F S128x64 .bf16) (x8 : Vec F S1x64 .f32) : Vec F S5000x64 .f32 :=
  View.canon [⟨(Rect.unit (s := S5000x64) ![0, 0] S5000x64.size inb_S5000x64_S5000x64_0_0), k1_pay1 (View.ld x0 (Rect.unit (s := S5000x64) ![0, 0] S5000x64.size inb_S5000x64_S5000x64_0_0)) (View.ld x4 (Rect.unit (s := S64x128) ![0, 0] S64x128.size inb_S64x128_S64x128_0_0)) (View.ld x1 (Rect.unit (s := S5000x128) ![0, 0] S5000x128.size inb_S5000x128_S5000x128_0_0)) (View.ld x5 (Rect.unit (s := S128x128) ![0, 0] S128x128.size inb_S128x128_S128x128_0_0)) (View.ld x6 (Rect.unit (s := S1x128) ![0, 0] S1x128.size inb_S1x128_S1x128_0_0)) (View.ld x7 (Rect.unit (s := S128x64) ![0, 0] S128x64.size inb_S128x64_S128x64_0_0)) (View.ld x8 (Rect.unit (s := S1x64) ![0, 0] S1x64.size inb_S1x64_S1x64_0_0))⟩]

/-- The new positions (window 10): one store of the whole 5000×3 block. -/
def out1_10 (x0 : Vec F S5000x64 .bf16) (x1 : Vec F S5000x128 .bf16) (x2 : Vec F S5000x3 .f32) (x3 : Vec F S5000x3 .f32) (x4 : Vec F S64x128 .bf16) (x5 : Vec F S128x128 .bf16) (x6 : Vec F S1x128 .f32) (x7 : Vec F S128x64 .bf16) (x8 : Vec F S1x64 .f32) : Vec F S5000x3 .f32 :=
  View.canon [⟨(Rect.unit (s := S5000x3) ![0, 0] S5000x3.size inb_S5000x3_S5000x3_0_0), k1_pay2 (View.ld x2 (Rect.unit (s := S5000x3) ![0, 0] S5000x3.size inb_S5000x3_S5000x3_0_0)) (View.ld x3 (Rect.unit (s := S5000x3) ![0, 0] S5000x3.size inb_S5000x3_S5000x3_0_0))⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
    | ⟨10, _⟩ => out1_10 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]
theorem after1_10 (c : Dev nD) (t : Fin cfg1.N) : (dat1 V c).after 10 t = out1_10 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

end Regions

/-! ## The buffer contents at each boundary of the program -/

/-- At launch. -/
abbrev W0 : Dev nD → Valuation τ sig (Elt F) := fun c b => m ((c : Dev nD), b)
/-- After the first host stretch (the first call's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first call: its arrays at what the write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
/-- After the second host stretch (the second call's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the second call. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b

end Cert.Kernel.GenP

end
-- ==== Proof.KIData.lean ====
/- The two pallas_calls of this program as data: for each call, a window's block at a grid point read off the
   array the call finds, what the body leaves in each output window's buffer as a function of the input blocks
   (one whole-block store each, over the payload terms of the body), the resulting per-point contents, and the
   buffer contents at each boundary of the program: after the first host stretch, after the first call, after
   the second host stretch, after the second call. Only definitions and their projections are here. -/
import proofs.«400004_j53979148976481_3_alg».proof.Proof.Gen.KernelIdeal.Launch
import proofs.«400004_j53979148976481_3_alg».proof.Proof.Gen.KernelIdeal.Skeleton
import proofs.«400004_j53979148976481_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.GenP

open Idealize.ShloMosaic Idealize.ShloMosaic.TcCoe
open Idealize.SL Idealize.SL.RA Idealize.SL.BI
open scoped Idealize.SL.BI
open Idealize.SL.Sem
open Idealize.ShloMosaic.Pipeline (Dat Cfg Window)
open Cert.KernelIdeal Cert.KernelIdeal.Gen

variable {F : FTy → Type} [FloatOps F]

variable (m : (ℓ : Loc nD τ sig) → Buf (Elt F) ℓ) (ρ : Dev nD → PrngReg)

section Regions
variable (V : (c : Dev nD) → (b : Ref sig .tc) → Buf (Elt F) ((c : Thread nD τ).loc b))

/-! ## First call (the per-edge network): 14 input windows, 2 output windows, 200 grid points of 4000 edges -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The gated message block (window 14): one store of the whole 4000×128 block. -/
def out0_14 (x0 : Vec F S4000x64 .bf16) (x1 : Vec F S4000x64 .bf16) (x2 : Vec F S4000x3 .f32) (x3 : Vec F S4000x16 .f32) (x4 : Vec F S4000x1 .f32) (x5 : Vec F S64x128 .bf16) (x6 : Vec F S64x128 .bf16) (x7 : Vec F S1x128 .f32) (x8 : Vec F S16x128 .bf16) (x9 : Vec F S1x128 .f32) (x10 : Vec F S128x128 .bf16) (x11 : Vec F S1x128 .f32) (x12 : Vec F S128x1 .bf16) (x13 : Vec F S1x1 .f32) : Vec F S4000x128 .bf16 :=
  View.canon [⟨(Rect.unit (s := S4000x128) ![0, 0] S4000x128.size inb_S4000x128_S4000x128_0_0), k0_pay3 (k0_pay4 (View.ld x2 (Rect.unit (s := S4000x3) ![0, 0] S4000x3.size inb_S4000x3_S4000x3_0_0)) (View.ld x0 (Rect.unit (s := S4000x64) ![0, 0] S4000x64.size inb_S4000x64_S4000x64_0_0)) (View.ld x5 (Rect.unit (s := S64x128) ![0, 0] S64x128.size inb_S64x128_S64x128_0_0)) (View.ld x1 (Rect.unit (s := S4000x64) ![0, 0] S4000x64.size inb_S4000x64_S4000x64_0_0)) (View.ld x6 (Rect.unit (s := S64x128) ![0, 0] S64x128.size inb_S64x128_S64x128_0_0)) (View.ld x3 (Rect.unit (s := S4000x16) ![0, 0] S4000x16.size inb_S4000x16_S4000x16_0_0)) (View.ld x8 (Rect.unit (s := S16x128) ![0, 0] S16x128.size inb_S16x128_S16x128_0_0)) (View.ld x7 (Rect.unit (s := S1x128) ![0, 0] S1x128.size inb_S1x128_S1x128_0_0)) (View.ld x9 (Rect.unit (s := S1x128) ![0, 0] S1x128.size inb_S1x128_S1x128_0_0))) (View.ld x10 (Rect.unit (s := S128x128) ![0, 0] S128x128.size inb_S128x128_S128x128_0_0)) (View.ld x11 (Rect.unit (s := S1x128) ![0, 0] S1x128.size inb_S1x128_S1x128_0_0)) (View.ld x4 (Rect.unit (s := S4000x1) ![0, 0] S4000x1.size inb_S4000x1_S4000x1_0_0))⟩]

/-- The coordinate weight block (window 15): one store of the whole 4000×1 block. -/
def out0_15 (x0 : Vec F S4000x64 .bf16) (x1 : Vec F S4000x64 .bf16) (x2 : Vec F S4000x3 .f32) (x3 : Vec F S4000x16 .f32) (x4 : Vec F S4000x1 .f32) (x5 : Vec F S64x128 .bf16) (x6 : Vec F S64x128 .bf16) (x7 : Vec F S1x128 .f32) (x8 : Vec F S16x128 .bf16) (x9 : Vec F S1x128 .f32) (x10 : Vec F S128x128 .bf16) (x11 : Vec F S1x128 .f32) (x12 : Vec F S128x1 .bf16) (x13 : Vec F S1x1 .f32) : Vec F S4000x1 .f32 :=
  View.canon [⟨(Rect.unit (s := S4000x1) ![0, 0] S4000x1.size inb_S4000x1_S4000x1_0_0), k0_pay2 (k0_pay4 (View.ld x2 (Rect.unit (s := S4000x3) ![0, 0] S4000x3.size inb_S4000x3_S4000x3_0_0)) (View.ld x0 (Rect.unit (s := S4000x64) ![0, 0] S4000x64.size inb_S4000x64_S4000x64_0_0)) (View.ld x5 (Rect.unit (s := S64x128) ![0, 0] S64x128.size inb_S64x128_S64x128_0_0)) (View.ld x1 (Rect.unit (s := S4000x64) ![0, 0] S4000x64.size inb_S4000x64_S4000x64_0_0)) (View.ld x6 (Rect.unit (s := S64x128) ![0, 0] S64x128.size inb_S64x128_S64x128_0_0)) (View.ld x3 (Rect.unit (s := S4000x16) ![0, 0] S4000x16.size inb_S4000x16_S4000x16_0_0)) (View.ld x8 (Rect.unit (s := S16x128) ![0, 0] S16x128.size inb_S16x128_S16x128_0_0)) (View.ld x7 (Rect.unit (s := S1x128) ![0, 0] S1x128.size inb_S1x128_S1x128_0_0)) (View.ld x9 (Rect.unit (s := S1x128) ![0, 0] S1x128.size inb_S1x128_S1x128_0_0))) (View.ld x10 (Rect.unit (s := S128x128) ![0, 0] S128x128.size inb_S128x128_S128x128_0_0)) (View.ld x11 (Rect.unit (s := S1x128) ![0, 0] S1x128.size inb_S1x128_S1x128_0_0)) (View.ld x4 (Rect.unit (s := S4000x1) ![0, 0] S4000x1.size inb_S4000x1_S4000x1_0_0)) (View.ld x12 (Rect.unit (s := S128x1) ![0, 0] S128x1.size inb_S128x1_S128x1_0_0)) (View.ld x13 (Rect.unit (s := S1x1) ![0, 0] S1x1.size inb_S1x1_S1x1_0_0))⟩]

/-- Per-point contents of the first call on core `c`: arrays as found; each input's buffer at its block, each
    output's at the body's result on the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)
    | ⟨15, _⟩ => out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)
    | ⟨_ + 16, h⟩ => absurd h (Nat.not_lt.2 (Nat.le_add_left _ _))
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) : (dat0 V c).after 14 t = out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) := by dsimp only [dat0]
theorem after0_15 (c : Dev nD) (t : Fin cfg0.N) : (dat0 V c).after 15 t = out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) := by dsimp only [dat0]

/-! ## Second call (the per-node network): 9 input windows, 2 output windows, 10 grid points of 5000 nodes -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The new node features (window 9): one store of the whole 5000×64 block. -/
def out1_9 (x0 : Vec F S5000x64 .bf16) (x1 : Vec F S5000x128 .bf16) (x2 : Vec F S5000x3 .f32) (x3 : Vec F S5000x3 .f32) (x4 : Vec F S64x128 .bf16) (x5 : Vec F S128x128 .bf16) (x6 : Vec F S1x128 .f32) (x7 : Vec F S128x64 .bf16) (x8 : Vec F S1x64 .f32) : Vec F S5000x64 .f32 :=
  View.canon [⟨(Rect.unit (s := S5000x64) ![0, 0] S5000x64.size inb_S5000x64_S5000x64_0_0), k1_pay1 (View.ld x0 (Rect.unit (s := S5000x64) ![0, 0] S5000x64.size inb_S5000x64_S5000x64_0_0)) (View.ld x4 (Rect.unit (s := S64x128) ![0, 0] S64x128.size inb_S64x128_S64x128_0_0)) (View.ld x1 (Rect.unit (s := S5000x128) ![0, 0] S5000x128.size inb_S5000x128_S5000x128_0_0)) (View.ld x5 (Rect.unit (s := S128x128) ![0, 0] S128x128.size inb_S128x128_S128x128_0_0)) (View.ld x6 (Rect.unit (s := S1x128) ![0, 0] S1x128.size inb_S1x128_S1x128_0_0)) (View.ld x7 (Rect.unit (s := S128x64) ![0, 0] S128x64.size inb_S128x64_S128x64_0_0)) (View.ld x8 (Rect.unit (s := S1x64) ![0, 0] S1x64.size inb_S1x64_S1x64_0_0))⟩]

/-- The new positions (window 10): one store of the whole 5000×3 block. -/
def out1_10 (x0 : Vec F S5000x64 .bf16) (x1 : Vec F S5000x128 .bf16) (x2 : Vec F S5000x3 .f32) (x3 : Vec F S5000x3 .f32) (x4 : Vec F S64x128 .bf16) (x5 : Vec F S128x128 .bf16) (x6 : Vec F S1x128 .f32) (x7 : Vec F S128x64 .bf16) (x8 : Vec F S1x64 .f32) : Vec F S5000x3 .f32 :=
  View.canon [⟨(Rect.unit (s := S5000x3) ![0, 0] S5000x3.size inb_S5000x3_S5000x3_0_0), k1_pay2 (View.ld x2 (Rect.unit (s := S5000x3) ![0, 0] S5000x3.size inb_S5000x3_S5000x3_0_0)) (View.ld x3 (Rect.unit (s := S5000x3) ![0, 0] S5000x3.size inb_S5000x3_S5000x3_0_0))⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
    | ⟨10, _⟩ => out1_10 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]
theorem after1_10 (c : Dev nD) (t : Fin cfg1.N) : (dat1 V c).after 10 t = out1_10 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

end Regions

/-! ## The buffer contents at each boundary of the program -/

/-- At launch. -/
abbrev W0 : Dev nD → Valuation τ sig (Elt F) := fun c b => m ((c : Dev nD), b)
/-- After the first host stretch (the first call's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first call: its arrays at what the write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
/-- After the second host stretch (the second call's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the second call. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b

end Cert.KernelIdeal.GenP

end
-- ==== Proof.Spec.lean ====
/- The layer as plain mathematics on the extended reals, entry by entry.
   An edge e with target node and source node carries: the target's and the source's 64 features, the 3 coordinate
   differences, 16 edge attributes and a gate. Its message is  silu(silu(z·W₁ + b₁)·W₂ + b₂)·gate  where z is the
   145-vector (target features, source features, squared distance, attributes); its coordinate weight is
   message·w_c + b_c. A node averages the messages and the weighted coordinate differences of the edges that
   point at it (dividing by max(count, 1)), then  x' = silu((x, average)·V₁ + c₁)·V₂ + c₂  and  p' = p + average shift.
   The first weight matrix is used in two arrangements: whole (145 rows, one sum) and split into its four row
   bands (four sums); likewise the node matrix (192 rows) and its two bands. The two arrangements agree because a
   finite sum over 145 (or 192) indices is the sum of the sums over the bands: only commutativity and
   associativity of addition on the extended reals are used. -/
import Idealize.ShloMosaic.PureOps.Ideal
import Mathlib.Algebra.BigOperators.Fin
import Mathlib.Algebra.BigOperators.Group.Finset.Basic

noncomputable section

namespace Cert.Spec

open Idealize.ShloMosaic

/-- x · 1/(1 + e⁻ˣ). -/
def silu (x : EReal) : EReal := x * Ideal.logistic x

/-! ## Row bands of the two weight matrices -/

def rowD (k : Fin 64) : Fin 145 := ⟨k.val, by have := k.isLt; omega⟩
def rowS (k : Fin 64) : Fin 145 := ⟨64 + k.val, by have := k.isLt; omega⟩
def rowR : Fin 145 := ⟨128, by omega⟩
def rowA (k : Fin 16) : Fin 145 := ⟨129 + k.val, by have := k.isLt; omega⟩
def rowX (k : Fin 64) : Fin 192 := ⟨k.val, by have := k.isLt; omega⟩
def rowM (k : Fin 128) : Fin 192 := ⟨64 + k.val, by have := k.isLt; omega⟩

/-! ## One edge -/

/-- Squared length of the coordinate difference. -/
def r2 (df : Fin 3 → EReal) : EReal := ∑ k, df k * df k

/-- First layer's input to the activation, the weight matrix given as its four row bands. -/
def pre1K (xd xs : Fin 64 → EReal) (df : Fin 3 → EReal) (ea : Fin 16 → EReal)
    (Wd Ws : Fin 64 → Fin 128 → EReal) (wr : Fin 128 → EReal) (Wa : Fin 16 → Fin 128 → EReal) (b1 : Fin 128 → EReal)
    (j : Fin 128) : EReal :=
  (∑ k, xd k * Wd k j) + (∑ k, xs k * Ws k j) + (∑ k, ea k * Wa k j) + r2 df * wr j + b1 j

/-- The gated message, from the first layer's input to the activation. -/
def msgOf (p1 : Fin 128 → EReal) (s : EReal) (W2 : Fin 128 → Fin 128 → EReal) (b2 : Fin 128 → EReal) (j : Fin 128) : EReal :=
  silu ((∑ k, silu (p1 k) * W2 k j) + b2 j) * s

def msgK (xd xs : Fin 64 → EReal) (df : Fin 3 → EReal) (ea : Fin 16 → EReal) (s : EReal)
    (Wd Ws : Fin 64 → Fin 128 → EReal) (wr : Fin 128 → EReal) (Wa : Fin 16 → Fin 128 → EReal) (b1 : Fin 128 → EReal)
    (W2 : Fin 128 → Fin 128 → EReal) (b2 : Fin 128 → EReal) (j : Fin 128) : EReal :=
  msgOf (pre1K xd xs df ea Wd Ws wr Wa b1) s W2 b2 j

/-- The coordinate weight of an edge from its message. -/
def gam (mrow : Fin 128 → EReal) (wc : Fin 128 → EReal) (bc : EReal) : EReal := (∑ k, mrow k * wc k) + bc

/-- First layer's input to the activation with the whole 145-row matrix, in the band arrangement. -/
def pre1 (xd xs : Fin 64 → EReal) (df : Fin 3 → EReal) (ea : Fin 16 → EReal)
    (W1 : Fin 145 → Fin 128 → EReal) (b1 : Fin 128 → EReal) (j : Fin 128) : EReal :=
  pre1K xd xs df ea (fun k j => W1 (rowD k) j) (fun k j => W1 (rowS k) j) (fun j => W1 rowR j) (fun k j => W1 (rowA k) j) b1 j

def msg (xd xs : Fin 64 → EReal) (df : Fin 3 → EReal) (ea : Fin 16 → EReal) (s : EReal)
    (W1 : Fin 145 → Fin 128 → EReal) (b1 : Fin 128 → EReal) (W2 : Fin 128 → Fin 128 → EReal) (b2 : Fin 128 → EReal)
    (j : Fin 128) : EReal :=
  msgOf (pre1 xd xs df ea W1 b1) s W2 b2 j

/-- The 145-vector an edge feeds the first layer: target features, source features, squared distance, attributes. -/
def zvec (xd xs : Fin 64 → EReal) (df : Fin 3 → EReal) (ea : Fin 16 → EReal) (k : Fin 145) : EReal :=
  if h : k.val < 64 then xd ⟨k.val, h⟩
  else if h2 : k.val < 128 then xs ⟨k.val - 64, by omega⟩
  else if h3 : k.val < 129 then r2 df
  else ea ⟨k.val - 129, by have := k.isLt; omega⟩

/-! ## One node -/

/-- Sum of `f` over the edges selected by `sel`. -/
def segsum {E : Nat} (sel : Fin E → Prop) [DecidablePred sel] (f : Fin E → EReal) : EReal :=
  ∑ e ∈ Finset.univ.filter sel, f e

/-- The divisor: the number of selected edges, at least one (`one` is the unit). -/
def deg {E : Nat} (sel : Fin E → Prop) [DecidablePred sel] (one : EReal) : EReal :=
  max (segsum sel fun _ => one) one

/-- Average over the selected edges. -/
def avg {E : Nat} (sel : Fin E → Prop) [DecidablePred sel] (one : EReal) (f : Fin E → EReal) : EReal :=
  Ideal.div (segsum sel f) (deg sel one)

/-- Hidden layer of the node network, the 192-row matrix given as its two row bands. -/
def hidK (x : Fin 64 → EReal) (ma : Fin 128 → EReal) (Vx : Fin 64 → Fin 128 → EReal) (Vm : Fin 128 → Fin 128 → EReal)
    (c1 : Fin 128 → EReal) (k : Fin 128) : EReal :=
  silu ((∑ k', x k' * Vx k' k) + (∑ k', ma k' * Vm k' k) + c1 k)

def xnewK (x : Fin 64 → EReal) (ma : Fin 128 → EReal) (Vx : Fin 64 → Fin 128 → EReal) (Vm : Fin 128 → Fin 128 → EReal)
    (c1 : Fin 128 → EReal) (V2 : Fin 128 → Fin 64 → EReal) (c2 : Fin 64 → EReal) (j : Fin 64) : EReal :=
  (∑ k, hidK x ma Vx Vm c1 k * V2 k j) + c2 j

def xnew (x : Fin 64 → EReal) (ma : Fin 128 → EReal) (V1 : Fin 192 → Fin 128 → EReal)
    (c1 : Fin 128 → EReal) (V2 : Fin 128 → Fin 64 → EReal) (c2 : Fin 64 → EReal) (j : Fin 64) : EReal :=
  xnewK x ma (fun k j => V1 (rowX k) j) (fun k j => V1 (rowM k) j) c1 V2 c2 j

/-- The 192-vector a node feeds its network: its features, then the averaged message. -/
def nvec (x : Fin 64 → EReal) (ma : Fin 128 → EReal) (k : Fin 192) : EReal :=
  if h : k.val < 64 then x ⟨k.val, h⟩ else ma ⟨k.val - 64, by have := k.isLt; omega⟩

end Cert.Spec

end
-- ==== Proof.SpecCongr.lean ====
/- Congruence of the segment sum, the divisor and the average: they depend on the selection only through which edges
   it holds for, whatever procedure decides it, and on the summand only through its values. -/
import proofs.«400004_j53979148976481_3_alg».proof.Proof.Spec

noncomputable section

namespace Cert.Spec

theorem segsum_congr {E : Nat} {sel sel' : Fin E → Prop} [DecidablePred sel] [DecidablePred sel'] {f f' : Fin E → EReal}
    (hs : ∀ e, sel e ↔ sel' e) (hf : ∀ e, f e = f' e) : segsum sel f = segsum sel' f' := by
  unfold segsum
  refine Finset.sum_congr ?_ (fun e _ => hf e)
  ext e
  simp only [Finset.mem_filter, Finset.mem_univ, true_and]
  exact hs e

theorem deg_congr {E : Nat} {sel sel' : Fin E → Prop} [DecidablePred sel] [DecidablePred sel'] (one : EReal)
    (hs : ∀ e, sel e ↔ sel' e) : deg sel one = deg sel' one := by
  unfold deg
  rw [segsum_congr hs (fun _ => rfl)]

theorem avg_congr {E : Nat} {sel sel' : Fin E → Prop} [DecidablePred sel] [DecidablePred sel'] (one : EReal)
    {f f' : Fin E → EReal} (hs : ∀ e, sel e ↔ sel' e) (hf : ∀ e, f e = f' e) : avg sel one f = avg sel' one f' := by
  unfold avg
  rw [segsum_congr hs hf, deg_congr one hs]

end Cert.Spec

end
-- ==== Proof.LibDots.lean ====
/-
  Three matrix products on the extended reals, each read at one entry as the sum over the contracted coordinate of the
  products of the operands' entries. General facts, about no particular program: the shapes are literal with variable
  extents, and the dimension record is given by its six axis lists with ANY proof of its side condition.
-/
import Idealize.ShloMosaic.PureOps.Ideal.Laws
import Idealize.ShloMosaic.Lib.ValueIdx

noncomputable section

namespace Cert.Lib.Dots

open Idealize.ShloMosaic Idealize.ShloMosaic.ValueIdx

/-- An M×K array times the transpose of an N×K array (both contract their second axis), accumulated into the all-zero
    array: entry (r, c) is the sum over k of A (r, k) · B (c, k). -/
theorem matmul_zero_rowsT_apply {M K N : Nat} {φ₁ φ₂ : FTy}
    (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂) (r : Fin M) (c : Fin N) :
    matmul (F := Ideal) (⟨[1], [1], [0], [0], [], [], w⟩ : DotDims _ _ _) prec A B (constant ⟨2, ![M, N]⟩ .f32 0x00000000#32) (ix2 r c)
      = ∑ k : Fin K, A (ix2 r k) * B (ix2 c k) := by
  show FloatOps.matmul _ prec A B _ (ix2 r c) = _
  -- the entry is the sum over the contraction index; that index has one axis of extent K, so the sum runs over Fin K
  rw [Ideal.matmul_constant_zero_apply,
    ← Equiv.sum_comp (contrEquiv1 (⟨[1], [1], [0], [0], [], [], w⟩ : DotDims _ _ _) K rfl rfl).symm]
  refine Finset.sum_congr rfl fun k _ => ?_
  have c2 := contrEquiv1_symm_val
    (⟨[1], [1], [0], [0], [], [], w⟩ : DotDims ⟨2, ![M, K]⟩ ⟨2, ![N, K]⟩ ⟨2, ![M, N]⟩) K rfl rfl k
  -- the first operand is read at (row of the output, contracted coordinate)
  have l2 : (⟨[1], [1], [0], [0], [], [], w⟩ : DotDims ⟨2, ![M, K]⟩ ⟨2, ![N, K]⟩ ⟨2, ![M, N]⟩).lhsIdx (ix2 r c)
      ((contrEquiv1 _ K rfl rfl).symm k) = ix2 r k := by
    funext ax; apply Fin.ext
    match ax with
    | ⟨0, _⟩ => simp [DotDims.lhsIdx]; rfl
    | ⟨1, _⟩ => simp [DotDims.lhsIdx]; exact c2
  -- the second operand is read at (column of the output, contracted coordinate)
  have r2 : (⟨[1], [1], [0], [0], [], [], w⟩ : DotDims ⟨2, ![M, K]⟩ ⟨2, ![N, K]⟩ ⟨2, ![M, N]⟩).rhsIdx (ix2 r c)
      ((contrEquiv1 _ K rfl rfl).symm k) = ix2 c k := by
    funext ax; apply Fin.ext
    match ax with
    | ⟨0, _⟩ => simp [DotDims.rhsIdx]; rfl
    | ⟨1, _⟩ => simp [DotDims.rhsIdx]; exact c2
  rw [l2, r2]

/-- An M×K array times a K×N array, accumulated into the all-zero array: entry (r, c) is the sum over k of
    A (r, k) · B (k, c). -/
theorem matmul_zero_rowsCols_apply {M K N : Nat} {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂) (r : Fin M) (c : Fin N) :
    matmul (F := Ideal) (⟨[1], [0], [0], [1], [], [], w⟩ : DotDims _ _ _) prec A B (constant ⟨2, ![M, N]⟩ .f32 0x00000000#32) (ix2 r c)
      = ∑ k : Fin K, A (ix2 r k) * B (ix2 k c) := by
  show FloatOps.matmul _ prec A B _ (ix2 r c) = _
  -- the entry is the sum over the contraction index; that index has one axis of extent K, so the sum runs over Fin K
  rw [Ideal.matmul_constant_zero_apply,
    ← Equiv.sum_comp (contrEquiv1 (⟨[1], [0], [0], [1], [], [], w⟩ : DotDims _ _ _) K rfl rfl).symm]
  refine Finset.sum_congr rfl fun k _ => ?_
  have c2 := contrEquiv1_symm_val
    (⟨[1], [0], [0], [1], [], [], w⟩ : DotDims ⟨2, ![M, K]⟩ ⟨2, ![K, N]⟩ ⟨2, ![M, N]⟩) K rfl rfl k
  -- the first operand is read at (row of the output, contracted coordinate)
  have l2 : (⟨[1], [0], [0], [1], [], [], w⟩ : DotDims ⟨2, ![M, K]⟩ ⟨2, ![K, N]⟩ ⟨2, ![M, N]⟩).lhsIdx (ix2 r c)
      ((contrEquiv1 _ K rfl rfl).symm k) = ix2 r k := by
    funext ax; apply Fin.ext
    match ax with
    | ⟨0, _⟩ => simp [DotDims.lhsIdx]; rfl
    | ⟨1, _⟩ => simp [DotDims.lhsIdx]; exact c2
  -- the second operand is read at (contracted coordinate, column of the output)
  have r2 : (⟨[1], [0], [0], [1], [], [], w⟩ : DotDims ⟨2, ![M, K]⟩ ⟨2, ![K, N]⟩ ⟨2, ![M, N]⟩).rhsIdx (ix2 r c)
      ((contrEquiv1 _ K rfl rfl).symm k) = ix2 k c := by
    funext ax; apply Fin.ext
    match ax with
    | ⟨0, _⟩ => simp [DotDims.rhsIdx]; exact c2
    | ⟨1, _⟩ => simp [DotDims.rhsIdx]; rfl
  rw [l2, r2]

/-- The host's product of a G×M×K array with the transpose of an N×K array (the last axis of the first against the
    last axis of the second, no batch axis): entry (g, m, c) is the sum over k of A (g, m, k) · B (c, k). -/
theorem dotGeneral_rank3_rowsT_apply {G M K N : Nat} {φ₁ φ₂ : FTy}
    (w : DotDims.WF ⟨3, ![G, M, K]⟩ ⟨2, ![N, K]⟩ ⟨3, ![G, M, N]⟩ [2] [1] [0, 1] [0] [] [])
    (prec : Option ContractPrecision) (A : FVec Ideal ⟨3, ![G, M, K]⟩ φ₁) (B : FVec Ideal ⟨2, ![N, K]⟩ φ₂)
    (g : Fin G) (m : Fin M) (c : Fin N) :
    Host.dotGeneral (F := Ideal) (⟨[2], [1], [0, 1], [0], [], [], w⟩ : DotDims _ _ _) prec A B (ix3 g m c)
      = ∑ k : Fin K, A (ix3 g m k) * B (ix2 c k) := by
  show FloatOps.dotGeneral _ prec _ A B (ix3 g m c) = _
  -- the entry is the sum over the contraction index; that index has one axis of extent K, so the sum runs over Fin K
  rw [Ideal.dotGeneral_apply,
    ← Equiv.sum_comp (contrEquiv1 (⟨[2], [1], [0, 1], [0], [], [], w⟩ : DotDims _ _ _) K rfl rfl).symm]
  refine Finset.sum_congr rfl fun k _ => ?_
  have c3 := contrEquiv1_symm_val
    (⟨[2], [1], [0, 1], [0], [], [], w⟩ : DotDims ⟨3, ![G, M, K]⟩ ⟨2, ![N, K]⟩ ⟨3, ![G, M, N]⟩) K rfl rfl k
  -- the first operand keeps the output's two leading coordinates and takes the contracted one last
  have l3 : (⟨[2], [1], [0, 1], [0], [], [], w⟩ : DotDims ⟨3, ![G, M, K]⟩ ⟨2, ![N, K]⟩ ⟨3, ![G, M, N]⟩).lhsIdx (ix3 g m c)
      ((contrEquiv1 _ K rfl rfl).symm k) = ix3 g m k := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  -- the second operand is read at (last coordinate of the output, contracted coordinate)
  have r3 : (⟨[2], [1], [0, 1], [0], [], [], w⟩ : DotDims ⟨3, ![G, M, K]⟩ ⟨2, ![N, K]⟩ ⟨3, ![G, M, N]⟩).rhsIdx (ix3 g m c)
      ((contrEquiv1 _ K rfl rfl).symm k) = ix2 c k := by
    funext ax; apply Fin.ext
    match ax with
    | ⟨0, _⟩ => simp [DotDims.rhsIdx]; rfl
    | ⟨1, _⟩ => simp [DotDims.rhsIdx]; exact c3
  rw [l3, r3]

end Cert.Lib.Dots

end
-- ==== Proof.EdgeBlock.lean ====
/- The edge network's body on one block of 4000 edges, read entry by entry on the extended reals, where every change
   of float format is the identity and every operation is exact. The hidden layer at (r, j) is the activation of
   the first layer's input (three matrix products, the squared distance times its weight row, the bias); the message
   at (r, j) is the activation of the second layer's input, times the row's gate; the coordinate weight of row r is
   the message row against the weight column, plus the bias. Three small layout facts come first: a column stretched
   over lanes, a vector viewed as a column, the sum over three lanes. -/
import proofs.«400004_j53979148976481_3_alg».proof.Proof.Gen.KernelIdeal.Skeleton
import proofs.«400004_j53979148976481_3_alg».proof.Proof.Spec
import proofs.«400004_j53979148976481_3_alg».proof.Proof.LibDots
import Idealize.ShloMosaic.Lib.ValueIdx
import Idealize.ShloMosaic.Lib.ValueLayout
import Idealize.ShloMosaic.PureOps.Ideal.Laws

noncomputable section

namespace Cert.KernelIdeal.EdgeBlock

open Idealize.ShloMosaic Idealize.ShloMosaic.ValueIdx
open Cert.KernelIdeal Cert.KernelIdeal.Gen

section Layout
variable {α : Type}

/-- A column `[a, 1]` stretched over `b` columns reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` viewed as the column `[a, 1]` reads, at `(i, u)`, the vector's entry `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-- The sum over the three lanes of a block of 4000 rows, at row `r`. -/
theorem laneSum3_apply (src : FVec Ideal S4000x3 .f32) (h : S4000x3.Reduces [1] S4000) (hφ : FKind.Formats .f32)
    (hacc : (0x00000000#32 : BitVec 32) = FKind.add.neutral .f32 hφ) (r : Fin 4000) :
    multiReduction (F := Ideal) .add [1] S4000 src 0x00000000#32 h hφ hacc (ix1 r) = ∑ k : Fin 3, src (ix2 r k) := by
  refine (Ideal.multiReduction_add_single src 0x00000000#32 h hφ hacc (ix1 r)).trans ?_
  show ∑ k : Fin 3, src (h.lift (ix1 r) k) = _
  refine Finset.sum_congr rfl fun k _ => congrArg src ?_
  funext ax; apply Fin.ext
  match ax with
  | ⟨0, _⟩ => rfl
  | ⟨1, _⟩ => rfl

/-- The squared length of a row's coordinate difference, laid down as a column and stretched over the 128 lanes. -/
theorem sqDist_at (v0 : FVec Ideal S4000x3 .f32) (hr : S4000x3.Reduces [1] S4000) (hφ : FKind.Formats .f32)
    (hacc : (0x00000000#32 : BitVec 32) = FKind.add.neutral .f32 hφ) (hc : S4000.ShapeCasts S4000x1)
    (hb : S4000x1.Broadcasts S4000x128) (r : Fin 4000) (j : Fin 128) :
    broadcastTo S4000x128 (shapeCast S4000x1 (multiReduction (F := Ideal) .add [1] S4000 (mulf v0 v0) 0x00000000#32 hr hφ hacc) hc) hb
        (ix2 r j)
      = Spec.r2 (fun k => v0 (ix2 r k)) := by
  refine (broadcastTo_a1_ab_apply _ hb r j).trans ?_
  refine (shapeCast_a_a1_apply _ hc r 0).trans ?_
  exact laneSum3_apply (mulf v0 v0) hr hφ hacc r

/-! ## The body's values at an entry -/

/-- The hidden layer of the edge network at entry `(r, j)`: the activation of the first layer's input, the first
    weight matrix given as its four row bands. -/
theorem hidden_at (v0 : Vec Ideal S4000x3 .f32) (v5 : Vec Ideal S4000x64 .bf16) (v7 : Vec Ideal S64x128 .bf16)
    (v10 : Vec Ideal S4000x64 .bf16) (v12 : Vec Ideal S64x128 .bf16) (v16 : Vec Ideal S4000x16 .f32)
    (v18 : Vec Ideal S16x128 .bf16) (v22 : Vec Ideal S1x128 .f32) (v28 : Vec Ideal S1x128 .f32) (r : Fin 4000) (j : Fin 128) :
    (k0_pay4 v0 v5 v7 v10 v12 v16 v18 v22 v28 : S4000x128.Idx → EReal) (ix2 r j)
      = Spec.silu (Spec.pre1K (fun k => v5 (ix2 r k)) (fun k => v10 (ix2 r k)) (fun k => v0 (ix2 r k)) (fun k => v16 (ix2 r k))
          (fun k j => v7 (ix2 k j)) (fun k j => v12 (ix2 k j)) (fun j => v22 (ix2 0 j)) (fun k j => v18 (ix2 k j))
          (fun j => v28 (ix2 0 j)) j) := by
  have hD := Cert.Lib.Dots.matmul_zero_rowsCols_apply (M := 4000) (K := 64) (N := 128) (φ₁ := .bf16) (φ₂ := .bf16)
    dot_S4000x64_S64x128_S4000x128_1_0_0_1_n_n_wf none v5 v7 r j
  have hS := Cert.Lib.Dots.matmul_zero_rowsCols_apply (M := 4000) (K := 64) (N := 128) (φ₁ := .bf16) (φ₂ := .bf16)
    dot_S4000x64_S64x128_S4000x128_1_0_0_1_n_n_wf none v10 v12 r j
  have hA := Cert.Lib.Dots.matmul_zero_rowsCols_apply (M := 4000) (K := 16) (N := 128) (φ₁ := .bf16) (φ₂ := .bf16)
    dot_S4000x16_S16x128_S4000x128_1_0_0_1_n_n_wf none (truncf .bf16 v16 bitsLt_bf16_f32) v18 r j
  have hR := sqDist_at v0 reduces_S4000x3_S4000 (.inl rfl) rfl shapeCasts_S4000_S4000x1 broadcasts_S4000x1_S4000x128 r j
  have hW := broadcastTo_1b_ab_apply v22 broadcasts_S1x128_S4000x128 r j
  have hB := broadcastTo_1b_ab_apply v28 broadcasts_S1x128_S4000x128 r j
  unfold k0_pay4
  simp only [shapeCast_self]
  refine congrArg Spec.silu ?_
  exact congrArg₂ (· + ·) (congrArg₂ (· + ·) (congrArg₂ (· + ·) (congrArg₂ (· + ·) hD hS) hA) (congrArg₂ (· * ·) hR hW)) hB

/-- The gated message before it is narrowed, at entry `(r, j)`, from the hidden layer's block. -/
theorem message_at (v34 : FVec Ideal S4000x128 .bf16) (v35 : Vec Ideal S128x128 .bf16) (v38 : Vec Ideal S1x128 .f32)
    (v44 : Vec Ideal S4000x1 .f32) (r : Fin 4000) (j : Fin 128) :
    (k0_pay1 v34 v35 v38 v44 : S4000x128.Idx → EReal) (ix2 r j)
      = Spec.silu ((∑ k : Fin 128, v34 (ix2 r k) * v35 (ix2 k j)) + v38 (ix2 0 j)) * v44 (ix2 r 0) := by
  have hM := Cert.Lib.Dots.matmul_zero_rowsCols_apply (M := 4000) (K := 128) (N := 128) (φ₁ := .bf16) (φ₂ := .bf16)
    dot_S4000x128_S128x128_S4000x128_1_0_0_1_n_n_wf none v34 v35 r j
  have hB := broadcastTo_1b_ab_apply v38 broadcasts_S1x128_S4000x128 r j
  have hG := broadcastTo_a1_ab_apply v44 broadcasts_S4000x1_S4000x128 r j
  unfold k0_pay1
  simp only [shapeCast_self]
  exact congrArg₂ (· * ·) (congrArg Spec.silu (congrArg₂ (· + ·) hM hB)) hG

/-! ## The two stored blocks -/

/-- The stored message block at `(r, j)`: the gated message of row `r`'s edge, lane `j`, from the rows `r` of the five
    per-edge blocks and from the weights. -/
theorem msgBlock_at (x0 : Vec Ideal S4000x64 .bf16) (x1 : Vec Ideal S4000x64 .bf16) (x2 : Vec Ideal S4000x3 .f32)
    (x3 : Vec Ideal S4000x16 .f32) (x4 : Vec Ideal S4000x1 .f32) (x5 : Vec Ideal S64x128 .bf16) (x6 : Vec Ideal S64x128 .bf16)
    (x7 : Vec Ideal S1x128 .f32) (x8 : Vec Ideal S16x128 .bf16) (x9 : Vec Ideal S1x128 .f32) (x10 : Vec Ideal S128x128 .bf16)
    (x11 : Vec Ideal S1x128 .f32) (r : Fin 4000) (j : Fin 128) :
    (k0_pay3 (k0_pay4 x2 x0 x5 x1 x6 x3 x8 x7 x9) x10 x11 x4 : S4000x128.Idx → EReal) (ix2 r j)
      = Spec.msgK (fun k => x0 (ix2 r k)) (fun k => x1 (ix2 r k)) (fun k => x2 (ix2 r k)) (fun k => x3 (ix2 r k)) (x4 (ix2 r 0))
          (fun k j => x5 (ix2 k j)) (fun k j => x6 (ix2 k j)) (fun j => x7 (ix2 0 j)) (fun k j => x8 (ix2 k j))
          (fun j => x9 (ix2 0 j)) (fun k j => x10 (ix2 k j)) (fun j => x11 (ix2 0 j)) j := by
  unfold k0_pay3
  refine (message_at (k0_pay4 x2 x0 x5 x1 x6 x3 x8 x7 x9) x10 x11 x4 r j).trans ?_
  unfold Spec.msgK Spec.msgOf
  refine congrArg (fun s => Spec.silu (s + x11 (ix2 0 j)) * x4 (ix2 r 0)) ?_
  exact Finset.sum_congr rfl fun k _ => congrArg (· * x10 (ix2 k j)) (hidden_at x2 x0 x5 x1 x6 x3 x8 x7 x9 r k)

/-- The stored coordinate-weight block at row `r`: the stored message row `r` against the weight column, plus the bias. -/
theorem gamBlock_at (v34 : FVec Ideal S4000x128 .bf16) (v35 : Vec Ideal S128x128 .bf16) (v38 : Vec Ideal S1x128 .f32)
    (v44 : Vec Ideal S4000x1 .f32) (v49 : Vec Ideal S128x1 .bf16) (v52 : Vec Ideal S1x1 .f32) (r : Fin 4000) :
    (k0_pay2 v34 v35 v38 v44 v49 v52 : S4000x1.Idx → EReal) (ix2 r 0)
      = Spec.gam (fun k => (k0_pay3 v34 v35 v38 v44 : S4000x128.Idx → EReal) (ix2 r k)) (fun k => v49 (ix2 k 0))
          (v52 (ix2 0 0)) := by
  have hM := Cert.Lib.Dots.matmul_zero_rowsCols_apply (M := 4000) (K := 128) (N := 1) (φ₁ := .bf16) (φ₂ := .bf16)
    dot_S4000x128_S128x1_S4000x1_1_0_0_1_n_n_wf none (truncf .bf16 (k0_pay1 v34 v35 v38 v44) bitsLt_bf16_f32) v49 r 0
  have hB := broadcastTo_1b_ab_apply v52 broadcasts_S1x1_S4000x1 r (0 : Fin 1)
  unfold k0_pay2
  simp only [shapeCast_self]
  exact congrArg₂ (· + ·) hM hB

end Cert.KernelIdeal.EdgeBlock

end
-- ==== Proof.EdgeValue.lean ====
/- The first call's two output arrays, entry by entry, on the extended reals. Point t of the grid covers rows
   4000 t … 4000 t + 3999 of every per-edge array and reads every weight array whole, so what point t writes back is
   rows 4000 t … of ONE function of the arrays the call finds: at (e, j) the gated message of edge e, lane j, and at
   (e, 0) the coordinate weight of edge e (its message row against the weight column, plus the bias). The 200 blocks
   tile the 800000 rows (row e lies in block e / 4000), so each array ends holding that function. -/
import proofs.«400004_j53979148976481_3_alg».proof.Proof.KIData
import proofs.«400004_j53979148976481_3_alg».proof.Proof.EdgeBlock
import Idealize.ShloMosaic.Lib.Pipeline.Value
import Idealize.ShloMosaic.Lib.ValueIdx

set_option maxRecDepth 16384

noncomputable section

namespace Cert.KernelIdeal.EdgeValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.GenP

theorem hz : (![0, 0] : Fin 2 → Nat) = fun _ => 0 := funext fun a => by fin_cases a <;> rfl

/-- The stored message block of the first call's body at `(r, j)`, over any fourteen input blocks. -/
theorem out14_at (x0 : Vec Ideal S4000x64 .bf16) (x1 : Vec Ideal S4000x64 .bf16) (x2 : Vec Ideal S4000x3 .f32)
    (x3 : Vec Ideal S4000x16 .f32) (x4 : Vec Ideal S4000x1 .f32) (x5 : Vec Ideal S64x128 .bf16) (x6 : Vec Ideal S64x128 .bf16)
    (x7 : Vec Ideal S1x128 .f32) (x8 : Vec Ideal S16x128 .bf16) (x9 : Vec Ideal S1x128 .f32) (x10 : Vec Ideal S128x128 .bf16)
    (x11 : Vec Ideal S1x128 .f32) (x12 : Vec Ideal S128x1 .bf16) (x13 : Vec Ideal S1x1 .f32) (r : Fin 4000) (j : Fin 128) :
    (out0_14 x0 x1 x2 x3 x4 x5 x6 x7 x8 x9 x10 x11 x12 x13 : S4000x128.Idx → EReal) (ix2 r j)
      = Spec.msgK (fun k => x0 (ix2 r k)) (fun k => x1 (ix2 r k)) (fun k => x2 (ix2 r k)) (fun k => x3 (ix2 r k)) (x4 (ix2 r 0))
          (fun k j => x5 (ix2 k j)) (fun k j => x6 (ix2 k j)) (fun j => x7 (ix2 0 j)) (fun k j => x8 (ix2 k j))
          (fun j => x9 (ix2 0 j)) (fun k j => x10 (ix2 k j)) (fun j => x11 (ix2 0 j)) j := by
  unfold out0_14
  rw [View.canon_unit_zero hz]
  simp only [View.ld_unit_zero (S := S4000x64) hz, View.ld_unit_zero (S := S4000x3) hz, View.ld_unit_zero (S := S4000x16) hz,
    View.ld_unit_zero (S := S4000x1) hz, View.ld_unit_zero (S := S64x128) hz, View.ld_unit_zero (S := S1x128) hz,
    View.ld_unit_zero (S := S16x128) hz, View.ld_unit_zero (S := S128x128) hz]
  exact EdgeBlock.msgBlock_at x0 x1 x2 x3 x4 x5 x6 x7 x8 x9 x10 x11 r j

/-- The stored coordinate-weight block at row `r`, from the stored message block's row `r`. -/
theorem out15_at (x0 : Vec Ideal S4000x64 .bf16) (x1 : Vec Ideal S4000x64 .bf16) (x2 : Vec Ideal S4000x3 .f32)
    (x3 : Vec Ideal S4000x16 .f32) (x4 : Vec Ideal S4000x1 .f32) (x5 : Vec Ideal S64x128 .bf16) (x6 : Vec Ideal S64x128 .bf16)
    (x7 : Vec Ideal S1x128 .f32) (x8 : Vec Ideal S16x128 .bf16) (x9 : Vec Ideal S1x128 .f32) (x10 : Vec Ideal S128x128 .bf16)
    (x11 : Vec Ideal S1x128 .f32) (x12 : Vec Ideal S128x1 .bf16) (x13 : Vec Ideal S1x1 .f32) (r : Fin 4000) :
    (out0_15 x0 x1 x2 x3 x4 x5 x6 x7 x8 x9 x10 x11 x12 x13 : S4000x1.Idx → EReal) (ix2 r 0)
      = Spec.gam (fun k => (out0_14 x0 x1 x2 x3 x4 x5 x6 x7 x8 x9 x10 x11 x12 x13 : S4000x128.Idx → EReal) (ix2 r k))
          (fun k => x12 (ix2 k 0)) (x13 (ix2 0 0)) := by
  unfold out0_15 out0_14
  rw [View.canon_unit_zero (S := S4000x1) hz, View.canon_unit_zero (S := S4000x128) hz]
  simp only [View.ld_unit_zero (S := S4000x64) hz, View.ld_unit_zero (S := S4000x3) hz, View.ld_unit_zero (S := S4000x16) hz,
    View.ld_unit_zero (S := S4000x1) hz, View.ld_unit_zero (S := S64x128) hz, View.ld_unit_zero (S := S1x128) hz,
    View.ld_unit_zero (S := S16x128) hz, View.ld_unit_zero (S := S128x128) hz, View.ld_unit_zero (S := S128x1) hz,
    View.ld_unit_zero (S := S1x1) hz]
  exact EdgeBlock.gamBlock_at (k0_pay4 x2 x0 x5 x1 x6 x3 x8 x7 x9) x10 x11 x4 x12 x13 r

/-- The printed index maps, decided once over the 200 grid points: a per-edge window's block index is (t, 0). -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_14.index t (0 : Fin 2) = t.val ∧ win0_14.index t (1 : Fin 2) = 0
    ∧ win0_15.index t (0 : Fin 2) = t.val ∧ win0_15.index t (1 : Fin 2) = 0 :=
  (by decide +kernel : ∀ t : Fin grid0.N, _)

/-- … and a weight window's block index is (0, 0) at every point. -/
theorem idx_weights : ∀ t : Fin cfg0.N,
    win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0 :=
  (by decide +kernel : ∀ t : Fin grid0.N, _)

/-! ## Equal arguments give equal messages and equal coordinate weights -/

theorem msgK_congr {xd xd' xs xs' : Fin 64 → EReal} {df df' : Fin 3 → EReal} {ea ea' : Fin 16 → EReal} {s s' : EReal}
    {Wd Wd' Ws Ws' : Fin 64 → Fin 128 → EReal} {wr wr' : Fin 128 → EReal} {Wa Wa' : Fin 16 → Fin 128 → EReal}
    {b1 b1' : Fin 128 → EReal} {W2 W2' : Fin 128 → Fin 128 → EReal} {b2 b2' : Fin 128 → EReal}
    (h0 : xd = xd') (h1 : xs = xs') (h2 : df = df') (h3 : ea = ea') (h4 : s = s') (h5 : Wd = Wd') (h6 : Ws = Ws')
    (h7 : wr = wr') (h8 : Wa = Wa') (h9 : b1 = b1') (h10 : W2 = W2') (h11 : b2 = b2') (j : Fin 128) :
    Spec.msgK xd xs df ea s Wd Ws wr Wa b1 W2 b2 j = Spec.msgK xd' xs' df' ea' s' Wd' Ws' wr' Wa' b1' W2' b2' j := by
  subst h0 h1 h2 h3 h4 h5 h6 h7 h8 h9 h10 h11; rfl

theorem gam_congr {mrow mrow' wc wc' : Fin 128 → EReal} {bc bc' : EReal} (h0 : mrow = mrow') (h1 : wc = wc') (h2 : bc = bc') :
    Spec.gam mrow wc bc = Spec.gam mrow' wc' bc' := by
  subst h0 h1 h2; rfl

section
variable (V : (c : Dev nD) → (b : Ref sig .tc) → Buf (Elt Ideal) ((c : Thread nD τ).loc b)) (c : Dev nD)

/-! ## Each input block as rows of its array -/

/-- Row `r` of the target-feature block at point `t` is row `4000 t + r` of the array. -/
theorem blk0_at (t : Fin cfg0.N) (r : Fin 4000) (k : Fin 64) (e : Fin 800000) (he : e.val = 4000 * t.val + r.val) :
    (iblk0 V c 0 t : S4000x64.Idx → EReal) (ix2 r k) = (V c main_v11 : S800000x64.Idx → EReal) (ix2 e k) := by
  obtain ⟨h0, h1, -⟩ := idx_rows t
  show (V c main_v11 : S800000x64.Idx → EReal) (((cfg0.win 0).blk t).view.emb (ix2 r k)) = _
  refine congrArg (V c main_v11 : S800000x64.Idx → EReal) (funext fun a => Fin.ext ?_)
  match a with
  | ⟨0, _⟩ => show win0_0.index t (0 : Fin 2) * 4000 + 1 * r.val = e.val; omega
  | ⟨1, _⟩ => show win0_0.index t (1 : Fin 2) * 64 + 1 * k.val = k.val; omega

/-- Row `r` of the source-feature block at point `t` is row `4000 t + r` of the array. -/
theorem blk1_at (t : Fin cfg0.N) (r : Fin 4000) (k : Fin 64) (e : Fin 800000) (he : e.val = 4000 * t.val + r.val) :
    (iblk0 V c 1 t : S4000x64.Idx → EReal) (ix2 r k) = (V c main_v18 : S800000x64.Idx → EReal) (ix2 e k) := by
  obtain ⟨-, -, h0, h1, -⟩ := idx_rows t
  show (V c main_v18 : S800000x64.Idx → EReal) (((cfg0.win 1).blk t).view.emb (ix2 r k)) = _
  refine congrArg (V c main_v18 : S800000x64.Idx → EReal) (funext fun a => Fin.ext ?_)
  match a with
  | ⟨0, _⟩ => show win0_1.index t (0 : Fin 2) * 4000 + 1 * r.val = e.val; omega
  | ⟨1, _⟩ => show win0_1.index t (1 : Fin 2) * 64 + 1 * k.val = k.val; omega

/-- Row `r` of the coordinate-difference block at point `t` is row `4000 t + r` of the array. -/
theorem blk2_at (t : Fin cfg0.N) (r : Fin 4000) (k : Fin 3) (e : Fin 800000) (he : e.val = 4000 * t.val + r.val) :
    (iblk0 V c 2 t : S4000x3.Idx → EReal) (ix2 r k) = (V c main_v33 : S800000x3.Idx → EReal) (ix2 e k) := by
  obtain ⟨-, -, -, -, h0, h1, -⟩ := idx_rows t
  show (V c main_v33 : S800000x3.Idx → EReal) (((cfg0.win 2).blk t).view.emb (ix2 r k)) = _
  refine congrArg (V c main_v33 : S800000x3.Idx → EReal) (funext fun a => Fin.ext ?_)
  match a with
  | ⟨0, _⟩ => show win0_2.index t (0 : Fin 2) * 4000 + 1 * r.val = e.val; omega
  | ⟨1, _⟩ => show win0_2.index t (1 : Fin 2) * 3 + 1 * k.val = k.val; omega

/-- Row `r` of the attribute block at point `t` is row `4000 t + r` of the array. -/
theorem blk3_at (t : Fin cfg0.N) (r : Fin 4000) (k : Fin 16) (e : Fin 800000) (he : e.val = 4000 * t.val + r.val) :
    (iblk0 V c 3 t : S4000x16.Idx → EReal) (ix2 r k) = (V c main_arg3 : S800000x16.Idx → EReal) (ix2 e k) := by
  obtain ⟨-, -, -, -, -, -, h0, h1, -⟩ := idx_rows t
  show (V c main_arg3 : S800000x16.Idx → EReal) (((cfg0.win 3).blk t).view.emb (ix2 r k)) = _
  refine congrArg (V c main_arg3 : S800000x16.Idx → EReal) (funext fun a => Fin.ext ?_)
  match a with
  | ⟨0, _⟩ => show win0_3.index t (0 : Fin 2) * 4000 + 1 * r.val = e.val; omega
  | ⟨1, _⟩ => show win0_3.index t (1 : Fin 2) * 16 + 1 * k.val = k.val; omega

/-- Row `r` of the gate block at point `t` is row `4000 t + r` of the array. -/
theorem blk4_at (t : Fin cfg0.N) (r : Fin 4000) (k : Fin 1) (e : Fin 800000) (he : e.val = 4000 * t.val + r.val) :
    (iblk0 V c 4 t : S4000x1.Idx → EReal) (ix2 r k) = (V c main_v41 : S800000x1.Idx → EReal) (ix2 e k) := by
  obtain ⟨-, -, -, -, -, -, -, -, h0, h1, -⟩ := idx_rows t
  show (V c main_v41 : S800000x1.Idx → EReal) (((cfg0.win 4).blk t).view.emb (ix2 r k)) = _
  refine congrArg (V c main_v41 : S800000x1.Idx → EReal) (funext fun a => Fin.ext ?_)
  match a with
  | ⟨0, _⟩ => show win0_4.index t (0 : Fin 2) * 4000 + 1 * r.val = e.val; omega
  | ⟨1, _⟩ => show win0_4.index t (1 : Fin 2) * 1 + 1 * k.val = k.val; omega

/-- The target band of the first weight matrix is read whole at every point. -/
theorem blk5_eq (t : Fin cfg0.N) : (iblk0 V c 5 t : S64x128.Idx → EReal) = (V c main_v43 : S64x128.Idx → EReal) := by
  obtain ⟨h0, h1, -⟩ := idx_weights t
  funext y
  show (V c main_v43 : S64x128.Idx → EReal) (((cfg0.win 5).blk t).view.emb y) = _
  refine congrArg (V c main_v43 : S64x128.Idx → EReal) (funext fun a => Fin.ext ?_)
  match a with
  | ⟨0, _⟩ => show win0_5.index t (0 : Fin 2) * 64 + 1 * (y 0).val = (y 0).val; omega
  | ⟨1, _⟩ => show win0_5.index t (1 : Fin 2) * 128 + 1 * (y 1).val = (y 1).val; omega

/-- The source band of the first weight matrix is read whole at every point. -/
theorem blk6_eq (t : Fin cfg0.N) : (iblk0 V c 6 t : S64x128.Idx → EReal) = (V c main_v45 : S64x128.Idx → EReal) := by
  obtain ⟨-, -, h0, h1, -⟩ := idx_weights t
  funext y
  show (V c main_v45 : S64x128.Idx → EReal) (((cfg0.win 6).blk t).view.emb y) = _
  refine congrArg (V c main_v45 : S64x128.Idx → EReal) (funext fun a => Fin.ext ?_)
  match a with
  | ⟨0, _⟩ => show win0_6.index t (0 : Fin 2) * 64 + 1 * (y 0).val = (y 0).val; omega
  | ⟨1, _⟩ => show win0_6.index t (1 : Fin 2) * 128 + 1 * (y 1).val = (y 1).val; omega

/-- The squared-distance row of the first weight matrix is read whole at every point. -/
theorem blk7_eq (t : Fin cfg0.N) : (iblk0 V c 7 t : S1x128.Idx → EReal) = (V c main_v46 : S1x128.Idx → EReal) := by
  obtain ⟨-, -, -, -, h0, h1, -⟩ := idx_weights t
  funext y
  show (V c main_v46 : S1x128.Idx → EReal) (((cfg0.win 7).blk t).view.emb y) = _
  refine congrArg (V c main_v46 : S1x128.Idx → EReal) (funext fun a => Fin.ext ?_)
  match a with
  | ⟨0, _⟩ => show win0_7.index t (0 : Fin 2) * 1 + 1 * (y 0).val = (y 0).val; omega
  | ⟨1, _⟩ => show win0_7.index t (1 : Fin 2) * 128 + 1 * (y 1).val = (y 1).val; omega

/-- The attribute band of the first weight matrix is read whole at every point. -/
theorem blk8_eq (t : Fin cfg0.N) : (iblk0 V c 8 t : S16x128.Idx → EReal) = (V c main_v48 : S16x128.Idx → EReal) := by
  obtain ⟨-, -, -, -, -, -, h0, h1, -⟩ := idx_weights t
  funext y
  show (V c main_v48 : S16x128.Idx → EReal) (((cfg0.win 8).blk t).view.emb y) = _
  refine congrArg (V c main_v48 : S16x128.Idx → EReal) (funext fun a => Fin.ext ?_)
  match a with
  | ⟨0, _⟩ => show win0_8.index t (0 : Fin 2) * 16 + 1 * (y 0).val = (y 0).val; omega
  | ⟨1, _⟩ => show win0_8.index t (1 : Fin 2) * 128 + 1 * (y 1).val = (y 1).val; omega

/-- The first layer's bias is read whole at every point. -/
theorem blk9_eq (t : Fin cfg0.N) : (iblk0 V c 9 t : S1x128.Idx → EReal) = (V c main_v49 : S1x128.Idx → EReal) := by
  obtain ⟨-, -, -, -, -, -, -, -, h0, h1, -⟩ := idx_weights t
  funext y
  show (V c main_v49 : S1x128.Idx → EReal) (((cfg0.win 9).blk t).view.emb y) = _
  refine congrArg (V c main_v49 : S1x128.Idx → EReal) (funext fun a => Fin.ext ?_)
  match a with
  | ⟨0, _⟩ => show win0_9.index t (0 : Fin 2) * 1 + 1 * (y 0).val = (y 0).val; omega
  | ⟨1, _⟩ => show win0_9.index t (1 : Fin 2) * 128 + 1 * (y 1).val = (y 1).val; omega

/-- The second weight matrix is read whole at every point. -/
theorem blk10_eq (t : Fin cfg0.N) : (iblk0 V c 10 t : S128x128.Idx → EReal) = (V c main_v50 : S128x128.Idx → EReal) := by
  obtain ⟨-, -, -, -, -, -, -, -, -, -, h0, h1, -⟩ := idx_weights t
  funext y
  show (V c main_v50 : S128x128.Idx → EReal) (((cfg0.win 10).blk t).view.emb y) = _
  refine congrArg (V c main_v50 : S128x128.Idx → EReal) (funext fun a => Fin.ext ?_)
  match a with
  | ⟨0, _⟩ => show win0_10.index t (0 : Fin 2) * 128 + 1 * (y 0).val = (y 0).val; omega
  | ⟨1, _⟩ => show win0_10.index t (1 : Fin 2) * 128 + 1 * (y 1).val = (y 1).val; omega

/-- The second layer's bias is read whole at every point. -/
theorem blk11_eq (t : Fin cfg0.N) : (iblk0 V c 11 t : S1x128.Idx → EReal) = (V c main_v51 : S1x128.Idx → EReal) := by
  obtain ⟨-, -, -, -, -, -, -, -, -, -, -, -, h0, h1, -⟩ := idx_weights t
  funext y
  show (V c main_v51 : S1x128.Idx → EReal) (((cfg0.win 11).blk t).view.emb y) = _
  refine congrArg (V c main_v51 : S1x128.Idx → EReal) (funext fun a => Fin.ext ?_)
  match a with
  | ⟨0, _⟩ => show win0_11.index t (0 : Fin 2) * 1 + 1 * (y 0).val = (y 0).val; omega
  | ⟨1, _⟩ => show win0_11.index t (1 : Fin 2) * 128 + 1 * (y 1).val = (y 1).val; omega

/-- The coordinate-weight column is read whole at every point. -/
theorem blk12_eq (t : Fin cfg0.N) : (iblk0 V c 12 t : S128x1.Idx → EReal) = (V c main_v52 : S128x1.Idx → EReal) := by
  obtain ⟨-, -, -, -, -, -, -, -, -, -, -, -, -, -, h0, h1, -⟩ := idx_weights t
  funext y
  show (V c main_v52 : S128x1.Idx → EReal) (((cfg0.win 12).blk t).view.emb y) = _
  refine congrArg (V c main_v52 : S128x1.Idx → EReal) (funext fun a => Fin.ext ?_)
  match a with
  | ⟨0, _⟩ => show win0_12.index t (0 : Fin 2) * 128 + 1 * (y 0).val = (y 0).val; omega
  | ⟨1, _⟩ => show win0_12.index t (1 : Fin 2) * 1 + 1 * (y 1).val = (y 1).val; omega

/-- The coordinate-weight bias is read whole at every point. -/
theorem blk13_eq (t : Fin cfg0.N) : (iblk0 V c 13 t : S1x1.Idx → EReal) = (V c main_v53 : S1x1.Idx → EReal) := by
  obtain ⟨-, -, -, -, -, -, -, -, -, -, -, -, -, -, -, -, h0, h1⟩ := idx_weights t
  funext y
  show (V c main_v53 : S1x1.Idx → EReal) (((cfg0.win 13).blk t).view.emb y) = _
  refine congrArg (V c main_v53 : S1x1.Idx → EReal) (funext fun a => Fin.ext ?_)
  match a with
  | ⟨0, _⟩ => show win0_13.index t (0 : Fin 2) * 1 + 1 * (y 0).val = (y 0).val; omega
  | ⟨1, _⟩ => show win0_13.index t (1 : Fin 2) * 1 + 1 * (y 1).val = (y 1).val; omega

/-! ## The two arrays as functions of the arrays the call finds -/

/-- The gated message of edge `e`, lane `j`. -/
def msgAt (e : Fin 800000) (j : Fin 128) : EReal :=
  Spec.msgK (fun k => (V c main_v11 : S800000x64.Idx → EReal) (ix2 e k)) (fun k => (V c main_v18 : S800000x64.Idx → EReal) (ix2 e k))
          (fun k => (V c main_v33 : S800000x3.Idx → EReal) (ix2 e k)) (fun k => (V c main_arg3 : S800000x16.Idx → EReal) (ix2 e k))
          ((V c main_v41 : S800000x1.Idx → EReal) (ix2 e 0))
          (fun k j => (V c main_v43 : S64x128.Idx → EReal) (ix2 k j)) (fun k j => (V c main_v45 : S64x128.Idx → EReal) (ix2 k j))
          (fun j => (V c main_v46 : S1x128.Idx → EReal) (ix2 0 j)) (fun k j => (V c main_v48 : S16x128.Idx → EReal) (ix2 k j))
          (fun j => (V c main_v49 : S1x128.Idx → EReal) (ix2 0 j)) (fun k j => (V c main_v50 : S128x128.Idx → EReal) (ix2 k j))
          (fun j => (V c main_v51 : S1x128.Idx → EReal) (ix2 0 j)) j

/-- The coordinate weight of edge `e`: its message row against the weight column, plus the bias. -/
def gamAt (e : Fin 800000) : EReal :=
  Spec.gam (fun k => msgAt V c e k) (fun k => (V c main_v52 : S128x1.Idx → EReal) (ix2 k 0))
    ((V c main_v53 : S1x1.Idx → EReal) (ix2 0 0))

/-- The message array: at `(e, j)` the message of edge `e`, lane `j`. -/
def G14 : S800000x128.Idx → EReal := fun i => msgAt V c ⟨(i 0).val, idx2_lt0 i⟩ ⟨(i 1).val, idx2_lt1 i⟩

/-- The coordinate-weight array: at `(e, 0)` the coordinate weight of edge `e`. -/
def G15 : S800000x1.Idx → EReal := fun i => gamAt V c ⟨(i 0).val, idx2_lt0 i⟩

/-- What the body leaves at `(r, j)` of the message block at point `t` is the message of edge `4000 t + r`. -/
theorem blockMsg_eq (t : Fin cfg0.N) (r : Fin 4000) (j : Fin 128) (e : Fin 800000) (he : e.val = 4000 * t.val + r.val) :
    (out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) : S4000x128.Idx → EReal) (ix2 r j) = msgAt V c e j := by
  refine (out14_at (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) r j).trans ?_
  exact msgK_congr (funext fun k => blk0_at V c t r k e he) (funext fun k => blk1_at V c t r k e he)
    (funext fun k => blk2_at V c t r k e he) (funext fun k => blk3_at V c t r k e he) (blk4_at V c t r 0 e he)
    (funext fun k => funext fun j => congrFun (blk5_eq V c t) (ix2 k j))
    (funext fun k => funext fun j => congrFun (blk6_eq V c t) (ix2 k j))
    (funext fun j => congrFun (blk7_eq V c t) (ix2 0 j))
    (funext fun k => funext fun j => congrFun (blk8_eq V c t) (ix2 k j))
    (funext fun j => congrFun (blk9_eq V c t) (ix2 0 j))
    (funext fun k => funext fun j => congrFun (blk10_eq V c t) (ix2 k j))
    (funext fun j => congrFun (blk11_eq V c t) (ix2 0 j)) j

/-- A grid point is one of 200. -/
theorem point_lt (t : Fin cfg0.N) : t.val < 200 :=
  Nat.lt_of_lt_of_eq t.isLt (show cfg0.N = 200 from N_0)

/-! ## The message array -/

/-- What point `t` writes back of the message window is block `t` of the message array. -/
theorem flushed14_eq (t : Fin cfg0.N) :
    (dat0 V c).flushed 14 t = ((cfg0.win 14).blk t).view.read (Elt Ideal) (G14 V c) := by
  show (cfg0.win 14).cut (grid0.coords t) ((dat0 V c).after 14 t) = _
  rw [after0_14]
  have ht := point_lt t
  obtain ⟨-, -, -, -, -, -, -, -, -, -, g0, g1, -⟩ := idx_rows t
  funext y
  obtain ⟨r, j, rfl⟩ : ∃ (r : Fin 4000) (j : Fin 128), y = ix2 r j := ⟨y 0, y 1, eq_ix2 y⟩
  have hr := r.isLt
  have hemb : ((cfg0.win 14).blk t).view.emb (ix2 r j)
      = (ix2 (⟨4000 * t.val + r.val, by omega⟩ : Fin 800000) j : S800000x128.Idx) := by
    funext a; apply Fin.ext
    match a with
    | ⟨0, _⟩ => show win0_14.index t (0 : Fin 2) * 4000 + 1 * r.val = 4000 * t.val + r.val; omega
    | ⟨1, _⟩ => show win0_14.index t (1 : Fin 2) * 128 + 1 * j.val = j.val; omega
  show (out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) : S4000x128.Idx → EReal) (ix2 r j) = G14 V c (((cfg0.win 14).blk t).view.emb (ix2 r j))
  rw [hemb]
  exact blockMsg_eq V c t r j ⟨4000 * t.val + r.val, by omega⟩ rfl

/-- Every row of the message array lies in some point's block: row `e` in block `e / 4000`. -/
theorem cover14 (i : S800000x128.Idx) :
    ∃ t : Fin cfg0.N, (cfg0.win 14).flush t = true ∧ i ∈ ((cfg0.win 14).blk t).view.set := by
  have hi0 : (i 0).val < 800000 := idx2_lt0 i
  have hi1 : (i 1).val < 128 := idx2_lt1 i
  have hq : (i 0).val / 4000 < cfg0.N := by rw [show cfg0.N = 200 from N_0]; omega
  obtain ⟨-, -, -, -, -, -, -, -, -, -, g0, g1, -⟩ := idx_rows ⟨(i 0).val / 4000, hq⟩
  refine ⟨⟨(i 0).val / 4000, hq⟩, flush0_14 _, ?_⟩
  show i ∈ ((View.whole main_v54_0).slice (win0_14.rect ⟨(i 0).val / 4000, hq⟩)).set
  rw [View.set_slice_whole, Rect.mem_set_unit]
  intro a
  match a with
  | ⟨0, _⟩ =>
    show win0_14.index ⟨(i 0).val / 4000, hq⟩ (0 : Fin 2) * 4000 ≤ (i 0).val
      ∧ (i 0).val < win0_14.index ⟨(i 0).val / 4000, hq⟩ (0 : Fin 2) * 4000 + 4000
    rw [g0]; show (i 0).val / 4000 * 4000 ≤ (i 0).val ∧ (i 0).val < (i 0).val / 4000 * 4000 + 4000; omega
  | ⟨1, _⟩ =>
    show win0_14.index ⟨(i 0).val / 4000, hq⟩ (1 : Fin 2) * 128 ≤ (i 1).val
      ∧ (i 1).val < win0_14.index ⟨(i 0).val / 4000, hq⟩ (1 : Fin 2) * 128 + 128
    rw [g1]; omega

/-- The message array after the first call. -/
theorem final14 : (dat0 V c).arrAt 14 cfg0.N = G14 V c :=
  (dat0 V c).arrAt_eq_of_cover 14 (G14 V c) (fun t _ => flushed14_eq V c t) cover14

theorem edge_msg (e : Fin 800000) (j : Fin 128) :
    ((dat0 (F := Ideal) V c).arrAt 14 cfg0.N : S800000x128.Idx → EReal) (ix2 e j)
      = Spec.msgK (fun k => (V c main_v11 : S800000x64.Idx → EReal) (ix2 e k)) (fun k => (V c main_v18 : S800000x64.Idx → EReal) (ix2 e k))
          (fun k => (V c main_v33 : S800000x3.Idx → EReal) (ix2 e k)) (fun k => (V c main_arg3 : S800000x16.Idx → EReal) (ix2 e k))
          ((V c main_v41 : S800000x1.Idx → EReal) (ix2 e 0))
          (fun k j => (V c main_v43 : S64x128.Idx → EReal) (ix2 k j)) (fun k j => (V c main_v45 : S64x128.Idx → EReal) (ix2 k j))
          (fun j => (V c main_v46 : S1x128.Idx → EReal) (ix2 0 j)) (fun k j => (V c main_v48 : S16x128.Idx → EReal) (ix2 k j))
          (fun j => (V c main_v49 : S1x128.Idx → EReal) (ix2 0 j)) (fun k j => (V c main_v50 : S128x128.Idx → EReal) (ix2 k j))
          (fun j => (V c main_v51 : S1x128.Idx → EReal) (ix2 0 j)) j :=
  congrFun (final14 V c) (ix2 e j)

/-! ## The coordinate-weight array -/

/-- What point `t` writes back of the coordinate-weight window is block `t` of the coordinate-weight array. -/
theorem flushed15_eq (t : Fin cfg0.N) :
    (dat0 V c).flushed 15 t = ((cfg0.win 15).blk t).view.read (Elt Ideal) (G15 V c) := by
  show (cfg0.win 15).cut (grid0.coords t) ((dat0 V c).after 15 t) = _
  rw [after0_15]
  have ht := point_lt t
  obtain ⟨-, -, -, -, -, -, -, -, -, -, -, -, q0, q1⟩ := idx_rows t
  funext y
  obtain ⟨r, u, rfl⟩ : ∃ (r : Fin 4000) (u : Fin 1), y = ix2 r u := ⟨y 0, y 1, eq_ix2 y⟩
  obtain rfl : u = 0 := Subsingleton.elim _ _
  have hr := r.isLt
  have hemb : ((cfg0.win 15).blk t).view.emb (ix2 r (0 : Fin 1))
      = (ix2 (⟨4000 * t.val + r.val, by omega⟩ : Fin 800000) (0 : Fin 1) : S800000x1.Idx) := by
    funext a; apply Fin.ext
    match a with
    | ⟨0, _⟩ => show win0_15.index t (0 : Fin 2) * 4000 + 1 * r.val = 4000 * t.val + r.val; omega
    | ⟨1, _⟩ => show win0_15.index t (1 : Fin 2) * 1 + 1 * 0 = 0; omega
  show (out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) : S4000x1.Idx → EReal) (ix2 r 0) = G15 V c (((cfg0.win 15).blk t).view.emb (ix2 r (0 : Fin 1)))
  rw [hemb]
  refine (out15_at (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) r).trans ?_
  exact gam_congr (funext fun k => blockMsg_eq V c t r k ⟨4000 * t.val + r.val, by omega⟩ rfl)
    (funext fun k => congrFun (blk12_eq V c t) (ix2 k 0)) (congrFun (blk13_eq V c t) (ix2 0 0))

/-- Every row of the coordinate-weight array lies in some point's block: row `e` in block `e / 4000`. -/
theorem cover15 (i : S800000x1.Idx) :
    ∃ t : Fin cfg0.N, (cfg0.win 15).flush t = true ∧ i ∈ ((cfg0.win 15).blk t).view.set := by
  have hi0 : (i 0).val < 800000 := idx2_lt0 i
  have hi1 : (i 1).val < 1 := idx2_lt1 i
  have hq : (i 0).val / 4000 < cfg0.N := by rw [show cfg0.N = 200 from N_0]; omega
  obtain ⟨-, -, -, -, -, -, -, -, -, -, -, -, q0, q1⟩ := idx_rows ⟨(i 0).val / 4000, hq⟩
  refine ⟨⟨(i 0).val / 4000, hq⟩, flush0_15 _, ?_⟩
  show i ∈ ((View.whole main_v54_1).slice (win0_15.rect ⟨(i 0).val / 4000, hq⟩)).set
  rw [View.set_slice_whole, Rect.mem_set_unit]
  intro a
  match a with
  | ⟨0, _⟩ =>
    show win0_15.index ⟨(i 0).val / 4000, hq⟩ (0 : Fin 2) * 4000 ≤ (i 0).val
      ∧ (i 0).val < win0_15.index ⟨(i 0).val / 4000, hq⟩ (0 : Fin 2) * 4000 + 4000
    rw [q0]; show (i 0).val / 4000 * 4000 ≤ (i 0).val ∧ (i 0).val < (i 0).val / 4000 * 4000 + 4000; omega
  | ⟨1, _⟩ =>
    show win0_15.index ⟨(i 0).val / 4000, hq⟩ (1 : Fin 2) * 1 ≤ (i 1).val
      ∧ (i 1).val < win0_15.index ⟨(i 0).val / 4000, hq⟩ (1 : Fin 2) * 1 + 1
    rw [q1]; omega

/-- The coordinate-weight array after the first call. -/
theorem final15 : (dat0 V c).arrAt 15 cfg0.N = G15 V c :=
  (dat0 V c).arrAt_eq_of_cover 15 (G15 V c) (fun t _ => flushed15_eq V c t) cover15

theorem edge_gam (e : Fin 800000) :
    ((dat0 (F := Ideal) V c).arrAt 15 cfg0.N : S800000x1.Idx → EReal) (ix2 e 0)
      = Spec.gam (fun k => ((dat0 (F := Ideal) V c).arrAt 14 cfg0.N : S800000x128.Idx → EReal) (ix2 e k))
          (fun k => (V c main_v52 : S128x1.Idx → EReal) (ix2 k 0)) ((V c main_v53 : S1x1.Idx → EReal) (ix2 0 0)) := by
  refine (congrFun (final15 V c) (ix2 e 0)).trans ?_
  exact (gam_congr (funext fun k => congrFun (final14 V c) (ix2 e k)) rfl rfl).symm

end

end Cert.KernelIdeal.EdgeValue

end
-- ==== Proof.NodeValue.lean ====
/- The node network (the second of the program's two calls) read entry by entry on the extended reals.
   Its ten grid points each handle 5000 consecutive nodes: point t reads rows 5000·t … 5000·t + 4999 of the four
   per-node arrays (features, averaged messages, positions, averaged shifts) and the whole of the five weight arrays,
   and writes the same rows of the two results. A result row depends only on the same row of the per-node arrays:
   the new position is position plus shift, and the new feature vector is the two-layer network
   silu(x·Vx + a·Vm + c₁)·V₂ + c₂ of the node's features x and averaged message a. Every format change is the
   identity here, and a matrix product into the zero array is the plain sum over the contracted coordinate.
   Since the ten row blocks tile the 50000 rows, each result array is one function of the arrays the call finds. -/
import proofs.«400004_j53979148976481_3_alg».proof.Proof.KIData
import proofs.«400004_j53979148976481_3_alg».proof.Proof.Spec
import proofs.«400004_j53979148976481_3_alg».proof.Proof.LibDots
import Idealize.ShloMosaic.Lib.Pipeline.Value
import Idealize.ShloMosaic.Lib.ValueIdx
import Idealize.ShloMosaic.Lib.ValueLayout

set_option maxRecDepth 16384

noncomputable section

namespace Cert.KernelIdeal.NodeValue

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.GenP

variable (V : (c : Dev nD) → (b : Ref sig .tc) → Buf (Elt Ideal) ((c : Thread nD τ).loc b))

theorem hz : (![0, 0] : Fin 2 → Nat) = fun _ => 0 := funext fun a => by fin_cases a <;> rfl

/-! ## Where each window's block sits -/

/-- The four per-node inputs and the two results move together: at point t their block is row block t, column block 0. -/
theorem idx_rows : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_9.index t (0 : Fin 2) = t.val ∧ win1_9.index t (1 : Fin 2) = 0
    ∧ win1_10.index t (0 : Fin 2) = t.val ∧ win1_10.index t (1 : Fin 2) = 0 :=
  (by decide +kernel : ∀ t : Fin grid1.N, _)

/-- The five weight arrays are read whole at every point. -/
theorem idx_whole : ∀ t : Fin cfg1.N,
    win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0 :=
  (by decide +kernel : ∀ t : Fin grid1.N, _)

/-- A row of a block is a row of the array. -/
theorem row_lt (t : Fin cfg1.N) (r : Fin 5000) : 5000 * t.val + r.val < 50000 := by
  have ht : t.val < 10 := t.isLt
  have hr := r.isLt
  omega

/-! ## The input blocks as rows of the arrays -/

/-- Window 0's block at point t is rows 5000·t … of its array. -/
theorem blk0_at (c : Dev nD) (t : Fin cfg1.N) (r : Fin 5000) (k : Fin 64) :
    iblk1 V c 0 t (ix2 r k) = (V c main_v4 : S50000x64.Idx → EReal) (ix2 ⟨5000 * t.val + r.val, row_lt t r⟩ k) := by
  obtain ⟨e0, e1, -, -, -, -, -, -, -, -, -, -⟩ := idx_rows t
  unfold iblk1
  rw [View.read_apply]
  show V c main_v4 _ = V c main_v4 _
  congr 1
  funext a
  apply Fin.ext
  match a with
  | ⟨0, _⟩ => show win1_0.index t (0 : Fin 2) * 5000 + 1 * r.val = 5000 * t.val + r.val; rw [e0]; omega
  | ⟨1, _⟩ => show win1_0.index t (1 : Fin 2) * 64 + 1 * k.val = k.val; rw [e1]; omega

/-- Window 1's block at point t is rows 5000·t … of its array. -/
theorem blk1_at (c : Dev nD) (t : Fin cfg1.N) (r : Fin 5000) (k : Fin 128) :
    iblk1 V c 1 t (ix2 r k) = (V c main_v72 : S50000x128.Idx → EReal) (ix2 ⟨5000 * t.val + r.val, row_lt t r⟩ k) := by
  obtain ⟨-, -, e0, e1, -, -, -, -, -, -, -, -⟩ := idx_rows t
  unfold iblk1
  rw [View.read_apply]
  show V c main_v72 _ = V c main_v72 _
  congr 1
  funext a
  apply Fin.ext
  match a with
  | ⟨0, _⟩ => show win1_1.index t (0 : Fin 2) * 5000 + 1 * r.val = 5000 * t.val + r.val; rw [e0]; omega
  | ⟨1, _⟩ => show win1_1.index t (1 : Fin 2) * 128 + 1 * k.val = k.val; rw [e1]; omega

/-- Window 2's block at point t is rows 5000·t … of its array. -/
theorem blk2_at (c : Dev nD) (t : Fin cfg1.N) (r : Fin 5000) (k : Fin 3) :
    iblk1 V c 2 t (ix2 r k) = (V c main_arg1 : S50000x3.Idx → EReal) (ix2 ⟨5000 * t.val + r.val, row_lt t r⟩ k) := by
  obtain ⟨-, -, -, -, e0, e1, -, -, -, -, -, -⟩ := idx_rows t
  unfold iblk1
  rw [View.read_apply]
  show V c main_arg1 _ = V c main_arg1 _
  congr 1
  funext a
  apply Fin.ext
  match a with
  | ⟨0, _⟩ => show win1_2.index t (0 : Fin 2) * 5000 + 1 * r.val = 5000 * t.val + r.val; rw [e0]; omega
  | ⟨1, _⟩ => show win1_2.index t (1 : Fin 2) * 3 + 1 * k.val = k.val; rw [e1]; omega

/-- Window 3's block at point t is rows 5000·t … of its array. -/
theorem blk3_at (c : Dev nD) (t : Fin cfg1.N) (r : Fin 5000) (k : Fin 3) :
    iblk1 V c 3 t (ix2 r k) = (V c main_v71 : S50000x3.Idx → EReal) (ix2 ⟨5000 * t.val + r.val, row_lt t r⟩ k) := by
  obtain ⟨-, -, -, -, -, -, e0, e1, -, -, -, -⟩ := idx_rows t
  unfold iblk1
  rw [View.read_apply]
  show V c main_v71 _ = V c main_v71 _
  congr 1
  funext a
  apply Fin.ext
  match a with
  | ⟨0, _⟩ => show win1_3.index t (0 : Fin 2) * 5000 + 1 * r.val = 5000 * t.val + r.val; rw [e0]; omega
  | ⟨1, _⟩ => show win1_3.index t (1 : Fin 2) * 3 + 1 * k.val = k.val; rw [e1]; omega

/-! ## The weight blocks are the weight arrays -/

/-- Window 4's block at every point is its whole array. -/
theorem blk4_at (c : Dev nD) (t : Fin cfg1.N) (k : Fin 64) (j : Fin 128) :
    iblk1 V c 4 t (ix2 k j) = (V c main_v74 : S64x128.Idx → EReal) (ix2 k j) := by
  obtain ⟨e0, e1, -, -, -, -, -, -, -, -⟩ := idx_whole t
  unfold iblk1
  rw [View.read_apply]
  show V c main_v74 _ = V c main_v74 _
  congr 1
  funext a
  apply Fin.ext
  match a with
  | ⟨0, _⟩ => show win1_4.index t (0 : Fin 2) * 64 + 1 * k.val = k.val; rw [e0]; omega
  | ⟨1, _⟩ => show win1_4.index t (1 : Fin 2) * 128 + 1 * j.val = j.val; rw [e1]; omega

/-- Window 5's block at every point is its whole array. -/
theorem blk5_at (c : Dev nD) (t : Fin cfg1.N) (k : Fin 128) (j : Fin 128) :
    iblk1 V c 5 t (ix2 k j) = (V c main_v76 : S128x128.Idx → EReal) (ix2 k j) := by
  obtain ⟨-, -, e0, e1, -, -, -, -, -, -⟩ := idx_whole t
  unfold iblk1
  rw [View.read_apply]
  show V c main_v76 _ = V c main_v76 _
  congr 1
  funext a
  apply Fin.ext
  match a with
  | ⟨0, _⟩ => show win1_5.index t (0 : Fin 2) * 128 + 1 * k.val = k.val; rw [e0]; omega
  | ⟨1, _⟩ => show win1_5.index t (1 : Fin 2) * 128 + 1 * j.val = j.val; rw [e1]; omega

/-- Window 6's block at every point is its whole array. -/
theorem blk6_at (c : Dev nD) (t : Fin cfg1.N) (k : Fin 1) (j : Fin 128) :
    iblk1 V c 6 t (ix2 k j) = (V c main_v77 : S1x128.Idx → EReal) (ix2 k j) := by
  obtain ⟨-, -, -, -, e0, e1, -, -, -, -⟩ := idx_whole t
  unfold iblk1
  rw [View.read_apply]
  show V c main_v77 _ = V c main_v77 _
  congr 1
  funext a
  apply Fin.ext
  match a with
  | ⟨0, _⟩ => show win1_6.index t (0 : Fin 2) * 1 + 1 * k.val = k.val; rw [e0]; omega
  | ⟨1, _⟩ => show win1_6.index t (1 : Fin 2) * 128 + 1 * j.val = j.val; rw [e1]; omega

/-- Window 7's block at every point is its whole array. -/
theorem blk7_at (c : Dev nD) (t : Fin cfg1.N) (k : Fin 128) (j : Fin 64) :
    iblk1 V c 7 t (ix2 k j) = (V c main_v78 : S128x64.Idx → EReal) (ix2 k j) := by
  obtain ⟨-, -, -, -, -, -, e0, e1, -, -⟩ := idx_whole t
  unfold iblk1
  rw [View.read_apply]
  show V c main_v78 _ = V c main_v78 _
  congr 1
  funext a
  apply Fin.ext
  match a with
  | ⟨0, _⟩ => show win1_7.index t (0 : Fin 2) * 128 + 1 * k.val = k.val; rw [e0]; omega
  | ⟨1, _⟩ => show win1_7.index t (1 : Fin 2) * 64 + 1 * j.val = j.val; rw [e1]; omega

/-- Window 8's block at every point is its whole array. -/
theorem blk8_at (c : Dev nD) (t : Fin cfg1.N) (k : Fin 1) (j : Fin 64) :
    iblk1 V c 8 t (ix2 k j) = (V c main_v79 : S1x64.Idx → EReal) (ix2 k j) := by
  obtain ⟨-, -, -, -, -, -, -, -, e0, e1⟩ := idx_whole t
  unfold iblk1
  rw [View.read_apply]
  show V c main_v79 _ = V c main_v79 _
  congr 1
  funext a
  apply Fin.ext
  match a with
  | ⟨0, _⟩ => show win1_8.index t (0 : Fin 2) * 1 + 1 * k.val = k.val; rw [e0]; omega
  | ⟨1, _⟩ => show win1_8.index t (1 : Fin 2) * 64 + 1 * j.val = j.val; rw [e1]; omega

/-! ## The new positions -/

/-- The block the body stores for the positions: position plus shift, entry by entry. -/
theorem shift_block_at (p s : Vec Ideal S5000x3 .f32) (r : Fin 5000) (k : Fin 3) :
    (k1_pay2 p s : S5000x3.Idx → EReal) (ix2 r k) = p (ix2 r k) + s (ix2 r k) := by
  unfold k1_pay2
  rw [shapeCast_self]
  rfl

/-- The whole positions result: position plus averaged shift at every (node, coordinate). -/
abbrev newPos (p s : S50000x3.Idx → EReal) : S50000x3.Idx → EReal := fun i => p i + s i

/-- Entry (r, k) of the result's block at point t is entry (5000·t + r, k) of the result array. -/
theorem emb10 (t : Fin cfg1.N) (r : Fin 5000) (k : Fin 3) :
    ((cfg1.win 10).blk t).view.emb (ix2 r k) = (ix2 ⟨5000 * t.val + r.val, row_lt t r⟩ k : S50000x3.Idx) := by
  obtain ⟨-, -, -, -, -, -, -, -, -, -, e0, e1⟩ := idx_rows t
  funext a
  apply Fin.ext
  match a with
  | ⟨0, _⟩ => show win1_10.index t (0 : Fin 2) * 5000 + 1 * r.val = 5000 * t.val + r.val; rw [e0]; omega
  | ⟨1, _⟩ => show win1_10.index t (1 : Fin 2) * 3 + 1 * k.val = k.val; rw [e1]; omega

/-- What point t writes back for the positions is block t of `newPos`. -/
theorem flushed10_eq (c : Dev nD) (t : Fin cfg1.N) :
    (dat1 (F := Ideal) V c).flushed 10 t
      = ((cfg1.win 10).blk t).view.read (Elt Ideal) (newPos (V c main_arg1) (V c main_v71)) := by
  show (cfg1.win 10).cut (grid1.coords t) ((dat1 V c).after 10 t) = _
  rw [after1_10]
  unfold out1_10
  rw [View.canon_unit_zero hz]
  simp only [View.ld_unit_zero (S := S5000x3) hz]
  refine funext fun (j : S5000x3.Idx) => ?_
  obtain ⟨r, k, rfl⟩ : ∃ (r : Fin 5000) (k : Fin 3), j = ix2 r k := ⟨j 0, j 1, eq_ix2 j⟩
  refine (shift_block_at (iblk1 V c 2 t) (iblk1 V c 3 t) r k).trans ?_
  rw [View.read_apply, emb10 t r k, blk2_at V c t r k, blk3_at V c t r k]
  rfl

/-- An index of the positions array lies in point t's block iff each coordinate lies in the block's range. -/
theorem mem_blk10 (t : Fin cfg1.N) (i : S50000x3.Idx) :
    i ∈ ((cfg1.win 10).blk t).view.set ↔ ∀ a : Fin 2, win1_10.index t a * S5000x3.size a ≤ (i a).val ∧ (i a).val < win1_10.index t a * S5000x3.size a + S5000x3.size a := by
  show i ∈ ((View.whole main_v80_1).slice (win1_10.rect t)).set ↔ _
  rw [View.set_slice_whole, Rect.mem_set_unit]
  exact Iff.rfl

/-- The point that writes row n is n / 5000. -/
def pointOf (n : Fin 50000) : Fin cfg1.N := ⟨n.val / 5000, by have := n.isLt; show _ < 10; omega⟩

theorem cover10 (i : S50000x3.Idx) :
    ∃ t : Fin cfg1.N, (cfg1.win 10).flush t = true ∧ i ∈ ((cfg1.win 10).blk t).view.set := by
  have hi0 : (i 0).val < 50000 := (i 0).isLt
  have hi1 : (i 1).val < 3 := (i 1).isLt
  refine ⟨pointOf (i 0), flush1_10 _, ?_⟩
  rw [mem_blk10]
  obtain ⟨-, -, -, -, -, -, -, -, -, -, e0, e1⟩ := idx_rows (pointOf (i 0))
  have hp : (pointOf (i 0)).val = (i 0).val / 5000 := rfl
  intro a
  match a with
  | ⟨0, _⟩ => show win1_10.index (pointOf (i 0)) (0 : Fin 2) * 5000 ≤ (i 0).val ∧ (i 0).val < win1_10.index (pointOf (i 0)) (0 : Fin 2) * 5000 + 5000; rw [e0, hp]; omega
  | ⟨1, _⟩ => show win1_10.index (pointOf (i 0)) (1 : Fin 2) * 3 ≤ (i 1).val ∧ (i 1).val < win1_10.index (pointOf (i 0)) (1 : Fin 2) * 3 + 3; rw [e1]; omega

/-- The positions array after the call. -/
theorem final10 (c : Dev nD) :
    (dat1 (F := Ideal) V c).arrAt 10 cfg1.N = newPos (V c main_arg1) (V c main_v71) :=
  (dat1 V c).arrAt_eq_of_cover 10 (newPos (V c main_arg1) (V c main_v71)) (fun t _ => flushed10_eq V c t) cover10

/-- THE NEW POSITIONS, entry by entry: position plus averaged shift. -/
theorem node_p (c : Dev nD) (n : Fin 50000) (k : Fin 3) :
    ((dat1 (F := Ideal) V c).arrAt 10 cfg1.N : S50000x3.Idx → EReal) (ix2 n k)
      = (HAdd.hAdd : EReal → EReal → EReal) ((V c main_arg1 : S50000x3.Idx → EReal) (ix2 n k))
          ((V c main_v71 : S50000x3.Idx → EReal) (ix2 n k)) := by
  rw [final10 V c]

/-! ## The new features -/

/-- The zero word is zero. -/
theorem zero_word : Ideal.ofBits .f32 0x00000000#32 = 0 := Ideal.ofBits_zero_f32

/-- The hidden layer before its activation, as the body forms it: two products into the zero array, added, plus the
    bias row repeated down the rows. -/
def hidPre (x0 : FVec Ideal S5000x64 .bf16) (w1 : FVec Ideal S64x128 .bf16) (a0 : FVec Ideal S5000x128 .bf16)
    (w2 : FVec Ideal S128x128 .bf16) (c1 : FVec Ideal S1x128 .f32) : FVec Ideal S5000x128 .f32 :=
  addf (addf (matmul dot_S5000x64_S64x128_S5000x128_1_0_0_1_n_n none x0 w1 (constant (F := Ideal) S5000x128 .f32 0x00000000#32))
      (matmul dot_S5000x128_S128x128_S5000x128_1_0_0_1_n_n none a0 w2 (constant (F := Ideal) S5000x128 .f32 0x00000000#32)))
    (broadcastTo S5000x128 c1 broadcasts_S1x128_S5000x128)

/-- Entry (r, k) of it: the two sums over the contracted coordinates and the bias. -/
theorem hidPre_at (x0 : FVec Ideal S5000x64 .bf16) (w1 : FVec Ideal S64x128 .bf16) (a0 : FVec Ideal S5000x128 .bf16)
    (w2 : FVec Ideal S128x128 .bf16) (c1 : FVec Ideal S1x128 .f32) (r : Fin 5000) (k : Fin 128) :
    hidPre x0 w1 a0 w2 c1 (ix2 r k)
      = (∑ k' : Fin 64, x0 (ix2 r k') * w1 (ix2 k' k)) + (∑ k' : Fin 128, a0 (ix2 r k') * w2 (ix2 k' k)) + c1 (ix2 0 k) := by
  unfold hidPre
  show (matmul dot_S5000x64_S64x128_S5000x128_1_0_0_1_n_n none x0 w1 (constant (F := Ideal) S5000x128 .f32 0x00000000#32) (ix2 r k)
      + matmul dot_S5000x128_S128x128_S5000x128_1_0_0_1_n_n none a0 w2 (constant (F := Ideal) S5000x128 .f32 0x00000000#32) (ix2 r k))
      + broadcastTo S5000x128 c1 broadcasts_S1x128_S5000x128 (ix2 r k) = _
  refine congrArg₂ (· + ·) (congrArg₂ (· + ·) ?_ ?_) ?_
  · exact Cert.Lib.Dots.matmul_zero_rowsCols_apply dot_S5000x64_S64x128_S5000x128_1_0_0_1_n_n_wf none x0 w1 r k
  · exact Cert.Lib.Dots.matmul_zero_rowsCols_apply dot_S5000x128_S128x128_S5000x128_1_0_0_1_n_n_wf none a0 w2 r k
  · exact broadcastTo_1b_ab_apply c1 broadcasts_S1x128_S5000x128 r k

/-- The block the body stores for the features, entry by entry: the node network of the row's features and averaged
    message. -/
theorem node_block_at (x0 : Vec Ideal S5000x64 .bf16) (w1 : Vec Ideal S64x128 .bf16) (a0 : Vec Ideal S5000x128 .bf16)
    (w2 : Vec Ideal S128x128 .bf16) (c1 : Vec Ideal S1x128 .f32) (w3 : Vec Ideal S128x64 .bf16) (c2 : Vec Ideal S1x64 .f32)
    (r : Fin 5000) (j : Fin 64) :
    (k1_pay1 x0 w1 a0 w2 c1 w3 c2 : S5000x64.Idx → EReal) (ix2 r j)
      = Spec.xnewK (fun k => x0 (ix2 r k)) (fun k => a0 (ix2 r k)) (fun k j => w1 (ix2 k j)) (fun k j => w2 (ix2 k j))
          (fun k => c1 (ix2 0 k)) (fun k j => w3 (ix2 k j)) (fun j => c2 (ix2 0 j)) j := by
  unfold k1_pay1
  simp only [shapeCast_self]
  show matmul dot_S5000x128_S128x64_S5000x64_1_0_0_1_n_n none
        (truncf .bf16 (mulf (hidPre x0 w1 a0 w2 c1) (logistic (hidPre x0 w1 a0 w2 c1))) bitsLt_bf16_f32) w3
        (constant (F := Ideal) S5000x64 .f32 0x00000000#32) (ix2 r j)
      + broadcastTo S5000x64 c2 broadcasts_S1x64_S5000x64 (ix2 r j) = _
  unfold Spec.xnewK
  refine congrArg₂ (· + ·) ?_ ?_
  · refine (Cert.Lib.Dots.matmul_zero_rowsCols_apply (φ₁ := .bf16) (φ₂ := .bf16) dot_S5000x128_S128x64_S5000x64_1_0_0_1_n_n_wf none
      (truncf .bf16 (mulf (hidPre x0 w1 a0 w2 c1) (logistic (hidPre x0 w1 a0 w2 c1))) bitsLt_bf16_f32) w3 r j).trans ?_
    refine Finset.sum_congr rfl fun k _ => ?_
    refine congrArg (· * w3 (ix2 k j)) ?_
    show hidPre x0 w1 a0 w2 c1 (ix2 r k) * Ideal.logistic (hidPre x0 w1 a0 w2 c1 (ix2 r k)) = _
    rw [hidPre_at]
    rfl
  · exact broadcastTo_1b_ab_apply c2 broadcasts_S1x64_S5000x64 r j

/-- The node network of one row, read off whole arrays: what the features result holds at (n, j). -/
abbrev newFeat (x : S50000x64.Idx → EReal) (a : S50000x128.Idx → EReal) (Vx : S64x128.Idx → EReal)
    (Vm : S128x128.Idx → EReal) (c1 : S1x128.Idx → EReal) (V2 : S128x64.Idx → EReal) (c2 : S1x64.Idx → EReal) :
    S50000x64.Idx → EReal := fun i =>
  Spec.xnewK (fun k => x (ix2 (i 0) k)) (fun k => a (ix2 (i 0) k)) (fun k j => Vx (ix2 k j)) (fun k j => Vm (ix2 k j))
    (fun k => c1 (ix2 0 k)) (fun k j => V2 (ix2 k j)) (fun j => c2 (ix2 0 j)) (i 1)

/-- The node network depends on its seven arguments only through their entries. -/
theorem xnewK_congr {x x' : Fin 64 → EReal} {a a' : Fin 128 → EReal} {Vx Vx' : Fin 64 → Fin 128 → EReal}
    {Vm Vm' : Fin 128 → Fin 128 → EReal} {c1 c1' : Fin 128 → EReal} {V2 V2' : Fin 128 → Fin 64 → EReal}
    {c2 c2' : Fin 64 → EReal} (hx : ∀ k, x k = x' k) (ha : ∀ k, a k = a' k) (hVx : ∀ k j, Vx k j = Vx' k j)
    (hVm : ∀ k j, Vm k j = Vm' k j) (hc1 : ∀ k, c1 k = c1' k) (hV2 : ∀ k j, V2 k j = V2' k j)
    (hc2 : ∀ j, c2 j = c2' j) (j : Fin 64) :
    Spec.xnewK x a Vx Vm c1 V2 c2 j = Spec.xnewK x' a' Vx' Vm' c1' V2' c2' j := by
  obtain rfl : x = x' := funext hx
  obtain rfl : a = a' := funext ha
  obtain rfl : Vx = Vx' := funext fun k => funext (hVx k)
  obtain rfl : Vm = Vm' := funext fun k => funext (hVm k)
  obtain rfl : c1 = c1' := funext hc1
  obtain rfl : V2 = V2' := funext fun k => funext (hV2 k)
  obtain rfl : c2 = c2' := funext hc2
  rfl

/-- Entry (r, j) of the result's block at point t is entry (5000·t + r, j) of the result array. -/
theorem emb9 (t : Fin cfg1.N) (r : Fin 5000) (j : Fin 64) :
    ((cfg1.win 9).blk t).view.emb (ix2 r j) = (ix2 ⟨5000 * t.val + r.val, row_lt t r⟩ j : S50000x64.Idx) := by
  obtain ⟨-, -, -, -, -, -, -, -, e0, e1, -, -⟩ := idx_rows t
  funext a
  apply Fin.ext
  match a with
  | ⟨0, _⟩ => show win1_9.index t (0 : Fin 2) * 5000 + 1 * r.val = 5000 * t.val + r.val; rw [e0]; omega
  | ⟨1, _⟩ => show win1_9.index t (1 : Fin 2) * 64 + 1 * j.val = j.val; rw [e1]; omega

/-- What point t writes back for the features is block t of `newFeat`. -/
theorem flushed9_eq (c : Dev nD) (t : Fin cfg1.N) :
    (dat1 (F := Ideal) V c).flushed 9 t
      = ((cfg1.win 9).blk t).view.read (Elt Ideal) (newFeat (V c main_v4) (V c main_v72) (V c main_v74) (V c main_v76)
          (V c main_v77) (V c main_v78) (V c main_v79)) := by
  show (cfg1.win 9).cut (grid1.coords t) ((dat1 V c).after 9 t) = _
  rw [after1_9]
  unfold out1_9
  rw [View.canon_unit_zero hz]
  simp only [View.ld_unit_zero (S := S5000x64) hz, View.ld_unit_zero (S := S64x128) hz, View.ld_unit_zero (S := S5000x128) hz,
    View.ld_unit_zero (S := S128x128) hz, View.ld_unit_zero (S := S1x128) hz, View.ld_unit_zero (S := S128x64) hz,
    View.ld_unit_zero (S := S1x64) hz]
  refine funext fun (i : S5000x64.Idx) => ?_
  obtain ⟨r, j, rfl⟩ : ∃ (r : Fin 5000) (j : Fin 64), i = ix2 r j := ⟨i 0, i 1, eq_ix2 i⟩
  refine (node_block_at (iblk1 V c 0 t) (iblk1 V c 4 t) (iblk1 V c 1 t) (iblk1 V c 5 t) (iblk1 V c 6 t) (iblk1 V c 7 t)
    (iblk1 V c 8 t) r j).trans ?_
  rw [View.read_apply, emb9 t r j]
  exact xnewK_congr (fun k => blk0_at V c t r k) (fun k => blk1_at V c t r k) (fun k j => blk4_at V c t k j)
    (fun k j => blk5_at V c t k j) (fun k => blk6_at V c t 0 k) (fun k j => blk7_at V c t k j) (fun j => blk8_at V c t 0 j) j

/-- An index of the features array lies in point t's block iff each coordinate lies in the block's range. -/
theorem mem_blk9 (t : Fin cfg1.N) (i : S50000x64.Idx) :
    i ∈ ((cfg1.win 9).blk t).view.set ↔ ∀ a : Fin 2, win1_9.index t a * S5000x64.size a ≤ (i a).val ∧ (i a).val < win1_9.index t a * S5000x64.size a + S5000x64.size a := by
  show i ∈ ((View.whole main_v80_0).slice (win1_9.rect t)).set ↔ _
  rw [View.set_slice_whole, Rect.mem_set_unit]
  exact Iff.rfl

theorem cover9 (i : S50000x64.Idx) :
    ∃ t : Fin cfg1.N, (cfg1.win 9).flush t = true ∧ i ∈ ((cfg1.win 9).blk t).view.set := by
  have hi0 : (i 0).val < 50000 := (i 0).isLt
  have hi1 : (i 1).val < 64 := (i 1).isLt
  refine ⟨pointOf (i 0), flush1_9 _, ?_⟩
  rw [mem_blk9]
  obtain ⟨-, -, -, -, -, -, -, -, e0, e1, -, -⟩ := idx_rows (pointOf (i 0))
  have hp : (pointOf (i 0)).val = (i 0).val / 5000 := rfl
  intro a
  match a with
  | ⟨0, _⟩ => show win1_9.index (pointOf (i 0)) (0 : Fin 2) * 5000 ≤ (i 0).val ∧ (i 0).val < win1_9.index (pointOf (i 0)) (0 : Fin 2) * 5000 + 5000; rw [e0, hp]; omega
  | ⟨1, _⟩ => show win1_9.index (pointOf (i 0)) (1 : Fin 2) * 64 ≤ (i 1).val ∧ (i 1).val < win1_9.index (pointOf (i 0)) (1 : Fin 2) * 64 + 64; rw [e1]; omega

/-- The features array after the call. -/
theorem final9 (c : Dev nD) :
    (dat1 (F := Ideal) V c).arrAt 9 cfg1.N = newFeat (V c main_v4) (V c main_v72) (V c main_v74) (V c main_v76)
      (V c main_v77) (V c main_v78) (V c main_v79) :=
  (dat1 V c).arrAt_eq_of_cover 9 _ (fun t _ => flushed9_eq V c t) cover9

/-- THE NEW FEATURES, entry by entry: the node network of the node's features and averaged message. -/
theorem node_x (c : Dev nD) (n : Fin 50000) (j : Fin 64) :
    ((dat1 (F := Ideal) V c).arrAt 9 cfg1.N : S50000x64.Idx → EReal) (ix2 n j)
      = Spec.xnewK (fun k => (V c main_v4 : S50000x64.Idx → EReal) (ix2 n k)) (fun k => (V c main_v72 : S50000x128.Idx → EReal) (ix2 n k))
          (fun k j => (V c main_v74 : S64x128.Idx → EReal) (ix2 k j)) (fun k j => (V c main_v76 : S128x128.Idx → EReal) (ix2 k j))
          (fun k => (V c main_v77 : S1x128.Idx → EReal) (ix2 0 k)) (fun k j => (V c main_v78 : S128x64.Idx → EReal) (ix2 k j))
          (fun j => (V c main_v79 : S1x64.Idx → EReal) (ix2 0 j)) j := by
  rw [final9 V c]

end Cert.KernelIdeal.NodeValue

end
-- ==== Proof.LibLayoutIx.lean ====
/-
  LAYOUT OPERATIONS OF A HOST PROGRAM READ AT AN INDEX BUILT FROM COORDINATES — general lemmas, about no particular
  program.

  Each lemma rewrites ONE layout operation of StableHLO — `broadcastInDim`, `extractStridedSlice`, `shapeCast`,
  `transpose`, `concatenate` — applied at an index written by its coordinates (`ValueIdx.ix0` … `ix3`) to its operand
  at the index it reads, again written by coordinates. The equations are oriented left to right for `simp only`: a
  chain of layout operations applied at `ix2 n c` is pushed down to the operand's element, one rewrite per operation.
  Shapes are LITERAL (`⟨rank, ![…]⟩`), their extents variables wherever no unit axis is involved, so one lemma serves
  every program whose shapes are reducible abbreviations of such literals; the operation's side condition
  (`Shape.Slices`, `ShapeCasts`, `BroadcastsInDim`, `Transposes`, `Concatenates`) is ANY proof `h`, bound as a variable.

  What is proved:
  * a rank-0 operand broadcast to any shape reads its one element (`broadcastInDim_scalar`);
  * a rank-1 operand broadcast into a column `[N, 1]` or a row `[1, N]` reads its coordinate (`broadcastInDim_col`,
    `broadcastInDim_row`); a row `[1, N]` stretched to `[R, N]` and a column `[N, 1]` stretched to `[N, C]` read the
    unit axis at 0 (`broadcastInDim_rows`, `broadcastInDim_cols`);
  * column `k` of an `[N, C]` array and row `k` of an `[R, N]` array, sliced out as `[N, 1]` / `[1, N]`
    (`extractStridedSlice_col`, `extractStridedSlice_row`);
  * a column or a row reshaped to rank 1 (`shapeCast_col`, `shapeCast_row`), and a `[U, V, L]` table flattened to
    `[U * V, L]`, read at row `f` as `(f / V, f % V)` (`shapeCast_table`, and `shapeCast_table_2048` at the literal 4194304);
  * the transposes `[1, 0]` of rank 2 and `[2, 0, 1]` of rank 3 (`transpose_10`, `transpose_201`);
  * two columns joined along axis 1 (`concatenate_cols_zero`, `concatenate_cols_one`) and twelve rows joined along axis 0:
    row `r` is piece `r`, for the index `ix2 ⟨r, hr⟩ n` (`concatenate_rows12_0` … `_11`), for `r` a numeral of `Fin 12`
    (`concatenate_rows12_num_0` … `_11`) and for any `r` (`concatenate_rows12`, the piece picked out of `![u0, …, u11]`);
  * pointwise host operations read at an index, all by `rfl`: the host's quotient, floor, absolute value and
    round-half-even at the ideal instance, the float-to-integer conversion there, and the integer splat, sum, product,
    signed minimum and comparison.
-/
import Idealize.ShloMosaic.Lib.ValueIdx
import Idealize.ShloMosaic.Lib.Pipeline.Value

namespace Cert.LibLayoutIx

open Idealize.ShloMosaic Idealize.ShloMosaic.ValueIdx

variable {α : Type}

/-! ## Broadcasts -/

/-- A rank-0 operand broadcast to ANY shape reads its one element at every index (`dims` is the empty map). -/
theorem broadcastInDim_scalar (t : Shape) (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-- A rank-1 operand laid down as the COLUMN `[N, 1]` reads its coordinate `n` at `(n, k)`. (When `N = 1` the
    operand's axis counts as a unit axis and is read at 0, which is then `n`.) The axis map is written at the literal
    ranks, `Fin 1 → Fin 2`, the form under which the simplifier finds the equation from a shape given by name. -/
theorem broadcastInDim_col {N : Nat} (h : (⟨1, ![N]⟩ : Shape).BroadcastsInDim ⟨2, ![N, 1]⟩ (![0] : Fin 1 → Fin 2))
    (x : (⟨1, ![N]⟩ : Shape).Idx → α) (n : Fin N) (k : Fin 1) :
    broadcastInDim ⟨2, ![N, 1]⟩ (![0] : Fin 1 → Fin 2) h x (ix2 n k) = x (ix1 n) :=
  broadcastInDim_apply _ h x _ (ix1 n) (fun a => match a with
    | ⟨0, _⟩ => by
      have hn := n.isLt
      show n.val = if N = 1 then 0 else n.val
      split
      · omega
      · rfl)

/-- A rank-1 operand laid down as the ROW `[1, N]` reads its coordinate `n` at `(k, n)`. -/
theorem broadcastInDim_row {N : Nat} (h : (⟨1, ![N]⟩ : Shape).BroadcastsInDim ⟨2, ![1, N]⟩ (![1] : Fin 1 → Fin 2))
    (x : (⟨1, ![N]⟩ : Shape).Idx → α) (k : Fin 1) (n : Fin N) :
    broadcastInDim ⟨2, ![1, N]⟩ (![1] : Fin 1 → Fin 2) h x (ix2 k n) = x (ix1 n) :=
  broadcastInDim_apply _ h x _ (ix1 n) (fun a => match a with
    | ⟨0, _⟩ => by
      have hn := n.isLt
      show n.val = if N = 1 then 0 else n.val
      split
      · omega
      · rfl)

/-- A ROW `[1, N]` stretched to `[R, N]` reads the row at `(0, n)`, whatever the row `r` asked for. -/
theorem broadcastInDim_rows {R N : Nat}
    (h : (⟨2, ![1, N]⟩ : Shape).BroadcastsInDim ⟨2, ![R, N]⟩ (![0, 1] : Fin 2 → Fin 2))
    (x : (⟨2, ![1, N]⟩ : Shape).Idx → α) (r : Fin R) (n : Fin N) :
    broadcastInDim ⟨2, ![R, N]⟩ (![0, 1] : Fin 2 → Fin 2) h x (ix2 r n) = x (ix2 0 n) :=
  broadcastInDim_apply _ h x _ (ix2 0 n) (fun a => match a with
    | ⟨0, _⟩ => by
      show (0 : Nat) = if (1 : Nat) = 1 then 0 else r.val
      rfl
    | ⟨1, _⟩ => by
      have hn := n.isLt
      show n.val = if N = 1 then 0 else n.val
      split
      · omega
      · rfl)

/-- A COLUMN `[N, 1]` stretched to `[N, C]` reads the column at `(n, 0)`, whatever the column `c` asked for. -/
theorem broadcastInDim_cols {N C : Nat}
    (h : (⟨2, ![N, 1]⟩ : Shape).BroadcastsInDim ⟨2, ![N, C]⟩ (![0, 1] : Fin 2 → Fin 2))
    (x : (⟨2, ![N, 1]⟩ : Shape).Idx → α) (n : Fin N) (c : Fin C) :
    broadcastInDim ⟨2, ![N, C]⟩ (![0, 1] : Fin 2 → Fin 2) h x (ix2 n c) = x (ix2 n 0) :=
  broadcastInDim_apply _ h x _ (ix2 n 0) (fun a => match a with
    | ⟨0, _⟩ => by
      have hn := n.isLt
      show n.val = if N = 1 then 0 else n.val
      split
      · omega
      · rfl
    | ⟨1, _⟩ => by
      show (0 : Nat) = if (1 : Nat) = 1 then 0 else c.val
      rfl)

/-! ## Slices -/

/-- The column a slice `[N, 1]` at offsets `(0, k)` of an `[N, C]` array takes is inside the array. -/
theorem slice_col_lt {N C k : Nat} (h : (⟨2, ![N, C]⟩ : Shape).Slices ![0, k] ⟨2, ![N, 1]⟩) : k < C := by
  have h1 := h.2 ⟨1, Nat.one_lt_two⟩
  change k + 1 ≤ C at h1
  omega

/-- COLUMN `k` of an `[N, C]` array, sliced out as `[N, 1]`, reads the array at `(n, k)`. -/
theorem extractStridedSlice_col {N C k : Nat} (x : (⟨2, ![N, C]⟩ : Shape).Idx → α)
    (h : (⟨2, ![N, C]⟩ : Shape).Slices ![0, k] ⟨2, ![N, 1]⟩) (n : Fin N) (z : Fin 1) :
    extractStridedSlice ⟨2, ![N, 1]⟩ ![0, k] x h (ix2 n z) = x (ix2 n ⟨k, slice_col_lt h⟩) :=
  extractStridedSlice_apply _ x h _ _ (fun a => match a with
    | ⟨0, _⟩ => by show n.val = 0 + n.val; omega
    | ⟨1, _⟩ => by have hz := z.isLt; show k = k + z.val; omega)

/-- The row a slice `[1, N]` at offsets `(k, 0)` of an `[R, N]` array takes is inside the array. -/
theorem slice_row_lt {R N k : Nat} (h : (⟨2, ![R, N]⟩ : Shape).Slices ![k, 0] ⟨2, ![1, N]⟩) : k < R := by
  have h0 := h.2 ⟨0, Nat.two_pos⟩
  change k + 1 ≤ R at h0
  omega

/-- ROW `k` of an `[R, N]` array, sliced out as `[1, N]`, reads the array at `(k, n)`. -/
theorem extractStridedSlice_row {R N k : Nat} (x : (⟨2, ![R, N]⟩ : Shape).Idx → α)
    (h : (⟨2, ![R, N]⟩ : Shape).Slices ![k, 0] ⟨2, ![1, N]⟩) (z : Fin 1) (n : Fin N) :
    extractStridedSlice ⟨2, ![1, N]⟩ ![k, 0] x h (ix2 z n) = x (ix2 ⟨k, slice_row_lt h⟩ n) :=
  extractStridedSlice_apply _ x h _ _ (fun a => match a with
    | ⟨0, _⟩ => by have hz := z.isLt; show k = k + z.val; omega
    | ⟨1, _⟩ => by show n.val = 0 + n.val; omega)

/-! ## Reshapes -/

/-- A column `[N, 1]` reshaped to rank 1 reads `(n, 0)` at `n`. -/
theorem shapeCast_col {N : Nat} (x : (⟨2, ![N, 1]⟩ : Shape).Idx → α)
    (h : (⟨2, ![N, 1]⟩ : Shape).ShapeCasts ⟨1, ![N]⟩) (n : Fin N) :
    shapeCast ⟨1, ![N]⟩ x h (ix1 n) = x (ix2 n 0) :=
  shapeCast_apply x h _ (ix2 n 0) (by
    rw [Shape.rowMajor_val_two, Shape.rowMajor_val_one]
    show n.val * 1 + 0 = n.val
    omega)

/-- A row `[1, N]` reshaped to rank 1 reads `(0, n)` at `n`. -/
theorem shapeCast_row {N : Nat} (x : (⟨2, ![1, N]⟩ : Shape).Idx → α)
    (h : (⟨2, ![1, N]⟩ : Shape).ShapeCasts ⟨1, ![N]⟩) (n : Fin N) :
    shapeCast ⟨1, ![N]⟩ x h (ix1 n) = x (ix2 0 n) :=
  shapeCast_apply x h _ (ix2 0 n) (by
    rw [Shape.rowMajor_val_two, Shape.rowMajor_val_one]
    show 0 * N + n.val = n.val
    omega)

/-- A row `m` of the flattened table lies in block `m / V`, which is one of the `U` blocks. -/
theorem table_div_lt {U V m : Nat} (hm : m < U * V) : m / V < U :=
  Nat.div_lt_of_lt_mul (Nat.mul_comm U V ▸ hm)

/-- A row `m` of the flattened table is row `m % V` of its block (a nonempty table has `0 < V`). -/
theorem table_mod_lt {U V m : Nat} (hm : m < U * V) : m % V < V := by
  rcases Nat.eq_zero_or_pos V with h0 | hV
  · rw [h0, Nat.mul_zero] at hm; exact absurd hm (Nat.not_lt_zero _)
  · exact Nat.mod_lt _ hV

/-- A `[U, V, L]` table FLATTENED to `[U * V, L]`: row `f` of the result is row `f % V` of block `f / V`. -/
theorem shapeCast_table {U V L : Nat} (x : (⟨3, ![U, V, L]⟩ : Shape).Idx → α)
    (h : (⟨3, ![U, V, L]⟩ : Shape).ShapeCasts ⟨2, ![U * V, L]⟩) (f : Fin (U * V)) (l : Fin L) :
    shapeCast ⟨2, ![U * V, L]⟩ x h (ix2 f l)
      = x (ix3 ⟨f.val / V, table_div_lt f.isLt⟩ ⟨f.val % V, table_mod_lt f.isLt⟩ l) :=
  shapeCast_apply x h _ _ (by
    rw [Shape.rowMajor_val_three, Shape.rowMajor_val_two]
    show (f.val / V * V + f.val % V) * L + l.val = f.val * L + l.val
    rw [Nat.div_add_mod'])

/-- The same with the row count written out, `2048 * 2048 = 4194304`, and two lanes: the form that matches a target
    shape given as the literal `[4194304, 2]`. -/
theorem shapeCast_table_2048 (x : (⟨3, ![2048, 2048, 2]⟩ : Shape).Idx → α)
    (h : (⟨3, ![2048, 2048, 2]⟩ : Shape).ShapeCasts ⟨2, ![4194304, 2]⟩) (f : Fin 4194304) (l : Fin 2) :
    shapeCast ⟨2, ![4194304, 2]⟩ x h (ix2 f l)
      = x (ix3 ⟨f.val / 2048, by have := f.isLt; omega⟩ ⟨f.val % 2048, by omega⟩ l) :=
  shapeCast_apply x h _ _ (by
    rw [Shape.rowMajor_val_three, Shape.rowMajor_val_two]
    show (f.val / 2048 * 2048 + f.val % 2048) * 2 + l.val = f.val * 2 + l.val
    omega)

/-! ## Transposes -/

/-- The rank-2 transpose: `(c, n)` of the result is `(n, c)` of the operand (either direction is this equation). -/
theorem transpose_10 {N C : Nat} (x : (⟨2, ![N, C]⟩ : Shape).Idx → α)
    (h : (⟨2, ![N, C]⟩ : Shape).Transposes ([1, 0] : List (Fin 2)) ⟨2, ![C, N]⟩) (c : Fin C) (n : Fin N) :
    transpose ⟨2, ![C, N]⟩ ([1, 0] : List (Fin 2)) x h (ix2 c n) = x (ix2 n c) :=
  transpose_apply _ x h _ (ix2 n c) (fun b => match b with
    | ⟨0, _⟩ => rfl
    | ⟨1, _⟩ => rfl)

/-- The rank-3 transpose that brings the last axis to the front: `(l, u, v)` of the result is `(u, v, l)` of the operand. -/
theorem transpose_201 {U V L : Nat} (x : (⟨3, ![U, V, L]⟩ : Shape).Idx → α)
    (h : (⟨3, ![U, V, L]⟩ : Shape).Transposes ([2, 0, 1] : List (Fin 3)) ⟨3, ![L, U, V]⟩)
    (l : Fin L) (u : Fin U) (v : Fin V) :
    transpose ⟨3, ![L, U, V]⟩ ([2, 0, 1] : List (Fin 3)) x h (ix3 l u v) = x (ix3 u v l) :=
  transpose_apply _ x h _ (ix3 u v l) (fun b => match b with
    | ⟨0, _⟩ => rfl
    | ⟨1, _⟩ => rfl
    | ⟨2, _⟩ => rfl)

/-! ## Concatenations -/

/-- Two columns joined along axis 1, read in column 0: the FIRST column. -/
theorem concatenate_cols_zero {N : Nat} (a b : (⟨2, ![N, 1]⟩ : Shape).Idx → α)
    (h : Shape.Concatenates [⟨2, ![N, 1]⟩, ⟨2, ![N, 1]⟩] ⟨2, ![N, 2]⟩ 1) (n : Fin N) :
    concatenate ⟨2, ![N, 2]⟩ 1 [⟨⟨2, ![N, 1]⟩, a⟩, ⟨⟨2, ![N, 1]⟩, b⟩] h (ix2 n 0) = a (ix2 n 0) :=
  concatenate_pair_apply_left 1 a b h (ix2 n 0) rfl (ix2 n 0) (fun c => match c with
    | ⟨0, _⟩ => rfl
    | ⟨1, _⟩ => rfl)

/-- Two columns joined along axis 1, read in column 1: the SECOND column (at its own column 0). -/
theorem concatenate_cols_one {N : Nat} (a b : (⟨2, ![N, 1]⟩ : Shape).Idx → α)
    (h : Shape.Concatenates [⟨2, ![N, 1]⟩, ⟨2, ![N, 1]⟩] ⟨2, ![N, 2]⟩ 1) (n : Fin N) :
    concatenate ⟨2, ![N, 2]⟩ 1 [⟨⟨2, ![N, 1]⟩, a⟩, ⟨⟨2, ![N, 1]⟩, b⟩] h (ix2 n 1) = b (ix2 n 0) :=
  concatenate_pair_apply_right 1 a b h (ix2 n 1) rfl rfl (ix2 n 0)
    (fun c hc => match c, hc with
      | ⟨0, _⟩, _ => rfl
      | ⟨1, _⟩, hc => absurd rfl hc)
    (by show 0 + 1 = 1; rfl)

section Rows12
variable {N : Nat} (u0 u1 u2 u3 u4 u5 u6 u7 u8 u9 u10 u11 : (⟨2, ![1, N]⟩ : Shape).Idx → α)

set_option quotPrecheck false in
/-- The twelve rows, each with its shape, in the order the concatenation lists them. -/
local notation "rows12" =>
  ([⟨⟨2, ![1, N]⟩, u0⟩, ⟨⟨2, ![1, N]⟩, u1⟩, ⟨⟨2, ![1, N]⟩, u2⟩, ⟨⟨2, ![1, N]⟩, u3⟩,
    ⟨⟨2, ![1, N]⟩, u4⟩, ⟨⟨2, ![1, N]⟩, u5⟩, ⟨⟨2, ![1, N]⟩, u6⟩, ⟨⟨2, ![1, N]⟩, u7⟩,
    ⟨⟨2, ![1, N]⟩, u8⟩, ⟨⟨2, ![1, N]⟩, u9⟩, ⟨⟨2, ![1, N]⟩, u10⟩, ⟨⟨2, ![1, N]⟩, u11⟩] : List ((s : Shape) × (s.Idx → α)))

variable (h : Shape.Concatenates [⟨2, ![1, N]⟩, ⟨2, ![1, N]⟩, ⟨2, ![1, N]⟩, ⟨2, ![1, N]⟩, ⟨2, ![1, N]⟩, ⟨2, ![1, N]⟩,
  ⟨2, ![1, N]⟩, ⟨2, ![1, N]⟩, ⟨2, ![1, N]⟩, ⟨2, ![1, N]⟩, ⟨2, ![1, N]⟩, ⟨2, ![1, N]⟩] ⟨2, ![12, N]⟩ 0)

/-- TWELVE ROWS joined along axis 0, read in row `R`: the piece that sits at position `R` of the list (`hx`), once the
    extents of the pieces before it are known to add up to `R` (`hp`: each piece is one row). -/
theorem concatenate_rows12_at (R : Nat) (hR : R < 12) (v : (⟨2, ![1, N]⟩ : Shape).Idx → α)
    (hx : rows12[R]'hR = ⟨⟨2, ![1, N]⟩, v⟩)
    (hp : (((List.take R rows12).map (·.1)).map fun s : Shape =>
      if h : s.rank = (⟨2, ![12, N]⟩ : Shape).rank then s.size ((0 : Fin (⟨2, ![12, N]⟩ : Shape).rank).cast h.symm) else 0).sum = R)
    (n : Fin N) :
    concatenate ⟨2, ![12, N]⟩ 0 rows12 h (ix2 ⟨R, hR⟩ n) = v (ix2 0 n) :=
  concatenate_apply_piece (t := ⟨2, ![12, N]⟩) 0 rows12 h (ix2 ⟨R, hR⟩ n) R hR ⟨2, ![1, N]⟩ v hx rfl R hp (ix2 0 n)
    (fun c hc => match c, hc with
      | ⟨0, _⟩, hc => absurd rfl hc
      | ⟨1, _⟩, _ => rfl)
    (by show R + 0 = R; rfl)

/-! Row `r` at the index `ix2 ⟨r, hr⟩ n`, `hr` any proof of the bound. -/

/-- Row 0 of the twelve joined rows is the first piece. -/
theorem concatenate_rows12_0 (hr : 0 < 12) (n : Fin N) :
    concatenate ⟨2, ![12, N]⟩ 0 rows12 h (ix2 ⟨0, hr⟩ n) = u0 (ix2 0 n) :=
  concatenate_rows12_at u0 u1 u2 u3 u4 u5 u6 u7 u8 u9 u10 u11 h 0 hr u0 rfl rfl n

/-- Row 1 of the twelve joined rows is the second piece. -/
theorem concatenate_rows12_1 (hr : 1 < 12) (n : Fin N) :
    concatenate ⟨2, ![12, N]⟩ 0 rows12 h (ix2 ⟨1, hr⟩ n) = u1 (ix2 0 n) :=
  concatenate_rows12_at u0 u1 u2 u3 u4 u5 u6 u7 u8 u9 u10 u11 h 1 hr u1 rfl rfl n

/-- Row 2 of the twelve joined rows is the third piece. -/
theorem concatenate_rows12_2 (hr : 2 < 12) (n : Fin N) :
    concatenate ⟨2, ![12, N]⟩ 0 rows12 h (ix2 ⟨2, hr⟩ n) = u2 (ix2 0 n) :=
  concatenate_rows12_at u0 u1 u2 u3 u4 u5 u6 u7 u8 u9 u10 u11 h 2 hr u2 rfl rfl n

/-- Row 3 of the twelve joined rows is the fourth piece. -/
theorem concatenate_rows12_3 (hr : 3 < 12) (n : Fin N) :
    concatenate ⟨2, ![12, N]⟩ 0 rows12 h (ix2 ⟨3, hr⟩ n) = u3 (ix2 0 n) :=
  concatenate_rows12_at u0 u1 u2 u3 u4 u5 u6 u7 u8 u9 u10 u11 h 3 hr u3 rfl rfl n

/-- Row 4 of the twelve joined rows is the fifth piece. -/
theorem concatenate_rows12_4 (hr : 4 < 12) (n : Fin N) :
    concatenate ⟨2, ![12, N]⟩ 0 rows12 h (ix2 ⟨4, hr⟩ n) = u4 (ix2 0 n) :=
  concatenate_rows12_at u0 u1 u2 u3 u4 u5 u6 u7 u8 u9 u10 u11 h 4 hr u4 rfl rfl n

/-- Row 5 of the twelve joined rows is the sixth piece. -/
theorem concatenate_rows12_5 (hr : 5 < 12) (n : Fin N) :
    concatenate ⟨2, ![12, N]⟩ 0 rows12 h (ix2 ⟨5, hr⟩ n) = u5 (ix2 0 n) :=
  concatenate_rows12_at u0 u1 u2 u3 u4 u5 u6 u7 u8 u9 u10 u11 h 5 hr u5 rfl rfl n

/-- Row 6 of the twelve joined rows is the seventh piece. -/
theorem concatenate_rows12_6 (hr : 6 < 12) (n : Fin N) :
    concatenate ⟨2, ![12, N]⟩ 0 rows12 h (ix2 ⟨6, hr⟩ n) = u6 (ix2 0 n) :=
  concatenate_rows12_at u0 u1 u2 u3 u4 u5 u6 u7 u8 u9 u10 u11 h 6 hr u6 rfl rfl n

/-- Row 7 of the twelve joined rows is the eighth piece. -/
theorem concatenate_rows12_7 (hr : 7 < 12) (n : Fin N) :
    concatenate ⟨2, ![12, N]⟩ 0 rows12 h (ix2 ⟨7, hr⟩ n) = u7 (ix2 0 n) :=
  concatenate_rows12_at u0 u1 u2 u3 u4 u5 u6 u7 u8 u9 u10 u11 h 7 hr u7 rfl rfl n

/-- Row 8 of the twelve joined rows is the ninth piece. -/
theorem concatenate_rows12_8 (hr : 8 < 12) (n : Fin N) :
    concatenate ⟨2, ![12, N]⟩ 0 rows12 h (ix2 ⟨8, hr⟩ n) = u8 (ix2 0 n) :=
  concatenate_rows12_at u0 u1 u2 u3 u4 u5 u6 u7 u8 u9 u10 u11 h 8 hr u8 rfl rfl n

/-- Row 9 of the twelve joined rows is the tenth piece. -/
theorem concatenate_rows12_9 (hr : 9 < 12) (n : Fin N) :
    concatenate ⟨2, ![12, N]⟩ 0 rows12 h (ix2 ⟨9, hr⟩ n) = u9 (ix2 0 n) :=
  concatenate_rows12_at u0 u1 u2 u3 u4 u5 u6 u7 u8 u9 u10 u11 h 9 hr u9 rfl rfl n

/-- Row 10 of the twelve joined rows is the eleventh piece. -/
theorem concatenate_rows12_10 (hr : 10 < 12) (n : Fin N) :
    concatenate ⟨2, ![12, N]⟩ 0 rows12 h (ix2 ⟨10, hr⟩ n) = u10 (ix2 0 n) :=
  concatenate_rows12_at u0 u1 u2 u3 u4 u5 u6 u7 u8 u9 u10 u11 h 10 hr u10 rfl rfl n

/-- Row 11 of the twelve joined rows is the twelfth piece. -/
theorem concatenate_rows12_11 (hr : 11 < 12) (n : Fin N) :
    concatenate ⟨2, ![12, N]⟩ 0 rows12 h (ix2 ⟨11, hr⟩ n) = u11 (ix2 0 n) :=
  concatenate_rows12_at u0 u1 u2 u3 u4 u5 u6 u7 u8 u9 u10 u11 h 11 hr u11 rfl rfl n

/-- ANY row `r` of the twelve joined rows is the piece at position `r`. -/
theorem concatenate_rows12 (r : Fin 12) (n : Fin N) :
    concatenate ⟨2, ![12, N]⟩ 0 rows12 h (ix2 r n)
      = (![u0, u1, u2, u3, u4, u5, u6, u7, u8, u9, u10, u11] r) (ix2 0 n) :=
  match r with
  | ⟨0, hr⟩ => concatenate_rows12_0 u0 u1 u2 u3 u4 u5 u6 u7 u8 u9 u10 u11 h hr n
  | ⟨1, hr⟩ => concatenate_rows12_1 u0 u1 u2 u3 u4 u5 u6 u7 u8 u9 u10 u11 h hr n
  | ⟨2, hr⟩ => concatenate_rows12_2 u0 u1 u2 u3 u4 u5 u6 u7 u8 u9 u10 u11 h hr n
  | ⟨3, hr⟩ => concatenate_rows12_3 u0 u1 u2 u3 u4 u5 u6 u7 u8 u9 u10 u11 h hr n
  | ⟨4, hr⟩ => concatenate_rows12_4 u0 u1 u2 u3 u4 u5 u6 u7 u8 u9 u10 u11 h hr n
  | ⟨5, hr⟩ => concatenate_rows12_5 u0 u1 u2 u3 u4 u5 u6 u7 u8 u9 u10 u11 h hr n
  | ⟨6, hr⟩ => concatenate_rows12_6 u0 u1 u2 u3 u4 u5 u6 u7 u8 u9 u10 u11 h hr n
  | ⟨7, hr⟩ => concatenate_rows12_7 u0 u1 u2 u3 u4 u5 u6 u7 u8 u9 u10 u11 h hr n
  | ⟨8, hr⟩ => concatenate_rows12_8 u0 u1 u2 u3 u4 u5 u6 u7 u8 u9 u10 u11 h hr n
  | ⟨9, hr⟩ => concatenate_rows12_9 u0 u1 u2 u3 u4 u5 u6 u7 u8 u9 u10 u11 h hr n
  | ⟨10, hr⟩ => concatenate_rows12_10 u0 u1 u2 u3 u4 u5 u6 u7 u8 u9 u10 u11 h hr n
  | ⟨11, hr⟩ => concatenate_rows12_11 u0 u1 u2 u3 u4 u5 u6 u7 u8 u9 u10 u11 h hr n

/-! Row `r` at the index `ix2 r n` with `r` a numeral of `Fin 12`. -/

/-- Row 0, the index's row written as a numeral. -/
theorem concatenate_rows12_num_0 (n : Fin N) :
    concatenate ⟨2, ![12, N]⟩ 0 rows12 h (ix2 (0 : Fin 12) n) = u0 (ix2 0 n) :=
  concatenate_rows12 u0 u1 u2 u3 u4 u5 u6 u7 u8 u9 u10 u11 h 0 n

/-- Row 1, the index's row written as a numeral. -/
theorem concatenate_rows12_num_1 (n : Fin N) :
    concatenate ⟨2, ![12, N]⟩ 0 rows12 h (ix2 (1 : Fin 12) n) = u1 (ix2 0 n) :=
  concatenate_rows12 u0 u1 u2 u3 u4 u5 u6 u7 u8 u9 u10 u11 h 1 n

/-- Row 2, the index's row written as a numeral. -/
theorem concatenate_rows12_num_2 (n : Fin N) :
    concatenate ⟨2, ![12, N]⟩ 0 rows12 h (ix2 (2 : Fin 12) n) = u2 (ix2 0 n) :=
  concatenate_rows12 u0 u1 u2 u3 u4 u5 u6 u7 u8 u9 u10 u11 h 2 n

/-- Row 3, the index's row written as a numeral. -/
theorem concatenate_rows12_num_3 (n : Fin N) :
    concatenate ⟨2, ![12, N]⟩ 0 rows12 h (ix2 (3 : Fin 12) n) = u3 (ix2 0 n) :=
  concatenate_rows12 u0 u1 u2 u3 u4 u5 u6 u7 u8 u9 u10 u11 h 3 n

/-- Row 4, the index's row written as a numeral. -/
theorem concatenate_rows12_num_4 (n : Fin N) :
    concatenate ⟨2, ![12, N]⟩ 0 rows12 h (ix2 (4 : Fin 12) n) = u4 (ix2 0 n) :=
  concatenate_rows12 u0 u1 u2 u3 u4 u5 u6 u7 u8 u9 u10 u11 h 4 n

/-- Row 5, the index's row written as a numeral. -/
theorem concatenate_rows12_num_5 (n : Fin N) :
    concatenate ⟨2, ![12, N]⟩ 0 rows12 h (ix2 (5 : Fin 12) n) = u5 (ix2 0 n) :=
  concatenate_rows12 u0 u1 u2 u3 u4 u5 u6 u7 u8 u9 u10 u11 h 5 n

/-- Row 6, the index's row written as a numeral. -/
theorem concatenate_rows12_num_6 (n : Fin N) :
    concatenate ⟨2, ![12, N]⟩ 0 rows12 h (ix2 (6 : Fin 12) n) = u6 (ix2 0 n) :=
  concatenate_rows12 u0 u1 u2 u3 u4 u5 u6 u7 u8 u9 u10 u11 h 6 n

/-- Row 7, the index's row written as a numeral. -/
theorem concatenate_rows12_num_7 (n : Fin N) :
    concatenate ⟨2, ![12, N]⟩ 0 rows12 h (ix2 (7 : Fin 12) n) = u7 (ix2 0 n) :=
  concatenate_rows12 u0 u1 u2 u3 u4 u5 u6 u7 u8 u9 u10 u11 h 7 n

/-- Row 8, the index's row written as a numeral. -/
theorem concatenate_rows12_num_8 (n : Fin N) :
    concatenate ⟨2, ![12, N]⟩ 0 rows12 h (ix2 (8 : Fin 12) n) = u8 (ix2 0 n) :=
  concatenate_rows12 u0 u1 u2 u3 u4 u5 u6 u7 u8 u9 u10 u11 h 8 n

/-- Row 9, the index's row written as a numeral. -/
theorem concatenate_rows12_num_9 (n : Fin N) :
    concatenate ⟨2, ![12, N]⟩ 0 rows12 h (ix2 (9 : Fin 12) n) = u9 (ix2 0 n) :=
  concatenate_rows12 u0 u1 u2 u3 u4 u5 u6 u7 u8 u9 u10 u11 h 9 n

/-- Row 10, the index's row written as a numeral. -/
theorem concatenate_rows12_num_10 (n : Fin N) :
    concatenate ⟨2, ![12, N]⟩ 0 rows12 h (ix2 (10 : Fin 12) n) = u10 (ix2 0 n) :=
  concatenate_rows12 u0 u1 u2 u3 u4 u5 u6 u7 u8 u9 u10 u11 h 10 n

/-- Row 11, the index's row written as a numeral. -/
theorem concatenate_rows12_num_11 (n : Fin N) :
    concatenate ⟨2, ![12, N]⟩ 0 rows12 h (ix2 (11 : Fin 12) n) = u11 (ix2 0 n) :=
  concatenate_rows12 u0 u1 u2 u3 u4 u5 u6 u7 u8 u9 u10 u11 h 11 n

end Rows12

/-! ## Pointwise host operations at an index -/

section Pointwise
variable {s : Shape} {φ : FTy} {w : Nat}

/-- The host's float quotient at an index is the ideal instance's division of the elements. -/
theorem host_divf_apply (a b : FVec Ideal s φ) (i : s.Idx) : Host.divf a b i = Ideal.div (a i) (b i) := rfl
/-- The host's floor at an index rounds the element down to an integer (infinities stay). -/
theorem host_floor_apply (a : FVec Ideal s φ) (i : s.Idx) : Host.floor a i = Ideal.liftRound Int.floor (a i) := rfl
/-- The host's round-to-nearest-even at an index rounds the element, ties to the even integer. -/
theorem host_roundeven_apply (a : FVec Ideal s φ) (i : s.Idx) :
    Host.roundeven a i = Ideal.liftRound Ideal.roundHalfEven (a i) := rfl
/-- The host's absolute value at an index is the larger of the element and its negation. -/
theorem host_absf_apply (a : FVec Ideal s φ) (i : s.Idx) : Host.absf a i = max (a i) (-(a i)) := rfl
/-- A float-to-signed-integer conversion at an index truncates and clamps the element. -/
theorem fptosi_apply (v : Nat) (a : FVec Ideal s φ) (i : s.Idx) : fptosi v a i = Ideal.fptosi v (a i) := rfl
/-- An integer splat reads its word everywhere. -/
theorem constantI_apply (b : BitVec w) (i : s.Idx) : constantI s w b i = b := rfl
/-- An integer sum at an index adds the elements. -/
theorem addi_apply (x y : IVec s w) (i : s.Idx) : addi x y i = IntOp.addi (x i) (y i) := rfl
/-- An integer product at an index multiplies the elements. -/
theorem muli_apply (x y : IVec s w) (i : s.Idx) : muli x y i = IntOp.muli (x i) (y i) := rfl
/-- A signed minimum at an index is the signed minimum of the elements. -/
theorem minsi_apply (x y : IVec s w) (i : s.Idx) : minsi x y i = IntOp.minsi (x i) (y i) := rfl
/-- An integer comparison at an index compares the elements. -/
theorem cmpi_apply (p : CmpIPredicate) (x y : IVec s w) (i : s.Idx) : cmpi p x y i = IntOp.cmpi p (x i) (y i) := rfl
/-- The word-level sum is the bit-vector sum … -/
theorem intOp_addi (x y : BitVec w) : IntOp.addi x y = x + y := rfl
/-- … the word-level product the bit-vector product … -/
theorem intOp_muli (x y : BitVec w) : IntOp.muli x y = x * y := rfl
/-- … and the word-level signed minimum the `if` on the signed comparison. -/
theorem intOp_minsi (x y : BitVec w) : IntOp.minsi x y = if x.slt y then x else y := rfl

end Pointwise

end Cert.LibLayoutIx
-- ==== Proof.LibLayoutAt.lean ====
/- Four layout operations read at an index written by its coordinates — general facts, about no particular program:
   the transpose of a matrix, a band of consecutive rows cut out of a matrix, two matrices of equal height joined side
   by side, and a matrix given a new unit axis in the middle. -/
import Idealize.ShloMosaic.Lib.ValueIdx
import Idealize.ShloMosaic.Lib.Pipeline.Value

namespace Cert.Lib.LayoutAt

open Idealize.ShloMosaic Idealize.ShloMosaic.ValueIdx

variable {α : Type}

/-- Entry (c, n) of the transpose is entry (n, c) of the matrix. -/
theorem transpose_at {N C : Nat} (x : (⟨2, ![N, C]⟩ : Shape).Idx → α)
    (h : (⟨2, ![N, C]⟩ : Shape).Transposes ([1, 0] : List (Fin 2)) ⟨2, ![C, N]⟩) (c : Fin C) (n : Fin N) :
    transpose ⟨2, ![C, N]⟩ ([1, 0] : List (Fin 2)) x h (ix2 c n) = x (ix2 n c) :=
  transpose_apply _ x h _ (ix2 n c) (fun b => match b with
    | ⟨0, _⟩ => rfl
    | ⟨1, _⟩ => rfl)

/-- Rows k … k + R − 1 of a matrix of R' rows, cut out as a matrix of R rows: entry (r, c) is entry (k + r, c). -/
theorem rowBand_at {R' R C k : Nat} (x : (⟨2, ![R', C]⟩ : Shape).Idx → α)
    (h : (⟨2, ![R', C]⟩ : Shape).Slices ![k, 0] ⟨2, ![R, C]⟩) (r : Fin R) (c : Fin C) (hr : k + r.val < R') :
    extractStridedSlice ⟨2, ![R, C]⟩ ![k, 0] x h (ix2 r c) = x (ix2 ⟨k + r.val, hr⟩ c) :=
  extractStridedSlice_apply _ x h _ _ (fun a => match a with
    | ⟨0, _⟩ => rfl
    | ⟨1, _⟩ => by show c.val = 0 + c.val; omega)

/-- Two matrices of N rows joined side by side, read in the LEFT part: the first matrix there. -/
theorem sideBySide_left {N A B W : Nat} (x : (⟨2, ![N, A]⟩ : Shape).Idx → α) (y : (⟨2, ![N, B]⟩ : Shape).Idx → α)
    (h : Shape.Concatenates [⟨2, ![N, A]⟩, ⟨2, ![N, B]⟩] ⟨2, ![N, W]⟩ 1) (n : Fin N) (c : Fin W) (hc : c.val < A) :
    concatenate ⟨2, ![N, W]⟩ 1 [⟨⟨2, ![N, A]⟩, x⟩, ⟨⟨2, ![N, B]⟩, y⟩] h (ix2 n c) = x (ix2 n ⟨c.val, hc⟩) :=
  concatenate_pair_apply_left 1 x y h (ix2 n c) rfl (ix2 n ⟨c.val, hc⟩) (fun b => match b with
    | ⟨0, _⟩ => rfl
    | ⟨1, _⟩ => rfl)

/-- Two matrices of N rows joined side by side, read in the RIGHT part: the second matrix, the first one's width less. -/
theorem sideBySide_right {N A B W : Nat} (x : (⟨2, ![N, A]⟩ : Shape).Idx → α) (y : (⟨2, ![N, B]⟩ : Shape).Idx → α)
    (h : Shape.Concatenates [⟨2, ![N, A]⟩, ⟨2, ![N, B]⟩] ⟨2, ![N, W]⟩ 1) (n : Fin N) (c : Fin W) (hc : A ≤ c.val)
    (hB : c.val - A < B) :
    concatenate ⟨2, ![N, W]⟩ 1 [⟨⟨2, ![N, A]⟩, x⟩, ⟨⟨2, ![N, B]⟩, y⟩] h (ix2 n c) = y (ix2 n ⟨c.val - A, hB⟩) :=
  concatenate_pair_apply_right 1 x y h (ix2 n c) rfl rfl (ix2 n ⟨c.val - A, hB⟩)
    (fun b hb => match b, hb with
      | ⟨0, _⟩, _ => rfl
      | ⟨1, _⟩, hb => absurd rfl hb)
    (by show c.val - A + A = c.val; omega)

/-- A matrix given a new unit axis in the middle: entry (n, z, c) is entry (n, c). -/
theorem midUnit_at {N C : Nat} (hN : N ≠ 1) (hC : C ≠ 1) (x : (⟨2, ![N, C]⟩ : Shape).Idx → α)
    (h : (⟨2, ![N, C]⟩ : Shape).BroadcastsInDim ⟨3, ![N, 1, C]⟩ (![0, 2] : Fin 2 → Fin 3)) (n : Fin N) (z : Fin 1) (c : Fin C) :
    broadcastInDim ⟨3, ![N, 1, C]⟩ (![0, 2] : Fin 2 → Fin 3) h x (ix3 n z c) = x (ix2 n c) :=
  broadcastInDim_apply _ h x _ (ix2 n c) (fun a => match a with
    | ⟨0, _⟩ => by show n.val = if N = 1 then 0 else n.val; rw [if_neg hN]
    | ⟨1, _⟩ => by show c.val = if C = 1 then 0 else c.val; rw [if_neg hC])

end Cert.Lib.LayoutAt
-- ==== Proof.HostPre.lean ====
/- What the first stretch of host operations leaves in the buffers the two calls read, on the extended reals.
   The stretch cuts the edge index into its source row and its target row, makes a possibly negative node number
   non-negative by adding the number of nodes, gathers per edge the target's and the source's features, positions
   and gate, takes the coordinate differences, and lays out the weights: the first matrix's four row bands (rows
   0–63 for the target's features, 64–127 for the source's, row 128 for the squared distance, rows 129–144 for the
   edge attributes), the biases as one-row matrices, the coordinate weights as a column. A change of float format is
   the identity here, so a narrowed band is the band. The gathered arrays are given whole, as the operations'
   composed term over the argument arrays; the small ones are read entry by entry. No operation of the stretch
   writes an argument array. -/
import proofs.«400004_j53979148976481_3_alg».proof.Proof.KIData
import proofs.«400004_j53979148976481_3_alg».proof.Proof.Spec
import proofs.«400004_j53979148976481_3_alg».proof.Proof.Gen.KernelIdeal.Regions
import proofs.«400004_j53979148976481_3_alg».proof.Proof.LibLayoutIx
import proofs.«400004_j53979148976481_3_alg».proof.Proof.LibLayoutAt
import Idealize.ShloMosaic.Lib.ValueIdx
import Idealize.ShloMosaic.Lib.ValueLayout
import Idealize.ShloMosaic.Lib.Tactic

set_option maxRecDepth 16384

noncomputable section

namespace Cert.KernelIdeal.HostPre

open Idealize.ShloMosaic Idealize.ShloMosaic.TcCoe Idealize.SL.Sem
open Idealize.ShloMosaic.ValueIdx
open Cert.KernelIdeal Cert.KernelIdeal.Gen Cert.KernelIdeal.GenP

variable (m : (ℓ : Loc nD τ sig) → Buf (Elt Ideal) ℓ) (c : Dev nD)

/-! ## The argument arrays, at their literal types -/

/-- Node features. -/
abbrev a0 : S50000x64.Idx → EReal := m ((c : Thread nD τ).loc main_arg0)
/-- Node positions. -/
abbrev a1 : S50000x3.Idx → EReal := m ((c : Thread nD τ).loc main_arg1)
/-- The edge index: row 0 the source node of each edge, row 1 its target node. -/
abbrev a2 : IVec S2x800000 32 := m ((c : Thread nD τ).loc main_arg2)
/-- The per-node gate. -/
abbrev a4 : S50000.Idx → EReal := m ((c : Thread nD τ).loc main_arg4)
/-- The edge network's first weight matrix, 145 rows. -/
abbrev a5 : S145x128.Idx → EReal := m ((c : Thread nD τ).loc main_arg5)
/-- Its bias. -/
abbrev a6 : S128.Idx → EReal := m ((c : Thread nD τ).loc main_arg6)
/-- The second weight matrix. -/
abbrev a7 : S128x128.Idx → EReal := m ((c : Thread nD τ).loc main_arg7)
/-- Its bias. -/
abbrev a8 : S128.Idx → EReal := m ((c : Thread nD τ).loc main_arg8)
/-- The coordinate weights, a column. -/
abbrev a13 : S128x1.Idx → EReal := m ((c : Thread nD τ).loc main_arg13)
/-- The coordinate bias. -/
abbrev a14 : S1.Idx → EReal := m ((c : Thread nD τ).loc main_arg14)

/-! ## The two rows of the edge index, and a node number made non-negative -/

/-- The source node of each edge: row 0 of the edge index as a vector. -/
abbrev srcIdx : IVec S800000 32 :=
  shapeCast S800000 (extractStridedSlice S1x800000 ![0, 0] (a2 m c) slices_S2x800000_S1x800000_0_0) shapeCasts_S1x800000_S800000

/-- The target node of each edge: row 1 of the edge index as a vector. -/
abbrev dstIdx : IVec S800000 32 :=
  shapeCast S800000 (extractStridedSlice S1x800000 ![1, 0] (a2 m c) slices_S2x800000_S1x800000_1_0) shapeCasts_S1x800000_S800000

/-- A vector of node numbers with 50000 added to the negative ones, as a one-column array of start indices. -/
abbrev wrapIdx (v : IVec S800000 32) : IVec S800000x1 32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-! ## The gathered arrays, whole -/

theorem pre_v1 : (W1 m c main_v1 : IVec S800000 32) = srcIdx m c := by
  show StableHlo.after hostOps0 (W0 m c) (Proc.devRef .tc main_v1) = _
  after_results
  rfl

theorem pre_v3 : (W1 m c main_v3 : IVec S800000 32) = dstIdx m c := by
  show StableHlo.after hostOps0 (W0 m c) (Proc.devRef .tc main_v3) = _
  after_results
  rfl

/-- The node features in the narrower format: themselves. -/
theorem pre_v4 : (W1 m c main_v4 : S50000x64.Idx → EReal) = truncf (F := Ideal) (s := S50000x64) (φ := .f32) .bf16 (a0 m c) bitsLt_bf16_f32 := by
  show StableHlo.after hostOps0 (W0 m c) (Proc.devRef .tc main_v4) = _
  after_results

/-- Per edge, the target node's features. -/
theorem pre_v11 : (W1 m c main_v11 : S800000x64.Idx → EReal)
    = Host.gather gather_S50000x64_S800000x1_S800000x64_1_0_n_n_0_1_164 (truncf (F := Ideal) (s := S50000x64) (φ := .f32) .bf16 (a0 m c) bitsLt_bf16_f32) (wrapIdx (dstIdx m c)) := by
  show StableHlo.after hostOps0 (W0 m c) (Proc.devRef .tc main_v11) = _
  after_results_simp
  rfl

/-- Per edge, the source node's features. -/
theorem pre_v18 : (W1 m c main_v18 : S800000x64.Idx → EReal)
    = Host.gather gather_S50000x64_S800000x1_S800000x64_1_0_n_n_0_1_164 (truncf (F := Ideal) (s := S50000x64) (φ := .f32) .bf16 (a0 m c) bitsLt_bf16_f32) (wrapIdx (srcIdx m c)) := by
  show StableHlo.after hostOps0 (W0 m c) (Proc.devRef .tc main_v18) = _
  after_results_simp
  rfl

/-- Per edge, the target node's position minus the source node's. -/
theorem pre_v33 : (W1 m c main_v33 : S800000x3.Idx → EReal)
    = subf (F := Ideal) (s := S800000x3) (φ := .f32)
        (Host.gather gather_S50000x3_S800000x1_S800000x3_1_0_n_n_0_1_13 (a1 m c) (wrapIdx (dstIdx m c)))
        (Host.gather gather_S50000x3_S800000x1_S800000x3_1_0_n_n_0_1_13 (a1 m c) (wrapIdx (srcIdx m c))) := by
  show StableHlo.after hostOps0 (W0 m c) (Proc.devRef .tc main_v33) = _
  after_results_simp
  rfl

/-- Per edge, the source node's gate, laid out as a column. -/
theorem pre_v41 : (W1 m c main_v41 : S800000x1.Idx → EReal)
    = shapeCast S800000x1 (Host.gather gather_S50000_S800000x1_S800000_n_0_n_n_0_1_1 (a4 m c) (wrapIdx (srcIdx m c)))
        shapeCasts_S800000_S800000x1 := by
  show StableHlo.after hostOps0 (W0 m c) (Proc.devRef .tc main_v41) = _
  after_results_simp
  rfl

/-! ## The weights, entry by entry -/

theorem arr_v43 : (W1 m c main_v43 : S64x128.Idx → EReal)
    = truncf (F := Ideal) (s := S64x128) (φ := .f32) .bf16
        (extractStridedSlice S64x128 ![0, 0] (a5 m c) slices_S145x128_S64x128_0_0) bitsLt_bf16_f32 := by
  show StableHlo.after hostOps0 (W0 m c) (Proc.devRef .tc main_v43) = _
  after_results

/-- The band of the first weight matrix that multiplies the target's features: rows 0 … 63. -/
theorem pre_v43 (k : Fin 64) (j : Fin 128) :
    (W1 m c main_v43 : S64x128.Idx → EReal) (ix2 k j) = a5 m c (ix2 (Spec.rowD k) j) := by
  refine (congrFun (arr_v43 m c) (ix2 k j)).trans ?_
  show extractStridedSlice S64x128 ![0, 0] (a5 m c) slices_S145x128_S64x128_0_0 (ix2 k j) = _
  refine (Cert.Lib.LayoutAt.rowBand_at (a5 m c) slices_S145x128_S64x128_0_0 k j (by have := k.isLt; omega)).trans ?_
  exact congrArg (fun r => a5 m c (ix2 r j)) (Fin.ext (by show 0 + k.val = k.val; omega))

theorem arr_v45 : (W1 m c main_v45 : S64x128.Idx → EReal)
    = truncf (F := Ideal) (s := S64x128) (φ := .f32) .bf16
        (extractStridedSlice S64x128 ![64, 0] (a5 m c) slices_S145x128_S64x128_64_0) bitsLt_bf16_f32 := by
  show StableHlo.after hostOps0 (W0 m c) (Proc.devRef .tc main_v45) = _
  after_results

/-- The band that multiplies the source's features: rows 64 … 127. -/
theorem pre_v45 (k : Fin 64) (j : Fin 128) :
    (W1 m c main_v45 : S64x128.Idx → EReal) (ix2 k j) = a5 m c (ix2 (Spec.rowS k) j) := by
  refine (congrFun (arr_v45 m c) (ix2 k j)).trans ?_
  show extractStridedSlice S64x128 ![64, 0] (a5 m c) slices_S145x128_S64x128_64_0 (ix2 k j) = _
  exact Cert.Lib.LayoutAt.rowBand_at (a5 m c) slices_S145x128_S64x128_64_0 k j (by have := k.isLt; omega)

theorem arr_v46 : (W1 m c main_v46 : S1x128.Idx → EReal)
    = extractStridedSlice S1x128 ![128, 0] (a5 m c) slices_S145x128_S1x128_128_0 := by
  show StableHlo.after hostOps0 (W0 m c) (Proc.devRef .tc main_v46) = _
  after_results

/-- The row that multiplies the squared distance: row 128. -/
theorem pre_v46 (j : Fin 128) :
    (W1 m c main_v46 : S1x128.Idx → EReal) (ix2 0 j) = a5 m c (ix2 Spec.rowR j) := by
  refine (congrFun (arr_v46 m c) (ix2 0 j)).trans ?_
  exact Cert.LibLayoutIx.extractStridedSlice_row (a5 m c) slices_S145x128_S1x128_128_0 0 j

theorem arr_v48 : (W1 m c main_v48 : S16x128.Idx → EReal)
    = truncf (F := Ideal) (s := S16x128) (φ := .f32) .bf16
        (extractStridedSlice S16x128 ![129, 0] (a5 m c) slices_S145x128_S16x128_129_0) bitsLt_bf16_f32 := by
  show StableHlo.after hostOps0 (W0 m c) (Proc.devRef .tc main_v48) = _
  after_results

/-- The band that multiplies the edge attributes: rows 129 … 144. -/
theorem pre_v48 (k : Fin 16) (j : Fin 128) :
    (W1 m c main_v48 : S16x128.Idx → EReal) (ix2 k j) = a5 m c (ix2 (Spec.rowA k) j) := by
  refine (congrFun (arr_v48 m c) (ix2 k j)).trans ?_
  show extractStridedSlice S16x128 ![129, 0] (a5 m c) slices_S145x128_S16x128_129_0 (ix2 k j) = _
  exact Cert.Lib.LayoutAt.rowBand_at (a5 m c) slices_S145x128_S16x128_129_0 k j (by have := k.isLt; omega)

theorem arr_v49 : (W1 m c main_v49 : S1x128.Idx → EReal) = shapeCast S1x128 (a6 m c) shapeCasts_S128_S1x128 := by
  show StableHlo.after hostOps0 (W0 m c) (Proc.devRef .tc main_v49) = _
  after_results
  rfl

/-- The first bias as a one-row matrix. -/
theorem pre_v49 (j : Fin 128) : (W1 m c main_v49 : S1x128.Idx → EReal) (ix2 0 j) = a6 m c (ix1 j) := by
  refine (congrFun (arr_v49 m c) (ix2 0 j)).trans ?_
  exact shapeCast_a_1a_apply (a6 m c) shapeCasts_S128_S1x128 0 j

theorem arr_v50 : (W1 m c main_v50 : S128x128.Idx → EReal)
    = truncf (F := Ideal) (s := S128x128) (φ := .f32) .bf16 (a7 m c) bitsLt_bf16_f32 := by
  show StableHlo.after hostOps0 (W0 m c) (Proc.devRef .tc main_v50) = _
  after_results

/-- The second weight matrix. -/
theorem pre_v50 (k j : Fin 128) : (W1 m c main_v50 : S128x128.Idx → EReal) (ix2 k j) = a7 m c (ix2 k j) :=
  congrFun (arr_v50 m c) (ix2 k j)

theorem arr_v51 : (W1 m c main_v51 : S1x128.Idx → EReal) = shapeCast S1x128 (a8 m c) shapeCasts_S128_S1x128 := by
  show StableHlo.after hostOps0 (W0 m c) (Proc.devRef .tc main_v51) = _
  after_results
  rfl

/-- The second bias as a one-row matrix. -/
theorem pre_v51 (j : Fin 128) : (W1 m c main_v51 : S1x128.Idx → EReal) (ix2 0 j) = a8 m c (ix1 j) := by
  refine (congrFun (arr_v51 m c) (ix2 0 j)).trans ?_
  exact shapeCast_a_1a_apply (a8 m c) shapeCasts_S128_S1x128 0 j

theorem arr_v52 : (W1 m c main_v52 : S128x1.Idx → EReal)
    = truncf (F := Ideal) (s := S128x1) (φ := .f32) .bf16 (a13 m c) bitsLt_bf16_f32 := by
  show StableHlo.after hostOps0 (W0 m c) (Proc.devRef .tc main_v52) = _
  after_results

/-- The coordinate weights. -/
theorem pre_v52 (k : Fin 128) : (W1 m c main_v52 : S128x1.Idx → EReal) (ix2 k 0) = a13 m c (ix2 k 0) :=
  congrFun (arr_v52 m c) (ix2 k 0)

theorem arr_v53 : (W1 m c main_v53 : S1x1.Idx → EReal) = shapeCast S1x1 (a14 m c) shapeCasts_S1_S1x1 := by
  show StableHlo.after hostOps0 (W0 m c) (Proc.devRef .tc main_v53) = _
  after_results
  rfl

/-- The coordinate bias as a one-entry matrix. -/
theorem pre_v53 : (W1 m c main_v53 : S1x1.Idx → EReal) (ix2 0 0) = a14 m c (ix1 0) := by
  refine (congrFun (arr_v53 m c) (ix2 0 0)).trans ?_
  exact shapeCast_a_1a_apply (a14 m c) shapeCasts_S1_S1x1 0 0

/-! ## The argument arrays the later stages read are as launched -/

theorem pre_arg1 : W1 m c main_arg1 = m ((c : Thread nD τ).loc main_arg1) := V1_of m c main_arg1 (by decide)
theorem pre_arg3 : W1 m c main_arg3 = m ((c : Thread nD τ).loc main_arg3) := V1_of m c main_arg3 (by decide)
theorem pre_arg9 : W1 m c main_arg9 = m ((c : Thread nD τ).loc main_arg9) := V1_of m c main_arg9 (by decide)
theorem pre_arg10 : W1 m c main_arg10 = m ((c : Thread nD τ).loc main_arg10) := V1_of m c main_arg10 (by decide)
theorem pre_arg11 : W1 m c main_arg11 = m ((c : Thread nD τ).loc main_arg11) := V1_of m c main_arg11 (by decide)
theorem pre_arg12 : W1 m c main_arg12 = m ((c : Thread nD τ).loc main_arg12) := V1_of m c main_arg12 (by decide)

end Cert.KernelIdeal.HostPre

end
-- ==== Proof.LibScatterRows.lean ====
/-
  A general lemma about the host's accumulating scatter on the extended reals.

  A ROW scatter-add — `stablehlo.scatter` with an `add` body, `update_window_dims = [1]`, `inserted_window_dims = [0]`,
  `scatter_dims_to_operand_dims = [0]`, `index_vector_dim = 1`, on an operand of shape `[S, C]`, scatter indices `[R, 1]`
  and updates `[R, C]` — adds row `r` of the updates to row `idx r` of the operand (jax's `segment_sum`). On the extended
  reals the sum is exact and order-free, so the result at `(s, c)` is the operand there plus the sum of the updates'
  column `c` over the rows whose index word is `s`; and when those rows are enumerated without repetition by
  `e : Fin P → Fin R`, that sum is `∑ p, upd (e p, c)`.
-/
import Idealize.ShloMosaic.PureOps.Ideal
import Idealize.ShloMosaic.Lib.ValueIdx

noncomputable section

namespace Cert.LibScatterRows

open Idealize.ShloMosaic Idealize.ShloMosaic.ValueIdx

/-- A sum over the members of a set of rows cut out by a predicate, re-indexed by an enumeration of that set:
    `e` is injective, lands in the set, and reaches every member. -/
theorem sum_filter_eq_sum_enum {R P : ℕ} {M : Type} [AddCommMonoid M] (pred : Fin R → Prop) [DecidablePred pred]
    (e : Fin P → Fin R) (hinj : Function.Injective e) (hmem : ∀ p, pred (e p)) (hsurj : ∀ r, pred r → ∃ p, e p = r)
    (f : Fin R → M) : ∑ r ∈ Finset.univ.filter pred, f r = ∑ p : Fin P, f (e p) := by
  have hset : Finset.univ.filter pred = Finset.univ.image e := by
    ext r
    simp only [Finset.mem_filter, Finset.mem_univ, true_and, Finset.mem_image]
    constructor
    · intro h; exact hsurj r h
    · rintro ⟨p, rfl⟩; exact hmem p
  rw [hset, Finset.sum_image (fun a _ b _ h => hinj h)]

/-- On operand axis 0 the window starts at the index word of the update's row, read signed. -/
theorem rows_start_zero {S C R w : ℕ}
    (wf : ScatterDims.WF (⟨2, ![S, C]⟩ : Shape) ⟨2, ![R, 1]⟩ ⟨2, ![R, C]⟩ [1] [0] [0] 1)
    (idx : IVec ⟨2, ![R, 1]⟩ w) (r : Fin R) (c' : Fin C) :
    (⟨[1], [0], [0], 1, wf⟩ : ScatterDims ⟨2, ![S, C]⟩ ⟨2, ![R, 1]⟩ ⟨2, ![R, C]⟩).start (ix2 r c') idx 0
      = (idx (ix2 r (0 : Fin 1))).toInt := by
  unfold ScatterDims.start
  rw [dif_pos (show (0 : Fin 2) ∈ [(0 : Fin 2)] from List.mem_singleton.mpr rfl)]
  congr 2
  funext b
  refine Fin.ext ?_
  match b with
  | ⟨0, _⟩ => rfl
  | ⟨1, _⟩ => rfl

/-- On operand axis 1 the window starts at 0. -/
theorem rows_start_one {S C R w : ℕ}
    (wf : ScatterDims.WF (⟨2, ![S, C]⟩ : Shape) ⟨2, ![R, 1]⟩ ⟨2, ![R, C]⟩ [1] [0] [0] 1)
    (idx : IVec ⟨2, ![R, 1]⟩ w) (r : Fin R) (c' : Fin C) :
    (⟨[1], [0], [0], 1, wf⟩ : ScatterDims ⟨2, ![S, C]⟩ ⟨2, ![R, 1]⟩ ⟨2, ![R, C]⟩).start (ix2 r c') idx 1 = 0 := by
  unfold ScatterDims.start
  rw [dif_neg (show ¬ (1 : Fin 2) ∈ [(0 : Fin 2)] by decide)]

/-- On operand axis 0, an inserted axis, the window coordinate is 0. -/
theorem rows_window_zero {S C R : ℕ}
    (wf : ScatterDims.WF (⟨2, ![S, C]⟩ : Shape) ⟨2, ![R, 1]⟩ ⟨2, ![R, C]⟩ [1] [0] [0] 1)
    (r : Fin R) (c' : Fin C) :
    (⟨[1], [0], [0], 1, wf⟩ : ScatterDims ⟨2, ![S, C]⟩ ⟨2, ![R, 1]⟩ ⟨2, ![R, C]⟩).window (ix2 r c') 0 = 0 := by
  unfold ScatterDims.window
  exact dif_neg (show ¬ (0 : Fin 2) ∈ (List.finRange 2).filter (· ∉ [(0 : Fin 2)]) by decide)

/-- On operand axis 1 the window coordinate is the update's column. -/
theorem rows_window_one {S C R : ℕ}
    (wf : ScatterDims.WF (⟨2, ![S, C]⟩ : Shape) ⟨2, ![R, 1]⟩ ⟨2, ![R, C]⟩ [1] [0] [0] 1)
    (r : Fin R) (c' : Fin C) :
    (⟨[1], [0], [0], 1, wf⟩ : ScatterDims ⟨2, ![S, C]⟩ ⟨2, ![R, 1]⟩ ⟨2, ![R, C]⟩).window (ix2 r c') 1 = c'.val := by
  unfold ScatterDims.window
  exact (dif_pos (show (1 : Fin 2) ∈ (List.finRange 2).filter (· ∉ [(0 : Fin 2)]) by decide)).trans rfl

/-- Where an update lands, on a rank-2 operand, from the window's start and coordinate on the two axes: if on axis 0
    the start is `t` and the window coordinate 0, and on axis 1 the start is 0 and the window coordinate `k`, the update
    goes to `(s, c)` exactly when `t = s` and `k = c` (otherwise it goes elsewhere or is dropped). -/
theorem resultIdx_eq_some_ix2_iff {S C w : ℕ} {si u : Shape} (d : ScatterDims ⟨2, ![S, C]⟩ si u) (j : u.Idx)
    (idx : IVec si w) (t : Int) (k : ℕ) (h00 : d.start j idx 0 = t) (h01 : d.start j idx 1 = 0)
    (hw0 : d.window j 0 = 0) (hw1 : d.window j 1 = k) (s : Fin S) (c : Fin C) :
    d.resultIdx? j idx = some (ix2 s c) ↔ t = (s.val : Int) ∧ k = c.val := by
  have hs := s.isLt
  have hc := c.isLt
  unfold ScatterDims.resultIdx?
  constructor
  · intro h
    split_ifs at h with hall
    have hfun := Option.some.inj h
    have e0 : (d.start j idx 0 + (d.window j 0 : ℕ)).toNat = s.val := congrArg (fun f => (f 0).val) hfun
    have e1 : (d.start j idx 1 + (d.window j 1 : ℕ)).toNat = c.val := congrArg (fun f => (f 1).val) hfun
    have b0 : 0 ≤ d.start j idx 0 + (d.window j 0 : ℕ) := (hall 0).1
    have b1 : 0 ≤ d.start j idx 1 + (d.window j 1 : ℕ) := (hall 1).1
    rw [h00, hw0] at e0 b0
    rw [h01, hw1] at e1 b1
    constructor <;> omega
  · rintro ⟨ht, hk⟩
    have hall : ∀ a, 0 ≤ d.start j idx a + d.window j a
        ∧ d.start j idx a + d.window j a < (⟨2, ![S, C]⟩ : Shape).size a := by
      intro a
      match a with
      | ⟨0, _⟩ =>
        show 0 ≤ d.start j idx 0 + (d.window j 0 : ℕ) ∧ d.start j idx 0 + (d.window j 0 : ℕ) < (S : Int)
        rw [h00, hw0]; omega
      | ⟨1, _⟩ =>
        show 0 ≤ d.start j idx 1 + (d.window j 1 : ℕ) ∧ d.start j idx 1 + (d.window j 1 : ℕ) < (C : Int)
        rw [h01, hw1]; omega
    rw [dif_pos hall]
    congr 1
    funext a
    refine Fin.ext ?_
    match a with
    | ⟨0, _⟩ =>
      show (d.start j idx 0 + (d.window j 0 : ℕ)).toNat = s.val
      rw [h00, hw0]; omega
    | ⟨1, _⟩ =>
      show (d.start j idx 1 + (d.window j 1 : ℕ)).toNat = c.val
      rw [h01, hw1]; omega

/-- Where an update of a row scatter lands: the update at row `r`, column `c'` goes to operand index `(s, c)` exactly
    when the row's index word, read signed, is `s` and the columns agree. -/
theorem rows_resultIdx_eq_some_iff {S C R w : ℕ}
    (wf : ScatterDims.WF (⟨2, ![S, C]⟩ : Shape) ⟨2, ![R, 1]⟩ ⟨2, ![R, C]⟩ [1] [0] [0] 1)
    (idx : IVec ⟨2, ![R, 1]⟩ w) (r : Fin R) (c' : Fin C) (s : Fin S) (c : Fin C) :
    (⟨[1], [0], [0], 1, wf⟩ : ScatterDims ⟨2, ![S, C]⟩ ⟨2, ![R, 1]⟩ ⟨2, ![R, C]⟩).resultIdx? (ix2 r c') idx
        = some (ix2 s c)
      ↔ (idx (ix2 r (0 : Fin 1))).toInt = (s.val : Int) ∧ c' = c := by
  rw [resultIdx_eq_some_ix2_iff _ _ idx _ _ (rows_start_zero wf idx r c') (rows_start_one wf idx r c')
    (rows_window_zero wf r c') (rows_window_one wf r c') s c, Fin.ext_iff]

/-- A row scatter-add read at `(s, c)`: the operand there plus the updates' column `c` summed over the rows whose index
    word, read signed, is `s`. -/
theorem hostScatterAdd_rows_apply {S C R w : ℕ}
    (wf : ScatterDims.WF (⟨2, ![S, C]⟩ : Shape) ⟨2, ![R, 1]⟩ ⟨2, ![R, C]⟩ [1] [0] [0] 1)
    (x : (⟨2, ![S, C]⟩ : Shape).Idx → EReal) (idx : IVec ⟨2, ![R, 1]⟩ w) (upd : (⟨2, ![R, C]⟩ : Shape).Idx → EReal)
    (s : Fin S) (c : Fin C) :
    Ideal.hostScatterAdd (⟨[1], [0], [0], 1, wf⟩ : ScatterDims ⟨2, ![S, C]⟩ ⟨2, ![R, 1]⟩ ⟨2, ![R, C]⟩) x idx upd (ix2 s c)
      = x (ix2 s c)
        + ∑ r ∈ Finset.univ.filter (fun r : Fin R => (idx (ix2 r (0 : Fin 1))).toInt = (s.val : Int)), upd (ix2 r c) := by
  unfold Ideal.hostScatterAdd
  congr 1
  rw [Finset.sum_filter, sum_idx2, Finset.sum_filter]
  refine Finset.sum_congr rfl fun r _ => ?_
  by_cases hr : (idx (ix2 r (0 : Fin 1))).toInt = (s.val : Int)
  · rw [if_pos hr, Finset.sum_eq_single c]
    · exact if_pos ((rows_resultIdx_eq_some_iff wf idx r c s c).2 ⟨hr, rfl⟩)
    · intro c' _ hne
      exact if_neg fun h => hne ((rows_resultIdx_eq_some_iff wf idx r c' s c).1 h).2
    · intro hc
      exact absurd (Finset.mem_univ c) hc
  · rw [if_neg hr]
    exact Finset.sum_eq_zero fun c' _ => if_neg fun h => hr ((rows_resultIdx_eq_some_iff wf idx r c' s c).1 h).1

/-- The same with the rows of segment `s` enumerated: if row `r`'s index word is the natural number `seg r`, and `e`
    lists the rows with `seg r = s` once each, the result at `(s, c)` is the operand there plus `∑ p, upd (e p, c)`. -/
theorem hostScatterAdd_rows_enum {S C R P w : ℕ}
    (wf : ScatterDims.WF (⟨2, ![S, C]⟩ : Shape) ⟨2, ![R, 1]⟩ ⟨2, ![R, C]⟩ [1] [0] [0] 1)
    (x : (⟨2, ![S, C]⟩ : Shape).Idx → EReal) (idx : IVec ⟨2, ![R, 1]⟩ w) (upd : (⟨2, ![R, C]⟩ : Shape).Idx → EReal)
    (seg : Fin R → ℕ) (hseg : ∀ r : Fin R, (idx (ix2 r (0 : Fin 1))).toInt = (seg r : Int))
    (s : Fin S) (c : Fin C) (e : Fin P → Fin R) (hinj : Function.Injective e) (hmem : ∀ p, seg (e p) = s.val)
    (hsurj : ∀ r, seg r = s.val → ∃ p, e p = r) :
    Ideal.hostScatterAdd (⟨[1], [0], [0], 1, wf⟩ : ScatterDims ⟨2, ![S, C]⟩ ⟨2, ![R, 1]⟩ ⟨2, ![R, C]⟩) x idx upd (ix2 s c)
      = x (ix2 s c) + ∑ p : Fin P, upd (ix2 (e p) c) := by
  rw [hostScatterAdd_rows_apply wf x idx upd s c]
  congr 1
  refine sum_filter_eq_sum_enum (fun r : Fin R => (idx (ix2 r (0 : Fin 1))).toInt = (s.val : Int)) e hinj ?_ ?_
    (fun r => upd (ix2 r c))
  · intro p
    show (idx (ix2 (e p) (0 : Fin 1))).toInt = (s.val : Int)
    rw [hseg, hmem]
  · intro r hr
    have hr' : (idx (ix2 r (0 : Fin 1))).toInt = (s.val : Int) := hr
    rw [hseg] at hr'
    exact hsurj r (Int.ofNat.inj hr')

end Cert.LibScatterRows

end
-- ==== Proof.LibNary3.lean ====
/-
  Two general lemmas about three operands, about no particular program.

  (1) A host operation over a family of THREE references leaves in its result buffer the operation's function applied
  to the three operands' contents, each read at its own reference (rather than through the family applied to a bound
  position), so that the operands' own contents can be read further.

  (2) Three arrays with the same N rows laid side by side (joined along axis 1), of A, B and C columns, read at a
  column of the joined array: a column j < A reads the first array at column j; column A + k, k < B, reads the second
  at column k; column A + B + l, l < C, reads the third at column l.
-/
import Idealize.ShloMosaic.Lib.StableHlo.Run
import Idealize.ShloMosaic.Lib.Pipeline.Value
import Idealize.ShloMosaic.Lib.ValueIdx

namespace Cert.Lib.Nary3

open Idealize.ShloMosaic Idealize.ShloMosaic.ValueIdx

/-! ## The result of an operation of three operands -/

section Result

variable {τ : Topo} {sig : RefSig} {Val : EltTy → Type} {x a b y : Ref sig .tc}

/-- An operation over the literal family `![x, a, b]` of three references leaves in its result buffer `f` of the
    three contents, the contents of operand `k` being the valuation read at the `k`-th reference itself. -/
theorem nary3_result
    (f : ((k : Fin 3) → ((![x, a, b] : Fin 3 → Ref sig .tc) k).ty.Contents Val) → y.ty.Contents Val) (hxs hy)
    (F : Valuation τ sig Val) :
    (StableHlo.nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [StableHlo.nary_result]
  congr 1
  funext k
  match k with
  | ⟨0, _⟩ => rfl
  | ⟨1, _⟩ => rfl
  | ⟨2, _⟩ => rfl

end Result

/-- What one buffer holds after a literal line of host operations, some of them over three operands: the fold is
    opened, then each operation's result is rewritten at its own result buffer to its function's value (the
    three-operand form above before the general family form) and at any other reference to what was there. -/
macro "after_results3" : tactic =>
  `(tactic| (simp only [StableHlo.after_cons, StableHlo.after_nil]
             repeat (first
               | rw [StableHlo.nullary_result] | rw [StableHlo.unary_result] | rw [StableHlo.binary_result]
               | rw [StableHlo.ternary_result] | rw [StableHlo.quaternary_result]
               | rw [StableHlo.reshape_result] | rw [StableHlo.binaryIndexed_result] | rw [StableHlo.nary4_result]
               | rw [Cert.Lib.Nary3.nary3_result] | rw [StableHlo.nary_result] | rw [StableHlo.unaryIndexed_result]
               | (rw [StableHlo.nullary_result_ne]; rotate_left; decide)
               | (rw [StableHlo.unary_result_ne]; rotate_left; decide)
               | (rw [StableHlo.binary_result_ne]; rotate_left; decide)
               | (rw [StableHlo.ternary_result_ne]; rotate_left; decide)
               | (rw [StableHlo.quaternary_result_ne]; rotate_left; decide)
               | (rw [StableHlo.reshape_result_ne]; rotate_left; decide)
               | (rw [StableHlo.binaryIndexed_result_ne]; rotate_left; decide)
               | (rw [StableHlo.nary_result_ne]; rotate_left; decide)
               | (rw [StableHlo.unaryIndexed_result_ne]; rotate_left; decide))))

/-! ## Three arrays side by side, read at a column -/

section Cols3

variable {α : Type} {N A B C T : Nat}
variable (u : (⟨2, ![N, A]⟩ : Shape).Idx → α) (v : (⟨2, ![N, B]⟩ : Shape).Idx → α) (w : (⟨2, ![N, C]⟩ : Shape).Idx → α)
variable (h : Shape.Concatenates [⟨2, ![N, A]⟩, ⟨2, ![N, B]⟩, ⟨2, ![N, C]⟩] ⟨2, ![N, T]⟩ 1)

/-- A column of the first block reads the first array. -/
theorem concatenate_cols3_left (n : Fin N) (j : Fin A) (hj : j.val < T) :
    concatenate ⟨2, ![N, T]⟩ 1 [⟨⟨2, ![N, A]⟩, u⟩, ⟨⟨2, ![N, B]⟩, v⟩, ⟨⟨2, ![N, C]⟩, w⟩] h (ix2 n ⟨j.val, hj⟩) = u (ix2 n j) :=
  concatenate_apply_piece (t := ⟨2, ![N, T]⟩) 1 [⟨⟨2, ![N, A]⟩, u⟩, ⟨⟨2, ![N, B]⟩, v⟩, ⟨⟨2, ![N, C]⟩, w⟩] h
    (ix2 n ⟨j.val, hj⟩) 0 (by show (0 : Nat) < 3; omega) ⟨2, ![N, A]⟩ u rfl rfl 0 rfl (ix2 n j)
    (fun c hc => match c, hc with
      | ⟨0, _⟩, _ => rfl
      | ⟨1, _⟩, hc => absurd rfl hc)
    (by show 0 + j.val = j.val; omega)

/-- A column of the second block reads the second array. -/
theorem concatenate_cols3_mid (n : Fin N) (k : Fin B) (hk : A + k.val < T) :
    concatenate ⟨2, ![N, T]⟩ 1 [⟨⟨2, ![N, A]⟩, u⟩, ⟨⟨2, ![N, B]⟩, v⟩, ⟨⟨2, ![N, C]⟩, w⟩] h (ix2 n ⟨A + k.val, hk⟩) = v (ix2 n k) :=
  concatenate_apply_piece (t := ⟨2, ![N, T]⟩) 1 [⟨⟨2, ![N, A]⟩, u⟩, ⟨⟨2, ![N, B]⟩, v⟩, ⟨⟨2, ![N, C]⟩, w⟩] h
    (ix2 n ⟨A + k.val, hk⟩) 1 (by show (1 : Nat) < 3; omega) ⟨2, ![N, B]⟩ v rfl rfl A (by show A + 0 = A; omega) (ix2 n k)
    (fun c hc => match c, hc with
      | ⟨0, _⟩, _ => rfl
      | ⟨1, _⟩, hc => absurd rfl hc)
    rfl

/-- A column of the third block reads the third array. -/
theorem concatenate_cols3_right (n : Fin N) (l : Fin C) (hl : A + B + l.val < T) :
    concatenate ⟨2, ![N, T]⟩ 1 [⟨⟨2, ![N, A]⟩, u⟩, ⟨⟨2, ![N, B]⟩, v⟩, ⟨⟨2, ![N, C]⟩, w⟩] h (ix2 n ⟨A + B + l.val, hl⟩) = w (ix2 n l) :=
  concatenate_apply_piece (t := ⟨2, ![N, T]⟩) 1 [⟨⟨2, ![N, A]⟩, u⟩, ⟨⟨2, ![N, B]⟩, v⟩, ⟨⟨2, ![N, C]⟩, w⟩] h
    (ix2 n ⟨A + B + l.val, hl⟩) 2 (by show (2 : Nat) < 3; omega) ⟨2, ![N, C]⟩ w rfl rfl (A + B) (by show A + (B + 0) = A + B; omega) (ix2 n l)
    (fun c hc => match c, hc with
      | ⟨0, _⟩, _ => rfl
      | ⟨1, _⟩, hc => absurd rfl hc)
    rfl

end Cols3

end Cert.Lib.Nary3
-- ==== Proof.HostMid.lean ====
/-
  WHAT THE HOST OPERATIONS BETWEEN THE TWO CALLS LEAVE FOR THE SECOND CALL, READ AT AN INDEX, on the extended reals.

  Between the edge network and the node network the program lays, for every edge, its 128 message entries, its 3
  coordinate differences each multiplied by the edge's coordinate weight, and a unit side by side (132 columns); adds
  each edge's 132 columns into the row of the edge's target node, starting from zero; and divides the first 128
  columns, and the next 3, of every node's row by the larger of the last column and one. On the extended reals the
  accumulation is the exact sum over the edges that point at the node, so node n holds, in column j < 128, the sum of
  the messages' column j over its edges divided by max(number of its edges, 1) — the average `Spec.avg` — and in
  coordinate column k the same average of weight × difference. The second call's weight operands are row bands of the
  node matrix (rows 0 … 63 and 64 … 191), a bias read as a row, the second matrix, and the second bias read as a row:
  each is the launch argument at the corresponding index, the conversions between float formats being the identity on
  the extended reals.

  The statements are first proved over an arbitrary assignment `W` of contents to the buffers before the stretch (the
  whole arrays after the stretch as terms over `W`, then those terms at an index), then read at the contents the first
  call leaves.
-/
import proofs.«400004_j53979148976481_3_alg».proof.Proof.KIData
import proofs.«400004_j53979148976481_3_alg».proof.Proof.Spec
import proofs.«400004_j53979148976481_3_alg».proof.Proof.LibScatterRows
import proofs.«400004_j53979148976481_3_alg».proof.Proof.LibLayoutIx
import proofs.«400004_j53979148976481_3_alg».proof.Proof.LibNary3
import proofs.«400004_j53979148976481_3_alg».proof.Proof.Gen.KernelIdeal.Regions
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal
import Idealize.ShloMosaic.PureOps.Ideal.Laws

set_option maxRecDepth 16384

noncomputable section

namespace Cert.KernelIdeal.HostMid

open Idealize.ShloMosaic Idealize.ShloMosaic.TcCoe Idealize.ShloMosaic.ValueIdx
open Idealize.ShloMosaic.Pipeline (Dat)
open Cert.KernelIdeal Cert.KernelIdeal.Gen Cert.KernelIdeal.GenP
open Cert.Lib.Nary3 Cert.LibLayoutIx

/-- The unit as the program writes it. -/
abbrev one : EReal := Ideal.ofBits .f32 0x3F800000#32

/-- The edges whose target word in `D`, read signed, is node `n`. -/
def selOf (D : S800000.Idx → BitVec 32) (n : Fin 50000) (e : Fin 800000) : Prop := (D (ix1 e)).toInt = (n.val : Int)

instance (D : S800000.Idx → BitVec 32) (n : Fin 50000) : DecidablePred (selOf D n) :=
  fun e => inferInstanceAs (Decidable ((D (ix1 e)).toInt = (n.val : Int)))

/-! ## Over any contents before the stretch -/

section Terms

variable (W : Valuation τ sig (Elt Ideal))

/-- The arrays the stretch reads, at their element types. -/
abbrev rM : S800000x128.Idx → EReal := W main_v54_0
abbrev rG : S800000x1.Idx → EReal := W main_v54_1
abbrev rDF : S800000x3.Idx → EReal := W main_v33
abbrev rDST : S800000.Idx → BitVec 32 := W main_v3
abbrev rA9 : S192x128.Idx → EReal := W main_arg9
abbrev rA10 : S128.Idx → EReal := W main_arg10
abbrev rA11 : S128x64.Idx → EReal := W main_arg11
abbrev rA12 : S64.Idx → EReal := W main_arg12

/-- The messages, the weighted coordinate differences and a column of units, side by side: 132 columns an edge. -/
def cat : FVec Ideal S800000x132 .f32 :=
  concatenate S800000x132 1
    [⟨S800000x128, (extf .f32 (W main_v54_0 : FVec Ideal S800000x128 .bf16) bitsLt_bf16_f32 : FVec Ideal S800000x128 .f32)⟩,
     ⟨S800000x3, (mulf (broadcastInDim S800000x3 ![0, 1] bcast_S800000x1_S800000x3_0_1 (W main_v54_1 : FVec Ideal S800000x1 .f32)) (W main_v33 : FVec Ideal S800000x3 .f32) : FVec Ideal S800000x3 .f32)⟩,
     ⟨S800000x1, (broadcastInDim S800000x1 ![] bcast_S_S800000x1 (constant (F := Ideal) S_ .f32 0x3F800000#32) : FVec Ideal S800000x1 .f32)⟩]
    concatenates_S800000x128_S800000x3_S800000x1_S800000x132_d1

/-- Each edge's 132 columns added into the row of its target node, from zero. -/
def scat : FVec Ideal S50000x132 .f32 :=
  Host.scatterAdd scatter_S50000x132_S800000x1_S800000x132_1_0_0_1
    (broadcastInDim S50000x132 ![] bcast_S_S50000x132 (constant (F := Ideal) S_ .f32 0x00000000#32))
    (broadcastInDim S800000x1 ![0] bcast_S800000_S800000x1_0 (W main_v3 : IVec S800000 32))
    (cat W)

/-- The divisor column: the last column of the sums, at least one. -/
def cnt : FVec Ideal S50000x1 .f32 :=
  maximumf (extractStridedSlice S50000x1 ![0, 131] (scat W) slices_S50000x132_S50000x1_0_131)
    (broadcastInDim S50000x1 ![] bcast_S_S50000x1 (constant (F := Ideal) S_ .f32 0x3F800000#32))

/-! ### The whole arrays after the stretch -/

set_option maxHeartbeats 1000000 in
/-- The averaged messages: the first 128 columns of the sums over the divisor, column by column. -/
theorem after_v72 :
    (StableHlo.after hostOps1 W (Proc.devRef .tc main_v72) : FVec Ideal S50000x128 .bf16)
      = truncf .bf16 (Host.divf (extractStridedSlice S50000x128 ![0, 0] (scat W) slices_S50000x132_S50000x128_0_0)
          (broadcastInDim S50000x128 ![0, 1] bcast_S50000x1_S50000x128_0_1 (cnt W))) bitsLt_bf16_f32 := by
  unfold cnt scat cat
  after_results3
  rfl

set_option maxHeartbeats 1000000 in
/-- The averaged coordinate shifts: columns 128 … 130 of the sums over the divisor. -/
theorem after_v71 :
    (StableHlo.after hostOps1 W (Proc.devRef .tc main_v71) : FVec Ideal S50000x3 .f32)
      = Host.divf (extractStridedSlice S50000x3 ![0, 128] (scat W) slices_S50000x132_S50000x3_0_128)
          (broadcastInDim S50000x3 ![0, 1] bcast_S50000x1_S50000x3_0_1 (cnt W)) := by
  unfold cnt scat cat
  after_results3
  rfl

/-- Rows 0 … 63 of the node matrix. -/
theorem after_v74 :
    (StableHlo.after hostOps1 W (Proc.devRef .tc main_v74) : FVec Ideal S64x128 .bf16)
      = truncf (F := Ideal) .bf16 (extractStridedSlice S64x128 ![0, 0] (W main_arg9 : FVec Ideal S192x128 .f32) slices_S192x128_S64x128_0_0) bitsLt_bf16_f32 := by
  after_results3

/-- Rows 64 … 191 of the node matrix. -/
theorem after_v76 :
    (StableHlo.after hostOps1 W (Proc.devRef .tc main_v76) : FVec Ideal S128x128 .bf16)
      = truncf (F := Ideal) .bf16 (extractStridedSlice S128x128 ![64, 0] (W main_arg9 : FVec Ideal S192x128 .f32) slices_S192x128_S128x128_64_0) bitsLt_bf16_f32 := by
  after_results3

/-- The first bias as a row. -/
theorem after_v77 :
    (StableHlo.after hostOps1 W (Proc.devRef .tc main_v77) : FVec Ideal S1x128 .f32)
      = shapeCast S1x128 (W main_arg10 : FVec Ideal S128 .f32) shapeCasts_S128_S1x128 := by
  after_results3
  rfl

/-- The second matrix. -/
theorem after_v78 :
    (StableHlo.after hostOps1 W (Proc.devRef .tc main_v78) : FVec Ideal S128x64 .bf16)
      = truncf (F := Ideal) .bf16 (W main_arg11 : FVec Ideal S128x64 .f32) bitsLt_bf16_f32 := by
  after_results3

/-- The second bias as a row. -/
theorem after_v79 :
    (StableHlo.after hostOps1 W (Proc.devRef .tc main_v79) : FVec Ideal S1x64 .f32)
      = shapeCast S1x64 (W main_arg12 : FVec Ideal S64 .f32) shapeCasts_S64_S1x64 := by
  after_results3
  rfl

/-! ### Those arrays at an index -/

/-- The scatter is the exact sum of the colliding updates. -/
theorem scat_eq :
    scat W = Ideal.hostScatterAdd (⟨[1], [0], [0], 1, scatter_S50000x132_S800000x1_S800000x132_1_0_0_1_wf⟩ : ScatterDims (⟨2, ![50000, 132]⟩ : Shape) ⟨2, ![800000, 1]⟩ ⟨2, ![800000, 132]⟩)
      (broadcastInDim S50000x132 ![] bcast_S_S50000x132 (constant (F := Ideal) S_ .f32 0x00000000#32))
      (broadcastInDim S800000x1 ![0] bcast_S800000_S800000x1_0 (W main_v3 : IVec S800000 32))
      (cat W) := by
  unfold scat Host.scatterAdd
  rw [Ideal.hostScatterAdd_def]
  rfl

/-- A column of the sums at node `n`: that column of the joined array summed over the edges of `n`. -/
theorem scat_apply (n : Fin 50000) (col : Fin 132) :
    scat W (ix2 n col) = ∑ e ∈ Finset.univ.filter (selOf (rDST W) n), cat W (ix2 e col) := by
  rw [scat_eq]
  refine (LibScatterRows.hostScatterAdd_rows_apply _ _ _ _ n col).trans ?_
  rw [broadcastInDim_scalar_apply, constant_apply, Ideal.ofBits_zero_f32, zero_add]
  refine Finset.sum_congr (Finset.filter_congr fun e _ => ?_) fun _ _ => rfl
  unfold selOf
  rw [broadcastInDim_col]

/-- The joined array in a message column. -/
theorem cat_left (e : Fin 800000) (j : Fin 128) (hj : j.val < 132) :
    cat W (ix2 e ⟨j.val, hj⟩) = rM W (ix2 e j) := by
  unfold cat
  exact concatenate_cols3_left _ _ _ _ e j hj

/-- The joined array in a coordinate column: the edge's weight times its coordinate difference. -/
theorem cat_mid (e : Fin 800000) (k : Fin 3) (hk : 128 + k.val < 132) :
    cat W (ix2 e ⟨128 + k.val, hk⟩) = rG W (ix2 e 0) * rDF W (ix2 e k) := by
  unfold cat
  refine (concatenate_cols3_mid _ _ _ _ e k hk).trans ?_
  rw [mulf_apply, broadcastInDim_cols]

/-- The joined array in its last column: the unit. -/
theorem cat_right (e : Fin 800000) (hl : 128 + 3 + (0 : Fin 1).val < 132) :
    cat W (ix2 e ⟨128 + 3 + (0 : Fin 1).val, hl⟩) = one := by
  unfold cat
  refine (concatenate_cols3_right _ _ _ _ e 0 hl).trans ?_
  rw [broadcastInDim_scalar_apply, constant_apply]

/-- The divisor of node `n`. -/
theorem cnt_apply (n : Fin 50000) : cnt W (ix2 n 0) = Spec.deg (selOf (rDST W) n) one := by
  unfold cnt Spec.deg Spec.segsum
  rw [maximumf_apply, broadcastInDim_scalar_apply, constant_apply,
    slice2_axis1_apply 131 (scat W) slices_S50000x132_S50000x1_0_131 n 0 ⟨128 + 3 + (0 : Fin 1).val, by decide⟩ rfl,
    scat_apply]
  refine congrArg (fun s : EReal => max s one) ?_
  exact Finset.sum_congr rfl fun e _ => cat_right W e _

/-- The averaged message of node `n`, column `j`. -/
theorem v72_apply (n : Fin 50000) (j : Fin 128) :
    (StableHlo.after hostOps1 W (Proc.devRef .tc main_v72) : S50000x128.Idx → EReal) (ix2 n j)
      = Spec.avg (selOf (rDST W) n) one (fun e => rM W (ix2 e j)) := by
  rw [after_v72]
  unfold Spec.avg Spec.segsum
  rw [truncf_apply, hostDivf_apply, broadcastInDim_cols, cnt_apply,
    slice2_axis1_apply 0 (scat W) slices_S50000x132_S50000x128_0_0 n j ⟨j.val, by have := j.isLt; omega⟩ (by show j.val = 0 + j.val; omega),
    scat_apply]
  refine congrArg (fun s : EReal => Ideal.div s (Spec.deg (selOf (rDST W) n) one)) ?_
  exact Finset.sum_congr rfl fun e _ => cat_left W e j _

/-- The averaged coordinate shift of node `n`, coordinate `k`. -/
theorem v71_apply (n : Fin 50000) (k : Fin 3) :
    (StableHlo.after hostOps1 W (Proc.devRef .tc main_v71) : S50000x3.Idx → EReal) (ix2 n k)
      = Spec.avg (selOf (rDST W) n) one (fun e => rG W (ix2 e 0) * rDF W (ix2 e k)) := by
  rw [after_v71]
  unfold Spec.avg Spec.segsum
  rw [hostDivf_apply, broadcastInDim_cols, cnt_apply,
    slice2_axis1_apply 128 (scat W) slices_S50000x132_S50000x3_0_128 n k ⟨128 + k.val, by have := k.isLt; omega⟩ rfl,
    scat_apply]
  refine congrArg (fun s : EReal => Ideal.div s (Spec.deg (selOf (rDST W) n) one)) ?_
  exact Finset.sum_congr rfl fun e _ => cat_mid W e k _

/-- Row `k` of the first band of the node matrix. -/
theorem v74_apply (k : Fin 64) (j : Fin 128) :
    (StableHlo.after hostOps1 W (Proc.devRef .tc main_v74) : S64x128.Idx → EReal) (ix2 k j) = rA9 W (ix2 (Spec.rowX k) j) := by
  rw [after_v74, truncf_apply]
  exact slice2_axis0_apply 0 _ slices_S192x128_S64x128_0_0 k j (Spec.rowX k) (by show k.val = 0 + k.val; omega)

/-- Row `k` of the second band of the node matrix. -/
theorem v76_apply (k j : Fin 128) :
    (StableHlo.after hostOps1 W (Proc.devRef .tc main_v76) : S128x128.Idx → EReal) (ix2 k j) = rA9 W (ix2 (Spec.rowM k) j) := by
  rw [after_v76, truncf_apply]
  exact slice2_axis0_apply 64 _ slices_S192x128_S128x128_64_0 k j (Spec.rowM k) rfl

/-- The first bias, entry `k`. -/
theorem v77_apply (k : Fin 128) :
    (StableHlo.after hostOps1 W (Proc.devRef .tc main_v77) : S1x128.Idx → EReal) (ix2 0 k) = rA10 W (ix1 k) := by
  rw [after_v77]
  exact shapeCast_a_1a_apply _ shapeCasts_S128_S1x128 0 k

/-- The second matrix, entry `(k, j)`. -/
theorem v78_apply (k : Fin 128) (j : Fin 64) :
    (StableHlo.after hostOps1 W (Proc.devRef .tc main_v78) : S128x64.Idx → EReal) (ix2 k j) = rA11 W (ix2 k j) := by
  rw [after_v78, truncf_apply]

/-- The second bias, entry `j`. -/
theorem v79_apply (j : Fin 64) :
    (StableHlo.after hostOps1 W (Proc.devRef .tc main_v79) : S1x64.Idx → EReal) (ix2 0 j) = rA12 W (ix1 j) := by
  rw [after_v79]
  exact shapeCast_a_1a_apply _ shapeCasts_S64_S1x64 0 j

end Terms

/-! ## At the contents the first call leaves -/

section Final

variable (m : (ℓ : Loc nD τ sig) → Buf (Elt Ideal) ℓ) (c : Dev nD)

/-- The messages and the coordinate weights the first call leaves; the coordinate differences and the target-node
    words the first stretch leaves. -/
abbrev M : S800000x128.Idx → EReal := W2 m c main_v54_0
abbrev G : S800000x1.Idx → EReal := W2 m c main_v54_1
abbrev DF : S800000x3.Idx → EReal := W1 m c main_v33
abbrev DST : S800000.Idx → BitVec 32 := W1 m c main_v3

/-- Edge `e` points at node `n`: its target word, read signed, is `n`. -/
def sel (n : Fin 50000) (e : Fin 800000) : Prop := (DST m c (ix1 e)).toInt = (n.val : Int)

instance (n : Fin 50000) : DecidablePred (sel m c n) :=
  fun e => inferInstanceAs (Decidable ((DST m c (ix1 e)).toInt = (n.val : Int)))

theorem sel_eq (n : Fin 50000) : sel m c n = selOf (DST m c) n := rfl

/-- The first call leaves the target-node words as the first stretch wrote them: they are no array of its windows. -/
theorem W2_v3 : W2 m c (Proc.devRef .tc main_v3) = W1 m c (Proc.devRef .tc main_v3) :=
  W2_of_ne m c main_v3 (by decide)

/-- The first call leaves the coordinate differences as it found them: an input window's array. -/
theorem W2_v33 : W2 m c (Proc.devRef .tc main_v33) = W1 m c (Proc.devRef .tc main_v33) :=
  (W2_arr m c 2).trans (((dat0 (V1 m) c).arrAt_in 2 rfl _).trans (A_eq0 (V1 m) c 2))

/-- A launch argument that the first stretch does not write and that is no array of the first call's windows is, at
    the second stretch's start, as launched. -/
theorem W2_arg (r : Ref sig .tc) (h0 : r ∉ (hostOps0_W : List (Ref sig .tc))) (h1 : ∀ w, Pipeline.arrRef spec0 w ≠ r) :
    W2 m c (Proc.devRef .tc r) = m ((c : Thread nD τ).loc r) :=
  (W2_of_ne m c r h1).trans ((StableHlo.after_of_writes_sub hostOps0 _ hostOps0_writes h0).trans rfl)

/-- The averages over a node's edges depend on the selection only through the edges it holds. -/
theorem avg_sel (D D' : S800000.Idx → BitVec 32) (h : D = D') (n : Fin 50000) (f : Fin 800000 → EReal) :
    Spec.avg (selOf D n) one f = Spec.avg (selOf D' n) one f := by
  subst h; rfl

theorem mid_v72 (n : Fin 50000) (j : Fin 128) :
    (W3 m c main_v72 : S50000x128.Idx → EReal) (ix2 n j) = Spec.avg (sel m c n) one (fun e => M m c (ix2 e j)) :=
  (v72_apply (W2 m c) n j).trans (avg_sel _ _ (W2_v3 m c) n _)

theorem mid_v71 (n : Fin 50000) (k : Fin 3) :
    (W3 m c main_v71 : S50000x3.Idx → EReal) (ix2 n k)
      = Spec.avg (sel m c n) one (fun e => G m c (ix2 e 0) * DF m c (ix2 e k)) := by
  refine ((v71_apply (W2 m c) n k).trans (avg_sel _ _ (W2_v3 m c) n _)).trans ?_
  have e33 : rDF (W2 m c) = DF m c := W2_v33 m c
  rw [e33]
  rfl

theorem mid_v74 (k : Fin 64) (j : Fin 128) :
    (W3 m c main_v74 : S64x128.Idx → EReal) (ix2 k j)
      = (m ((c : Thread nD τ).loc main_arg9) : S192x128.Idx → EReal) (ix2 (Spec.rowX k) j) :=
  (v74_apply (W2 m c) k j).trans (congrFun (W2_arg m c main_arg9 (by decide) (by decide)) _)

theorem mid_v76 (k j : Fin 128) :
    (W3 m c main_v76 : S128x128.Idx → EReal) (ix2 k j)
      = (m ((c : Thread nD τ).loc main_arg9) : S192x128.Idx → EReal) (ix2 (Spec.rowM k) j) :=
  (v76_apply (W2 m c) k j).trans (congrFun (W2_arg m c main_arg9 (by decide) (by decide)) _)

theorem mid_v77 (k : Fin 128) :
    (W3 m c main_v77 : S1x128.Idx → EReal) (ix2 0 k) = (m ((c : Thread nD τ).loc main_arg10) : S128.Idx → EReal) (ix1 k) :=
  (v77_apply (W2 m c) k).trans (congrFun (W2_arg m c main_arg10 (by decide) (by decide)) _)

theorem mid_v78 (k : Fin 128) (j : Fin 64) :
    (W3 m c main_v78 : S128x64.Idx → EReal) (ix2 k j)
      = (m ((c : Thread nD τ).loc main_arg11) : S128x64.Idx → EReal) (ix2 k j) :=
  (v78_apply (W2 m c) k j).trans (congrFun (W2_arg m c main_arg11 (by decide) (by decide)) _)

theorem mid_v79 (j : Fin 64) :
    (W3 m c main_v79 : S1x64.Idx → EReal) (ix2 0 j) = (m ((c : Thread nD τ).loc main_arg12) : S64.Idx → EReal) (ix1 j) :=
  (v79_apply (W2 m c) j).trans (congrFun (W2_arg m c main_arg12 (by decide) (by decide)) _)

/-- Neither the second stretch nor the first call writes the node features in their short format, or the positions. -/
theorem mid_v4 : W3 m c main_v4 = W1 m c main_v4 :=
  (StableHlo.after_of_writes_sub hostOps1 _ hostOps1_writes (by decide)).trans (W2_of_ne m c main_v4 (by decide))

theorem mid_arg1 : W3 m c main_arg1 = W1 m c main_arg1 :=
  (StableHlo.after_of_writes_sub hostOps1 _ hostOps1_writes (by decide)).trans (W2_of_ne m c main_arg1 (by decide))

end Final

end Cert.KernelIdeal.HostMid

end
-- ==== Proof.KValue.lean ====
/- The kernel's program, composed: its two results read entry by entry against the specification, on the extended
   reals. The first call's message array is the specification's message of each edge, once the small arrays the
   call reads are recognised as the row bands of the first weight matrix, the biases and the second matrix; its
   coordinate-weight array is each edge's message row against the weight column plus the bias. The second call's
   results are the node network of a node's features and its averaged message, and its position plus its averaged
   weighted coordinate difference, the averages being over the edges that point at the node. -/
import proofs.«400004_j53979148976481_3_alg».proof.Proof.KIData
import proofs.«400004_j53979148976481_3_alg».proof.Proof.Spec
import proofs.«400004_j53979148976481_3_alg».proof.Proof.SpecCongr
import proofs.«400004_j53979148976481_3_alg».proof.Proof.EdgeValue
import proofs.«400004_j53979148976481_3_alg».proof.Proof.NodeValue
import proofs.«400004_j53979148976481_3_alg».proof.Proof.HostPre
import proofs.«400004_j53979148976481_3_alg».proof.Proof.HostMid
import Idealize.ShloMosaic.Lib.ValueIdx

set_option maxRecDepth 16384

noncomputable section

namespace Cert.KernelIdeal.KValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.GenP

theorem xnewK_congr {x x' : Fin 64 → EReal} {ma ma' : Fin 128 → EReal} {Vx Vx' : Fin 64 → Fin 128 → EReal}
    {Vm Vm' : Fin 128 → Fin 128 → EReal} {c1 c1' : Fin 128 → EReal} {V2 V2' : Fin 128 → Fin 64 → EReal} {c2 c2' : Fin 64 → EReal}
    (h0 : x = x') (h1 : ma = ma') (h2 : Vx = Vx') (h3 : Vm = Vm') (h4 : c1 = c1') (h5 : V2 = V2') (h6 : c2 = c2') (j : Fin 64) :
    Spec.xnewK x ma Vx Vm c1 V2 c2 j = Spec.xnewK x' ma' Vx' Vm' c1' V2' c2' j := by
  subst h0 h1 h2 h3 h4 h5 h6; rfl

section
variable (m : (ℓ : Loc nD τ sig) → Buf (Elt Ideal) ℓ) (c : Dev nD)

abbrev a0 : S50000x64.Idx → EReal := m ((c : Thread nD τ).loc main_arg0)
abbrev a1 : S50000x3.Idx → EReal := m ((c : Thread nD τ).loc main_arg1)
abbrev a3 : S800000x16.Idx → EReal := m ((c : Thread nD τ).loc main_arg3)
abbrev a5 : S145x128.Idx → EReal := m ((c : Thread nD τ).loc main_arg5)
abbrev a6 : S128.Idx → EReal := m ((c : Thread nD τ).loc main_arg6)
abbrev a7 : S128x128.Idx → EReal := m ((c : Thread nD τ).loc main_arg7)
abbrev a8 : S128.Idx → EReal := m ((c : Thread nD τ).loc main_arg8)
abbrev a9 : S192x128.Idx → EReal := m ((c : Thread nD τ).loc main_arg9)
abbrev a10 : S128.Idx → EReal := m ((c : Thread nD τ).loc main_arg10)
abbrev a11 : S128x64.Idx → EReal := m ((c : Thread nD τ).loc main_arg11)
abbrev a12 : S64.Idx → EReal := m ((c : Thread nD τ).loc main_arg12)
abbrev a13 : S128x1.Idx → EReal := m ((c : Thread nD τ).loc main_arg13)
abbrev a14 : S1.Idx → EReal := m ((c : Thread nD τ).loc main_arg14)
abbrev XD : S800000x64.Idx → EReal := W1 m c main_v11
abbrev XS : S800000x64.Idx → EReal := W1 m c main_v18
abbrev DF : S800000x3.Idx → EReal := W1 m c main_v33
abbrev SS : S800000x1.Idx → EReal := W1 m c main_v41
abbrev MSG : S800000x128.Idx → EReal := W2 m c main_v54_0
abbrev GAM : S800000x1.Idx → EReal := W2 m c main_v54_1
abbrev one : EReal := Ideal.ofBits .f32 0x3F800000#32

/-- The message array after the first call is that call's output window 14. -/
theorem MSG_eq : MSG m c = ((dat0 (V1 m) c).arrAt 14 cfg0.N : S800000x128.Idx → EReal) := by
  show W2 m c (Proc.devRef .tc (Pipeline.arrRef spec0 14)) = _
  exact W2_arr m c 14

theorem GAM_eq : GAM m c = ((dat0 (V1 m) c).arrAt 15 cfg0.N : S800000x1.Idx → EReal) := by
  show W2 m c (Proc.devRef .tc (Pipeline.arrRef spec0 15)) = _
  exact W2_arr m c 15

theorem OUT0_eq : (W4 m c main_v80_0 : S50000x64.Idx → EReal) = ((dat1 (V3 m) c).arrAt 9 cfg1.N : S50000x64.Idx → EReal) := by
  show W4 m c (Proc.devRef .tc (Pipeline.arrRef spec1 9)) = _
  exact W4_arr m c 9

theorem OUT1_eq : (W4 m c main_v80_1 : S50000x3.Idx → EReal) = ((dat1 (V3 m) c).arrAt 10 cfg1.N : S50000x3.Idx → EReal) := by
  show W4 m c (Proc.devRef .tc (Pipeline.arrRef spec1 10)) = _
  exact W4_arr m c 10

/-! ## The first call's two arrays against the specification -/

theorem msg_at (e : Fin 800000) (j : Fin 128) :
    MSG m c (ix2 e j) = Spec.msg (fun k => XD m c (ix2 e k)) (fun k => XS m c (ix2 e k)) (fun k => DF m c (ix2 e k))
      (fun k => a3 m c (ix2 e k)) (SS m c (ix2 e 0)) (fun k j => a5 m c (ix2 k j)) (fun j => a6 m c (ix1 j))
      (fun k j => a7 m c (ix2 k j)) (fun j => a8 m c (ix1 j)) j := by
  refine (congrFun (MSG_eq m c) (ix2 e j)).trans ?_
  refine (EdgeValue.edge_msg (V1 m) c e j).trans ?_
  have h3 : (W1 m c main_arg3 : S800000x16.Idx → EReal) = a3 m c := HostPre.pre_arg3 m c
  exact EdgeValue.msgK_congr rfl rfl rfl (funext fun k => congrFun h3 (ix2 e k)) rfl
    (funext fun k => funext fun j => HostPre.pre_v43 m c k j) (funext fun k => funext fun j => HostPre.pre_v45 m c k j)
    (funext fun j => HostPre.pre_v46 m c j) (funext fun k => funext fun j => HostPre.pre_v48 m c k j)
    (funext fun j => HostPre.pre_v49 m c j) (funext fun k => funext fun j => HostPre.pre_v50 m c k j)
    (funext fun j => HostPre.pre_v51 m c j) j

theorem gam_at (e : Fin 800000) :
    GAM m c (ix2 e 0) = Spec.gam (fun k => MSG m c (ix2 e k)) (fun k => a13 m c (ix2 k 0)) (a14 m c (ix1 0)) := by
  refine (congrFun (GAM_eq m c) (ix2 e 0)).trans ?_
  refine (EdgeValue.edge_gam (V1 m) c e).trans ?_
  exact EdgeValue.gam_congr (funext fun k => (congrFun (MSG_eq m c) (ix2 e k)).symm)
    (funext fun k => HostPre.pre_v52 m c k) (HostPre.pre_v53 m c)

/-! ## The second call's two results against the specification -/

theorem out0_at (n : Fin 50000) (j : Fin 64) :
    (W4 m c main_v80_0 : S50000x64.Idx → EReal) (ix2 n j)
      = Spec.xnew (fun k => a0 m c (ix2 n k)) (fun k => Spec.avg (HostMid.sel m c n) one (fun e => MSG m c (ix2 e k)))
          (fun k j => a9 m c (ix2 k j)) (fun k => a10 m c (ix1 k)) (fun k j => a11 m c (ix2 k j)) (fun j => a12 m c (ix1 j)) j := by
  refine (congrFun (OUT0_eq m c) (ix2 n j)).trans ?_
  refine (NodeValue.node_x (V3 m) c n j).trans ?_
  -- the features the second call reads are the node features: the narrowing before the first call is the identity
  have h4 : (W3 m c main_v4 : S50000x64.Idx → EReal)
      = truncf (F := Ideal) (s := S50000x64) (φ := .f32) .bf16 (a0 m c) bitsLt_bf16_f32 :=
    (HostMid.mid_v4 m c).trans (HostPre.pre_v4 m c)
  exact xnewK_congr (funext fun k => congrFun h4 (ix2 n k)) (funext fun k => HostMid.mid_v72 m c n k)
    (funext fun k => funext fun j => HostMid.mid_v74 m c k j) (funext fun k => funext fun j => HostMid.mid_v76 m c k j)
    (funext fun k => HostMid.mid_v77 m c k) (funext fun k => funext fun j => HostMid.mid_v78 m c k j)
    (funext fun j => HostMid.mid_v79 m c j) j

theorem out1_at (n : Fin 50000) (k : Fin 3) :
    (W4 m c main_v80_1 : S50000x3.Idx → EReal) (ix2 n k)
      = (HAdd.hAdd : EReal → EReal → EReal) (a1 m c (ix2 n k))
          (Spec.avg (HostMid.sel m c n) one (fun e => GAM m c (ix2 e 0) * DF m c (ix2 e k))) := by
  refine (congrFun (OUT1_eq m c) (ix2 n k)).trans ?_
  refine (NodeValue.node_p (V3 m) c n k).trans ?_
  -- no host operation writes the positions, so the second call finds the argument
  have h1 : (W3 m c main_arg1 : S50000x3.Idx → EReal) = a1 m c := (HostMid.mid_arg1 m c).trans (HostPre.pre_arg1 m c)
  exact congrArg₂ (HAdd.hAdd : EReal → EReal → EReal) (congrFun h1 (ix2 n k)) (HostMid.mid_v71 m c n k)

end

end Cert.KernelIdeal.KValue

end
-- ==== Proof.SpecSums.lean ====
/- Band laws of the two long sums of the layer, and the activation in its expanded spelling.
   A sum over the 145 rows of the first weight matrix is the sum of its four row bands (64 target features,
   64 source features, the squared distance, 16 attributes); a sum over the 192 rows of the node matrix is the
   sum of its two bands (64 features, 128 averaged messages). Only commutativity and associativity of addition
   on the extended reals are used: a finite sum indexed by Fin (a + b) is the sum over the first a indices plus
   the sum over the last b, applied three times (145 = 64 + (64 + (1 + 16))) or once (192 = 64 + 128).
   The activation x · (1 / (1 + e⁻ˣ)), spelled with the word of the unit, is silu once that word is 1; and the
   word 0x3F800000 does denote 1: sign bit clear, exponent field 127 (the bias), significand field 0. -/
import proofs.«400004_j53979148976481_3_alg».proof.Proof.Spec
import Mathlib.Algebra.BigOperators.Fin
import Mathlib.Algebra.BigOperators.Group.Finset.Basic

noncomputable section

namespace Cert.Spec

open Idealize.ShloMosaic

/-! ## The 145-vector read at each band -/

theorem zvec_rowD (xd xs : Fin 64 → EReal) (df : Fin 3 → EReal) (ea : Fin 16 → EReal) (k : Fin 64) :
    zvec xd xs df ea (rowD k) = xd k := by
  have h : (rowD k).val < 64 := k.isLt
  unfold zvec
  rw [dif_pos h]
  exact congrArg xd (Fin.ext rfl)

theorem zvec_rowS (xd xs : Fin 64 → EReal) (df : Fin 3 → EReal) (ea : Fin 16 → EReal) (k : Fin 64) :
    zvec xd xs df ea (rowS k) = xs k := by
  have hv : (rowS k).val = 64 + k.val := rfl
  have h1 : ¬ (rowS k).val < 64 := by omega
  have h2 : (rowS k).val < 128 := by have := k.isLt; omega
  unfold zvec
  rw [dif_neg h1, dif_pos h2]
  congr 1
  exact Fin.ext (by simp only [hv]; omega)

theorem zvec_rowR (xd xs : Fin 64 → EReal) (df : Fin 3 → EReal) (ea : Fin 16 → EReal) :
    zvec xd xs df ea rowR = r2 df := by
  have hv : (rowR).val = 128 := rfl
  have h1 : ¬ (rowR).val < 64 := by omega
  have h2 : ¬ (rowR).val < 128 := by omega
  have h3 : (rowR).val < 129 := by omega
  unfold zvec
  rw [dif_neg h1, dif_neg h2, dif_pos h3]

theorem zvec_rowA (xd xs : Fin 64 → EReal) (df : Fin 3 → EReal) (ea : Fin 16 → EReal) (k : Fin 16) :
    zvec xd xs df ea (rowA k) = ea k := by
  have hv : (rowA k).val = 129 + k.val := rfl
  have h1 : ¬ (rowA k).val < 64 := by omega
  have h2 : ¬ (rowA k).val < 128 := by omega
  have h3 : ¬ (rowA k).val < 129 := by omega
  unfold zvec
  rw [dif_neg h1, dif_neg h2, dif_neg h3]
  congr 1
  exact Fin.ext (by simp only [hv]; omega)

/-! ## A sum over 145 indices, band by band -/

/-- The 145 indices in their natural order are: the 64 of the first band, the 64 of the second, the single
    index 128, the 16 of the last band. -/
theorem sum145_split (f : Fin 145 → EReal) :
    ∑ k, f k = (∑ k, f (rowD k)) + (∑ k, f (rowS k)) + f rowR + (∑ k, f (rowA k)) := by
  have s1 : ∑ k, f k = (∑ k : Fin 64, f (Fin.castAdd 81 k)) + ∑ k : Fin 81, f (Fin.natAdd 64 k) :=
    Fin.sum_univ_add (a := 64) (b := 81) f
  have s2 : ∑ k : Fin 81, f (Fin.natAdd 64 k)
      = (∑ k : Fin 64, f (Fin.natAdd 64 (Fin.castAdd 17 k))) + ∑ k : Fin 17, f (Fin.natAdd 64 (Fin.natAdd 64 k)) :=
    Fin.sum_univ_add (a := 64) (b := 17) fun k => f (Fin.natAdd 64 k)
  have s3 : ∑ k : Fin 17, f (Fin.natAdd 64 (Fin.natAdd 64 k))
      = f (Fin.natAdd 64 (Fin.natAdd 64 (0 : Fin 17))) + ∑ k : Fin 16, f (Fin.natAdd 64 (Fin.natAdd 64 k.succ)) :=
    Fin.sum_univ_succ fun k : Fin 17 => f (Fin.natAdd 64 (Fin.natAdd 64 k))
  have e1 : ∀ k : Fin 64, (Fin.castAdd 81 k : Fin 145) = rowD k := fun k => Fin.ext rfl
  have e2 : ∀ k : Fin 64, (Fin.natAdd 64 (Fin.castAdd 17 k) : Fin 145) = rowS k := fun k => Fin.ext rfl
  have e3 : (Fin.natAdd 64 (Fin.natAdd 64 (0 : Fin 17)) : Fin 145) = rowR := Fin.ext rfl
  have e4 : ∀ k : Fin 16, (Fin.natAdd 64 (Fin.natAdd 64 k.succ) : Fin 145) = rowA k := fun k =>
    Fin.ext (by
      show 64 + (64 + (k.val + 1)) = 129 + k.val
      omega)
  rw [s1, s2, s3]
  simp only [e1, e2, e3, e4]
  rw [add_assoc, add_assoc]

theorem sum145_bands (xd xs : Fin 64 → EReal) (df : Fin 3 → EReal) (ea : Fin 16 → EReal)
    (W1 : Fin 145 → Fin 128 → EReal) (j : Fin 128) :
    ∑ k : Fin 145, zvec xd xs df ea k * W1 k j
      = (∑ k, xd k * W1 (rowD k) j) + (∑ k, xs k * W1 (rowS k) j) + (∑ k, ea k * W1 (rowA k) j)
        + r2 df * W1 rowR j := by
  rw [sum145_split fun k => zvec xd xs df ea k * W1 k j]
  simp only [zvec_rowD, zvec_rowS, zvec_rowR, zvec_rowA]
  exact add_right_comm _ _ _

/-! ## The 192-vector and its two bands -/

theorem nvec_rowX (x : Fin 64 → EReal) (ma : Fin 128 → EReal) (k : Fin 64) : nvec x ma (rowX k) = x k := by
  have h : (rowX k).val < 64 := k.isLt
  unfold nvec
  rw [dif_pos h]
  exact congrArg x (Fin.ext rfl)

theorem nvec_rowM (x : Fin 64 → EReal) (ma : Fin 128 → EReal) (k : Fin 128) : nvec x ma (rowM k) = ma k := by
  have hv : (rowM k).val = 64 + k.val := rfl
  have h1 : ¬ (rowM k).val < 64 := by omega
  unfold nvec
  rw [dif_neg h1]
  congr 1
  exact Fin.ext (by simp only [hv]; omega)

theorem sum192_split (f : Fin 192 → EReal) : ∑ k, f k = (∑ k, f (rowX k)) + ∑ k, f (rowM k) := by
  have s1 : ∑ k, f k = (∑ k : Fin 64, f (Fin.castAdd 128 k)) + ∑ k : Fin 128, f (Fin.natAdd 64 k) :=
    Fin.sum_univ_add (a := 64) (b := 128) f
  have e1 : ∀ k : Fin 64, (Fin.castAdd 128 k : Fin 192) = rowX k := fun k => Fin.ext rfl
  have e2 : ∀ k : Fin 128, (Fin.natAdd 64 k : Fin 192) = rowM k := fun k => Fin.ext rfl
  rw [s1]
  simp only [e1, e2]

theorem sum192_bands (x : Fin 64 → EReal) (ma : Fin 128 → EReal) (V1 : Fin 192 → Fin 128 → EReal) (k : Fin 128) :
    ∑ k' : Fin 192, nvec x ma k' * V1 k' k = (∑ k', x k' * V1 (rowX k') k) + (∑ k', ma k' * V1 (rowM k') k) := by
  rw [sum192_split fun k' => nvec x ma k' * V1 k' k]
  simp only [nvec_rowX, nvec_rowM]

/-! ## The activation, expanded -/

/-- x · (one / (one + e⁻ˣ)) is silu x when the word `one` denotes 1: the logistic function is that quotient
    by definition. -/
theorem silu_expanded (x : EReal) (one : EReal) (h1 : one = 1) :
    x * Ideal.div one (one + Ideal.exp (-x)) = silu x := by
  subst h1
  rfl

/-- The word 0x3F800000 read as a 32-bit float: sign 0, exponent field 127, significand field 0, hence
    (2²³ + 0) · 2^(127 − 127 − 23) = 1. -/
theorem one_word : Ideal.ofBits .f32 0x3F800000#32 = 1 := by
  have hsign : ((0x3F800000#32 : BitVec 32).extractLsb' (8 + 23) 1 == 1#1) = false := by decide
  have hexp : ((0x3F800000#32 : BitVec 32).extractLsb' 23 8).toNat = 127 := by decide
  have hfrac : ((0x3F800000#32 : BitVec 32).extractLsb' 0 23).toNat = 0 := by decide
  show Ideal.ieee 8 23 (0x3F800000#32 : BitVec 32) = 1
  unfold Ideal.ieee
  simp only [hsign, hexp, hfrac]
  norm_num

end Cert.Spec

end
-- ==== Proof.LibJoin4.lean ====
/-
  FOUR MATRICES OF EQUAL HEIGHT JOINED SIDE BY SIDE, READ AT AN ENTRY — a general lemma, about no particular program.

  Matrices of widths A, B, C, D and N rows each, concatenated along axis 1 into an N × W matrix. The entry (n, c) of
  the result is the entry of the piece whose span of columns holds c, at the column counted from that piece's first
  column: columns [0, A) are the first piece, [A, A + B) the second, [A + B, A + B + C) the third, the rest the fourth.
-/
import Idealize.ShloMosaic.Lib.ValueIdx
import Idealize.ShloMosaic.Lib.Pipeline.Value

namespace Cert.Lib.Join4

open Idealize.ShloMosaic Idealize.ShloMosaic.ValueIdx

variable {α : Type} {N A B C D W : Nat}
  (x : (⟨2, ![N, A]⟩ : Shape).Idx → α) (y : (⟨2, ![N, B]⟩ : Shape).Idx → α)
  (z : (⟨2, ![N, C]⟩ : Shape).Idx → α) (u : (⟨2, ![N, D]⟩ : Shape).Idx → α)
  (h : Shape.Concatenates [⟨2, ![N, A]⟩, ⟨2, ![N, B]⟩, ⟨2, ![N, C]⟩, ⟨2, ![N, D]⟩] ⟨2, ![N, W]⟩ 1)

/-- A column left of A: the first piece, same column. -/
theorem join4_first (n : Fin N) (c : Fin W) (hc : c.val < A) :
    concatenate ⟨2, ![N, W]⟩ 1 [⟨⟨2, ![N, A]⟩, x⟩, ⟨⟨2, ![N, B]⟩, y⟩, ⟨⟨2, ![N, C]⟩, z⟩, ⟨⟨2, ![N, D]⟩, u⟩] h (ix2 n c)
      = x (ix2 n ⟨c.val, hc⟩) :=
  concatenate_apply_piece 1 [⟨⟨2, ![N, A]⟩, x⟩, ⟨⟨2, ![N, B]⟩, y⟩, ⟨⟨2, ![N, C]⟩, z⟩, ⟨⟨2, ![N, D]⟩, u⟩] h (ix2 n c) 0 (by show (0 : Nat) < 4; omega) ⟨2, ![N, A]⟩ x rfl rfl 0 rfl (ix2 n ⟨c.val, hc⟩)
    (fun b hb => match b, hb with
      | ⟨0, _⟩, _ => rfl
      | ⟨1, _⟩, hb => absurd rfl hb)
    (by show 0 + c.val = c.val; omega)

/-- A column in [A, A + B): the second piece, A columns less. -/
theorem join4_second (n : Fin N) (c : Fin W) (hlo : A ≤ c.val) (hc : c.val - A < B) :
    concatenate ⟨2, ![N, W]⟩ 1 [⟨⟨2, ![N, A]⟩, x⟩, ⟨⟨2, ![N, B]⟩, y⟩, ⟨⟨2, ![N, C]⟩, z⟩, ⟨⟨2, ![N, D]⟩, u⟩] h (ix2 n c)
      = y (ix2 n ⟨c.val - A, hc⟩) :=
  concatenate_apply_piece 1 [⟨⟨2, ![N, A]⟩, x⟩, ⟨⟨2, ![N, B]⟩, y⟩, ⟨⟨2, ![N, C]⟩, z⟩, ⟨⟨2, ![N, D]⟩, u⟩] h (ix2 n c) 1 (by show (1 : Nat) < 4; omega) ⟨2, ![N, B]⟩ y rfl rfl (A + 0) rfl (ix2 n ⟨c.val - A, hc⟩)
    (fun b hb => match b, hb with
      | ⟨0, _⟩, _ => rfl
      | ⟨1, _⟩, hb => absurd rfl hb)
    (by show A + 0 + (c.val - A) = c.val; omega)

/-- A column in [A + B, A + B + C): the third piece, A + B columns less. -/
theorem join4_third (n : Fin N) (c : Fin W) (hlo : A + B ≤ c.val) (hc : c.val - (A + B) < C) :
    concatenate ⟨2, ![N, W]⟩ 1 [⟨⟨2, ![N, A]⟩, x⟩, ⟨⟨2, ![N, B]⟩, y⟩, ⟨⟨2, ![N, C]⟩, z⟩, ⟨⟨2, ![N, D]⟩, u⟩] h (ix2 n c)
      = z (ix2 n ⟨c.val - (A + B), hc⟩) :=
  concatenate_apply_piece 1 [⟨⟨2, ![N, A]⟩, x⟩, ⟨⟨2, ![N, B]⟩, y⟩, ⟨⟨2, ![N, C]⟩, z⟩, ⟨⟨2, ![N, D]⟩, u⟩] h (ix2 n c) 2 (by show (2 : Nat) < 4; omega) ⟨2, ![N, C]⟩ z rfl rfl (A + (B + 0)) rfl
    (ix2 n ⟨c.val - (A + B), hc⟩)
    (fun b hb => match b, hb with
      | ⟨0, _⟩, _ => rfl
      | ⟨1, _⟩, hb => absurd rfl hb)
    (by show A + (B + 0) + (c.val - (A + B)) = c.val; omega)

/-- A column from A + B + C on: the fourth piece, A + B + C columns less. -/
theorem join4_fourth (n : Fin N) (c : Fin W) (hlo : A + B + C ≤ c.val) (hc : c.val - (A + B + C) < D) :
    concatenate ⟨2, ![N, W]⟩ 1 [⟨⟨2, ![N, A]⟩, x⟩, ⟨⟨2, ![N, B]⟩, y⟩, ⟨⟨2, ![N, C]⟩, z⟩, ⟨⟨2, ![N, D]⟩, u⟩] h (ix2 n c)
      = u (ix2 n ⟨c.val - (A + B + C), hc⟩) :=
  concatenate_apply_piece 1 [⟨⟨2, ![N, A]⟩, x⟩, ⟨⟨2, ![N, B]⟩, y⟩, ⟨⟨2, ![N, C]⟩, z⟩, ⟨⟨2, ![N, D]⟩, u⟩] h (ix2 n c) 3 (by show (3 : Nat) < 4; omega) ⟨2, ![N, D]⟩ u rfl rfl (A + (B + (C + 0))) rfl
    (ix2 n ⟨c.val - (A + B + C), hc⟩)
    (fun b hb => match b, hb with
      | ⟨0, _⟩, _ => rfl
      | ⟨1, _⟩, hb => absurd rfl hb)
    (by show A + (B + (C + 0)) + (c.val - (A + B + C)) = c.val; omega)

end Cert.Lib.Join4
-- ==== Proof.RefValue.lean ====
/- The reference layer read entry by entry against the specification, on the extended reals.
   Edge part: the 145-vector an edge feeds the first layer is (target features, source features, squared distance,
   attributes); the first layer's sum over its 145 rows is the sum over the four row bands; the activation
   x · (1 / (1 + e⁻ˣ)) is silu because the word of the unit denotes 1; the second layer, the activation again and the
   gate give the message; the coordinate weight is the message against one column plus a bias.
   Node part: a row scatter-add into zeros, read at (n, c), is the sum of column c over the edges whose target is n;
   scattering ones counts those edges, the maximum with one is the divisor, the quotient is the average; the node
   network's sum over its 192 rows is the sum over its two bands; the position update adds the average of the
   weighted coordinate differences. The gathered arrays (features at target and source, coordinate difference,
   gate, target index) stay unopened. -/
import proofs.«400004_j53979148976481_3_alg».proof.Proof.Gen.ReferenceIdeal.Read
import proofs.«400004_j53979148976481_3_alg».proof.Proof.Spec
import proofs.«400004_j53979148976481_3_alg».proof.Proof.SpecSums
import proofs.«400004_j53979148976481_3_alg».proof.Proof.LibScatterRows
import proofs.«400004_j53979148976481_3_alg».proof.Proof.LibLayoutIx
import proofs.«400004_j53979148976481_3_alg».proof.Proof.LibLayoutAt
import proofs.«400004_j53979148976481_3_alg».proof.Proof.LibJoin4

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

variable (x0 : (⟨S50000x64, .f32⟩ : BufTy).Contents (Elt Ideal))
  (x1 : (⟨S50000x3, .f32⟩ : BufTy).Contents (Elt Ideal))
  (x2 : (⟨S2x800000, .i32⟩ : BufTy).Contents (Elt Ideal))
  (x3 : (⟨S800000x16, .f32⟩ : BufTy).Contents (Elt Ideal))
  (x4 : (⟨S50000, .f32⟩ : BufTy).Contents (Elt Ideal))
  (x5 : (⟨S145x128, .f32⟩ : BufTy).Contents (Elt Ideal))
  (x6 : (⟨S128, .f32⟩ : BufTy).Contents (Elt Ideal))
  (x7 : (⟨S128x128, .f32⟩ : BufTy).Contents (Elt Ideal))
  (x8 : (⟨S128, .f32⟩ : BufTy).Contents (Elt Ideal))
  (x9 : (⟨S192x128, .f32⟩ : BufTy).Contents (Elt Ideal))
  (x10 : (⟨S128, .f32⟩ : BufTy).Contents (Elt Ideal))
  (x11 : (⟨S128x64, .f32⟩ : BufTy).Contents (Elt Ideal))
  (x12 : (⟨S64, .f32⟩ : BufTy).Contents (Elt Ideal))
  (x13 : (⟨S128x1, .f32⟩ : BufTy).Contents (Elt Ideal))
  (x14 : (⟨S1, .f32⟩ : BufTy).Contents (Elt Ideal))

/-! ## Names -/

/-- The word of the unit. -/
abbrev one : EReal := Ideal.ofBits .f32 0x3F800000#32

/-- Features gathered at the target node, at the source node; coordinate difference; gate gathered at the source;
    target index of an edge; the gated message; the coordinate weight. -/
abbrev XD := val_main_v28 (F := Ideal) x0 x2
abbrev XS := val_main_v35 (F := Ideal) x0 x2
abbrev DF := val_main_v18 (F := Ideal) x1 x2
abbrev SS := val_main_v53 (F := Ideal) x2 x4
abbrev DST := val_main_v3 (F := Ideal) x2
abbrev MSG := val_main_v56 (F := Ideal) x0 x1 x2 x3 x4 x5 x6 x7 x8
abbrev GAM := val_main_v81 (F := Ideal) x0 x1 x2 x3 x4 x5 x6 x7 x8 x13 x14

/-- Edge e points at node n: its target index word, read signed, is n. -/
def sel (n : Fin 50000) (e : Fin 800000) : Prop := BitVec.toInt (DST x2 (ix1 e)) = (n.val : Int)

instance selDecidable (n : Fin 50000) : DecidablePred (sel x2 n) :=
  fun e => inferInstanceAs (Decidable (BitVec.toInt (DST x2 (ix1 e)) = (n.val : Int)))

/-! ## Where each operation reads its operands, by coordinates -/

theorem i21 (e : Fin 800000) (c : Fin 1) : idx_main_v21 (ix2 e c) = ix1 e := funext fun a => Fin.ext (by match a with | ⟨0, _⟩ => rfl)
theorem i20 (e : Fin 800000) (k : Fin 3) : idx_main_v20 (ix1 e) k = ix2 e k := funext fun a => Fin.ext (by match a with | ⟨0, _⟩ => rfl | ⟨1, _⟩ => rfl)
theorem i37l (e : Fin 800000) (j : Fin 128) (k : Fin 145) : lidx_main_v37 (ix2 e j) k = ix2 e k := funext fun a => Fin.ext (by match a with | ⟨0, _⟩ => rfl | ⟨1, _⟩ => rfl)
theorem i37r (e : Fin 800000) (j : Fin 128) (k : Fin 145) : ridx_main_v37 (ix2 e j) k = ix2 k j := funext fun a => Fin.ext (by match a with | ⟨0, _⟩ => rfl | ⟨1, _⟩ => rfl)
theorem i39 (e : Fin 800000) (j : Fin 128) : idx_main_v39 (ix2 e j) = ix2 (0 : Fin 1) j := funext fun a => Fin.ext (by match a with | ⟨0, _⟩ => rfl | ⟨1, _⟩ => rfl)
theorem i38 (z : Fin 1) (j : Fin 128) : idx_main_v38 (ix2 z j) = ix1 j := funext fun a => Fin.ext (by match a with | ⟨0, _⟩ => rfl)
theorem i42l (e : Fin 800000) (j : Fin 128) (k : Fin 128) : lidx_main_v42 (ix2 e j) k = ix2 e k := funext fun a => Fin.ext (by match a with | ⟨0, _⟩ => rfl | ⟨1, _⟩ => rfl)
theorem i42r (e : Fin 800000) (j : Fin 128) (k : Fin 128) : ridx_main_v42 (ix2 e j) k = ix2 k j := funext fun a => Fin.ext (by match a with | ⟨0, _⟩ => rfl | ⟨1, _⟩ => rfl)
theorem i44 (e : Fin 800000) (j : Fin 128) : idx_main_v44 (ix2 e j) = ix2 (0 : Fin 1) j := funext fun a => Fin.ext (by match a with | ⟨0, _⟩ => rfl | ⟨1, _⟩ => rfl)
theorem i43 (z : Fin 1) (j : Fin 128) : idx_main_v43 (ix2 z j) = ix1 j := funext fun a => Fin.ext (by match a with | ⟨0, _⟩ => rfl)
theorem i55 (e : Fin 800000) (j : Fin 128) : idx_main_v55 (ix2 e j) = ix2 e (0 : Fin 1) := funext fun a => Fin.ext (by match a with | ⟨0, _⟩ => rfl | ⟨1, _⟩ => rfl)
theorem i54 (e : Fin 800000) (c : Fin 1) : idx_main_v54 (ix2 e c) = ix1 e := funext fun a => Fin.ext (by match a with | ⟨0, _⟩ => rfl)
theorem i58 (e : Fin 800000) (c : Fin 1) : idx_main_v58 (ix2 e c) = ix1 e := funext fun a => Fin.ext (by match a with | ⟨0, _⟩ => rfl)
theorem i62 (e : Fin 800000) (c : Fin 1) : idx_main_v62 (ix2 e c) = ix1 e := funext fun a => Fin.ext (by match a with | ⟨0, _⟩ => rfl)
theorem i85 (e : Fin 800000) (c : Fin 1) : idx_main_v85 (ix2 e c) = ix1 e := funext fun a => Fin.ext (by match a with | ⟨0, _⟩ => rfl)
theorem i66 (n : Fin 50000) (j : Fin 128) : idx_main_v66 (ix2 n j) = ix2 n (0 : Fin 1) := funext fun a => Fin.ext (by match a with | ⟨0, _⟩ => rfl | ⟨1, _⟩ => rfl)
theorem i87 (n : Fin 50000) (k : Fin 3) : idx_main_v87 (ix2 n k) = ix2 n (0 : Fin 1) := funext fun a => Fin.ext (by match a with | ⟨0, _⟩ => rfl | ⟨1, _⟩ => rfl)
theorem i69l (n : Fin 50000) (j : Fin 128) (k : Fin 192) : lidx_main_v69 (ix2 n j) k = ix2 n k := funext fun a => Fin.ext (by match a with | ⟨0, _⟩ => rfl | ⟨1, _⟩ => rfl)
theorem i69r (n : Fin 50000) (j : Fin 128) (k : Fin 192) : ridx_main_v69 (ix2 n j) k = ix2 k j := funext fun a => Fin.ext (by match a with | ⟨0, _⟩ => rfl | ⟨1, _⟩ => rfl)
theorem i71 (n : Fin 50000) (j : Fin 128) : idx_main_v71 (ix2 n j) = ix2 (0 : Fin 1) j := funext fun a => Fin.ext (by match a with | ⟨0, _⟩ => rfl | ⟨1, _⟩ => rfl)
theorem i70 (z : Fin 1) (j : Fin 128) : idx_main_v70 (ix2 z j) = ix1 j := funext fun a => Fin.ext (by match a with | ⟨0, _⟩ => rfl)
theorem i74l (n : Fin 50000) (j : Fin 64) (k : Fin 128) : lidx_main_v74 (ix2 n j) k = ix2 n k := funext fun a => Fin.ext (by match a with | ⟨0, _⟩ => rfl | ⟨1, _⟩ => rfl)
theorem i74r (n : Fin 50000) (j : Fin 64) (k : Fin 128) : ridx_main_v74 (ix2 n j) k = ix2 k j := funext fun a => Fin.ext (by match a with | ⟨0, _⟩ => rfl | ⟨1, _⟩ => rfl)
theorem i76 (n : Fin 50000) (j : Fin 64) : idx_main_v76 (ix2 n j) = ix2 (0 : Fin 1) j := funext fun a => Fin.ext (by match a with | ⟨0, _⟩ => rfl | ⟨1, _⟩ => rfl)
theorem i75 (z : Fin 1) (j : Fin 64) : idx_main_v75 (ix2 z j) = ix1 j := funext fun a => Fin.ext (by match a with | ⟨0, _⟩ => rfl)
theorem i78l (e : Fin 800000) (c : Fin 1) (k : Fin 128) : lidx_main_v78 (ix2 e c) k = ix2 e k := funext fun a => Fin.ext (by match a with | ⟨0, _⟩ => rfl | ⟨1, _⟩ => rfl)
theorem i78r (e : Fin 800000) (c : Fin 1) (k : Fin 128) : ridx_main_v78 (ix2 e c) k = ix2 k c := funext fun a => Fin.ext (by match a with | ⟨0, _⟩ => rfl | ⟨1, _⟩ => rfl)
theorem i80 (e : Fin 800000) (c : Fin 1) : idx_main_v80 (ix2 e c) = ix2 (0 : Fin 1) (0 : Fin 1) := funext fun a => Fin.ext (by match a with | ⟨0, _⟩ => rfl | ⟨1, _⟩ => rfl)
theorem i79 (a b : Fin 1) : idx_main_v79 (ix2 a b) = ix1 (0 : Fin 1) := funext fun a => Fin.ext (by match a with | ⟨0, _⟩ => rfl)
theorem i82 (e : Fin 800000) (k : Fin 3) : idx_main_v82 (ix2 e k) = ix2 e (0 : Fin 1) := funext fun a => Fin.ext (by match a with | ⟨0, _⟩ => rfl | ⟨1, _⟩ => rfl)

/-! ## The activation -/

/-- x · (one / (one + e⁻ˣ)) in the operations of the host program is silu x. -/
theorem silu_words (x : EReal) :
    FloatOps.mulf (F := Ideal) (φ := .f32) x
        (FloatOps.hostDivf (FloatOps.ofBits .f32 0x3F800000#32)
          (FloatOps.addf (FloatOps.ofBits .f32 0x3F800000#32) (FloatOps.hostUnary .exp (FloatOps.hostNegf x))))
      = Spec.silu x :=
  Spec.silu_expanded x _ Spec.one_word

/-! ## One edge -/

/-- The squared length of the coordinate difference: the sum of three squares into the zero word. -/
theorem ref_r2 (e : Fin 800000) (c : Fin 1) :
    val_main_v21 (F := Ideal) x1 x2 (ix2 e c) = Spec.r2 (fun k => DF x1 x2 (ix2 e k)) := by
  rw [val_main_v21_apply, i21, val_main_v20_apply, val_main_cst_apply]
  simp only [i20, val_main_v19_apply, Ideal.ofBits_def, Ideal.ofBits_zero_f32, Ideal.mulf_def, zero_add]
  rfl

/-- The 145-vector of an edge, column by column. -/
theorem ref_zvec (e : Fin 800000) (k : Fin 145) :
    val_main_v36 (F := Ideal) x0 x1 x2 x3 (ix2 e k)
      = Spec.zvec (fun k => XD x0 x2 (ix2 e k)) (fun k => XS x0 x2 (ix2 e k)) (fun k => DF x1 x2 (ix2 e k))
          (fun k => x3 (ix2 e k)) k := by
  unfold val_main_v36 Spec.zvec
  by_cases h1 : k.val < 64
  · rw [dif_pos h1]
    exact Cert.Lib.Join4.join4_first _ _ _ _ _ e k h1
  · rw [dif_neg h1]
    by_cases h2 : k.val < 128
    · rw [dif_pos h2]
      exact Cert.Lib.Join4.join4_second _ _ _ _ _ e k (by omega) (by omega)
    · rw [dif_neg h2]
      by_cases h3 : k.val < 129
      · rw [dif_pos h3]
        exact (Cert.Lib.Join4.join4_third _ _ _ _ _ e k (by omega) (by omega)).trans (ref_r2 x1 x2 e _)
      · rw [dif_neg h3]
        exact Cert.Lib.Join4.join4_fourth _ _ _ _ _ e k (by omega) (by have := k.isLt; omega)

/-- First layer before the activation: the sum over 145 rows, by bands, plus the bias. -/
theorem ref_pre1 (e : Fin 800000) (j : Fin 128) :
    val_main_v40 (F := Ideal) x0 x1 x2 x3 x5 x6 (ix2 e j)
      = Spec.pre1 (fun k => XD x0 x2 (ix2 e k)) (fun k => XS x0 x2 (ix2 e k)) (fun k => DF x1 x2 (ix2 e k))
          (fun k => x3 (ix2 e k)) (fun k j => x5 (ix2 k j)) (fun j => x6 (ix1 j)) j := by
  rw [val_main_v40_apply, val_main_v37_apply, val_main_v39_apply, i39, val_main_v38_apply, i38]
  simp only [i37l, i37r, ref_zvec, Ideal.addf_def]
  exact congrArg (fun t => t + x6 (ix1 j)) (Spec.sum145_bands _ _ _ _ (fun k j => x5 (ix2 k j)) j)

/-- First layer after the activation. -/
theorem ref_act1 (i : S800000x128.Idx) :
    val_main_v41 (F := Ideal) x0 x1 x2 x3 x5 x6 i = Spec.silu (val_main_v40 (F := Ideal) x0 x1 x2 x3 x5 x6 i) := by
  rw [val_main_v41_apply, val_main_call0_v5_apply, val_main_call0_v4_apply, val_main_call0_cst_0_apply,
    val_main_call0_v3_apply, val_main_call0_v2_apply, val_main_call0_cst_apply, val_main_call0_v1_apply,
    val_main_call0_v0_apply]
  exact silu_words _

/-- Second layer before the activation. -/
theorem ref_pre2 (e : Fin 800000) (j : Fin 128) :
    val_main_v45 (F := Ideal) x0 x1 x2 x3 x5 x6 x7 x8 (ix2 e j)
      = (∑ k, Spec.silu (val_main_v40 (F := Ideal) x0 x1 x2 x3 x5 x6 (ix2 e k)) * x7 (ix2 k j)) + x8 (ix1 j) := by
  rw [val_main_v45_apply, val_main_v42_apply, val_main_v44_apply, i44, val_main_v43_apply, i43]
  simp only [i42l, i42r, ref_act1, Ideal.addf_def]

/-- Second layer after the activation. -/
theorem ref_act2 (i : S800000x128.Idx) :
    val_main_v46 (F := Ideal) x0 x1 x2 x3 x5 x6 x7 x8 i = Spec.silu (val_main_v45 (F := Ideal) x0 x1 x2 x3 x5 x6 x7 x8 i) := by
  rw [val_main_v46_apply, val_main_call1_v5_apply, val_main_call1_v4_apply, val_main_call1_cst_0_apply,
    val_main_call1_v3_apply, val_main_call1_v2_apply, val_main_call1_cst_apply, val_main_call1_v1_apply,
    val_main_call1_v0_apply]
  exact silu_words _

/-- The gated message of an edge. -/
theorem ref_msg (e : Fin 800000) (j : Fin 128) :
    MSG x0 x1 x2 x3 x4 x5 x6 x7 x8 (ix2 e j)
      = Spec.msg (fun k => XD x0 x2 (ix2 e k)) (fun k => XS x0 x2 (ix2 e k)) (fun k => DF x1 x2 (ix2 e k))
          (fun k => x3 (ix2 e k)) (SS x2 x4 (ix1 e)) (fun k j => x5 (ix2 k j)) (fun j => x6 (ix1 j))
          (fun k j => x7 (ix2 k j)) (fun j => x8 (ix1 j)) j := by
  show val_main_v56 (F := Ideal) x0 x1 x2 x3 x4 x5 x6 x7 x8 (ix2 e j) = _
  rw [val_main_v56_apply, val_main_v55_apply, i55, val_main_v54_apply, i54, ref_act2, ref_pre2, Ideal.mulf_def]
  simp only [ref_pre1]
  rfl

/-- The coordinate weight of an edge. -/
theorem ref_gam (e : Fin 800000) :
    GAM x0 x1 x2 x3 x4 x5 x6 x7 x8 x13 x14 (ix2 e (0 : Fin 1))
      = Spec.gam (fun k => MSG x0 x1 x2 x3 x4 x5 x6 x7 x8 (ix2 e k)) (fun k => x13 (ix2 k (0 : Fin 1))) (x14 (ix1 (0 : Fin 1))) := by
  show val_main_v81 (F := Ideal) x0 x1 x2 x3 x4 x5 x6 x7 x8 x13 x14 (ix2 e (0 : Fin 1)) = _
  rw [val_main_v81_apply, val_main_v78_apply, val_main_v80_apply, i80, val_main_v79_apply, i79]
  simp only [i78l, i78r, Ideal.addf_def]
  rfl

/-! ## Sums over the edges that point at a node -/

/-- A row scatter-add into zeros whose index column is the target index, read at (n, c): the sum of the updates'
    column c over the edges pointing at n. -/
theorem scatter_zero_rows {C : Nat}
    (wf : ScatterDims.WF (⟨2, ![50000, C]⟩ : Shape) ⟨2, ![800000, 1]⟩ ⟨2, ![800000, C]⟩ [1] [0] [0] 1)
    (z : (⟨2, ![50000, C]⟩ : Shape).Idx → EReal) (hz : ∀ i, z i = 0)
    (idx : IVec ⟨2, ![800000, 1]⟩ 32) (hidx : ∀ r : Fin 800000, idx (ix2 r (0 : Fin 1)) = DST x2 (ix1 r))
    (upd : (⟨2, ![800000, C]⟩ : Shape).Idx → EReal) (n : Fin 50000) (c : Fin C) :
    Ideal.hostScatterAdd (⟨[1], [0], [0], 1, wf⟩ : ScatterDims ⟨2, ![50000, C]⟩ ⟨2, ![800000, 1]⟩ ⟨2, ![800000, C]⟩)
        z idx upd (ix2 n c)
      = Spec.segsum (sel x2 n) (fun e => upd (ix2 e c)) := by
  rw [Cert.LibScatterRows.hostScatterAdd_rows_apply wf z idx upd n c, hz, zero_add]
  unfold Spec.segsum
  refine Finset.sum_congr ?_ (fun _ _ => rfl)
  ext r
  rw [Finset.mem_filter, Finset.mem_filter, hidx r]
  exact Iff.rfl

/-- The three scatter records, spelled as their dimension numbers. -/
theorem scatter128_lit : scatter_S50000x128_S800000x1_S800000x128_1_0_0_1
    = (⟨[1], [0], [0], 1, (scatter_S50000x128_S800000x1_S800000x128_1_0_0_1).wf⟩ :
        ScatterDims S50000x128 S800000x1 S800000x128) := rfl
theorem scatter1_lit : scatter_S50000x1_S800000x1_S800000x1_1_0_0_1
    = (⟨[1], [0], [0], 1, (scatter_S50000x1_S800000x1_S800000x1_1_0_0_1).wf⟩ :
        ScatterDims S50000x1 S800000x1 S800000x1) := rfl
theorem scatter3_lit : scatter_S50000x3_S800000x1_S800000x3_1_0_0_1
    = (⟨[1], [0], [0], 1, (scatter_S50000x3_S800000x1_S800000x3_1_0_0_1).wf⟩ :
        ScatterDims S50000x3 S800000x1 S800000x3) := rfl

theorem zero57 (i : S50000x128.Idx) : val_main_v57 (F := Ideal) i = 0 := by
  rw [val_main_v57_apply, val_main_cst_9_apply]; exact Ideal.ofBits_zero_f32
theorem zero61 (i : S50000x1.Idx) : val_main_v61 (F := Ideal) i = 0 := by
  rw [val_main_v61_apply, val_main_cst_11_apply]; exact Ideal.ofBits_zero_f32
theorem zero84 (i : S50000x3.Idx) : val_main_v84 (F := Ideal) i = 0 := by
  rw [val_main_v84_apply, val_main_cst_13_apply]; exact Ideal.ofBits_zero_f32
theorem one60 (i : S800000x1.Idx) : val_main_v60 (F := Ideal) i = one := by
  rw [val_main_v60_apply, val_main_cst_10_apply]; rfl
theorem one64 (i : S50000x1.Idx) : val_main_v64 (F := Ideal) i = one := by
  rw [val_main_v64_apply, val_main_cst_12_apply]; rfl
theorem idx58 (r : Fin 800000) : val_main_v58 (F := Ideal) x2 (ix2 r (0 : Fin 1)) = DST x2 (ix1 r) := by
  rw [val_main_v58_apply, i58]
theorem idx62 (r : Fin 800000) : val_main_v62 (F := Ideal) x2 (ix2 r (0 : Fin 1)) = DST x2 (ix1 r) := by
  rw [val_main_v62_apply, i62]
theorem idx85 (r : Fin 800000) : val_main_v85 (F := Ideal) x2 (ix2 r (0 : Fin 1)) = DST x2 (ix1 r) := by
  rw [val_main_v85_apply, i85]

/-- The messages summed over the edges pointing at n. -/
theorem ref_agg (n : Fin 50000) (j : Fin 128) :
    val_main_v59 (F := Ideal) x0 x1 x2 x3 x4 x5 x6 x7 x8 (ix2 n j)
      = Spec.segsum (sel x2 n) (fun e => MSG x0 x1 x2 x3 x4 x5 x6 x7 x8 (ix2 e j)) := by
  have e1 : val_main_v59 (F := Ideal) x0 x1 x2 x3 x4 x5 x6 x7 x8
      = Ideal.hostScatterAdd scatter_S50000x128_S800000x1_S800000x128_1_0_0_1 (val_main_v57 (F := Ideal))
          (val_main_v58 (F := Ideal) x2) (val_main_v56 (F := Ideal) x0 x1 x2 x3 x4 x5 x6 x7 x8) :=
    Ideal.hostScatterAdd_def _ _ _ _ _
  rw [e1, scatter128_lit]
  exact scatter_zero_rows x2 _ _ zero57 _ (idx58 x2) _ n j

/-- The divisor: the number of edges pointing at n, at least one. -/
theorem ref_deg (n : Fin 50000) : val_main_v65 (F := Ideal) x2 (ix2 n (0 : Fin 1)) = Spec.deg (sel x2 n) one := by
  have h63 : val_main_v63 (F := Ideal) x2 (ix2 n (0 : Fin 1)) = Spec.segsum (sel x2 n) (fun _ => one) := by
    have e1 : val_main_v63 (F := Ideal) x2
        = Ideal.hostScatterAdd scatter_S50000x1_S800000x1_S800000x1_1_0_0_1 (val_main_v61 (F := Ideal))
            (val_main_v62 (F := Ideal) x2) (val_main_v60 (F := Ideal)) :=
      Ideal.hostScatterAdd_def _ _ _ _ _
    rw [e1, scatter1_lit]
    refine (scatter_zero_rows x2 _ _ zero61 _ (idx62 x2) _ n (0 : Fin 1)).trans ?_
    exact congrArg (Spec.segsum (sel x2 n)) (funext fun e => one60 _)
  rw [val_main_v65_apply, h63, one64, Ideal.maximumf_def]
  unfold Spec.deg
  rfl

/-- The averaged message of a node. -/
theorem ref_avg (n : Fin 50000) (j : Fin 128) :
    val_main_v67 (F := Ideal) x0 x1 x2 x3 x4 x5 x6 x7 x8 (ix2 n j)
      = Spec.avg (sel x2 n) one (fun e => MSG x0 x1 x2 x3 x4 x5 x6 x7 x8 (ix2 e j)) := by
  rw [val_main_v67_apply, val_main_v66_apply, i66, ref_agg, ref_deg, Ideal.hostDivf_def]
  unfold Spec.avg
  rfl

/-! ## One node -/

/-- The 192-vector of a node, column by column. -/
theorem ref_nvec (n : Fin 50000) (k : Fin 192) :
    val_main_v68 (F := Ideal) x0 x1 x2 x3 x4 x5 x6 x7 x8 (ix2 n k)
      = Spec.nvec (fun k => x0 (ix2 n k)) (fun k => val_main_v67 (F := Ideal) x0 x1 x2 x3 x4 x5 x6 x7 x8 (ix2 n k)) k := by
  unfold val_main_v68 Spec.nvec
  by_cases h : k.val < 64
  · rw [dif_pos h]
    exact Cert.Lib.LayoutAt.sideBySide_left _ _ _ n k h
  · rw [dif_neg h]
    exact Cert.Lib.LayoutAt.sideBySide_right _ _ _ n k (by omega) (by have := k.isLt; omega)

/-- The node network's hidden layer before the activation. -/
theorem ref_npre (n : Fin 50000) (k : Fin 128) :
    val_main_v72 (F := Ideal) x0 x1 x2 x3 x4 x5 x6 x7 x8 x9 x10 (ix2 n k)
      = (∑ k', x0 (ix2 n k') * x9 (ix2 (Spec.rowX k') k))
        + (∑ k', Spec.avg (sel x2 n) one (fun e => MSG x0 x1 x2 x3 x4 x5 x6 x7 x8 (ix2 e k')) * x9 (ix2 (Spec.rowM k') k))
        + x10 (ix1 k) := by
  rw [val_main_v72_apply, val_main_v69_apply, val_main_v71_apply, i71, val_main_v70_apply, i70]
  simp only [i69l, i69r, ref_nvec, ref_avg, Ideal.addf_def]
  exact congrArg (fun t => t + x10 (ix1 k)) (Spec.sum192_bands _ _ (fun k' k => x9 (ix2 k' k)) k)

/-- The node network's hidden layer after the activation. -/
theorem ref_nact (i : S50000x128.Idx) :
    val_main_v73 (F := Ideal) x0 x1 x2 x3 x4 x5 x6 x7 x8 x9 x10 i = Spec.silu (val_main_v72 (F := Ideal) x0 x1 x2 x3 x4 x5 x6 x7 x8 x9 x10 i) := by
  rw [val_main_v73_apply, val_main_call2_v5_apply, val_main_call2_v4_apply, val_main_call2_cst_0_apply,
    val_main_call2_v3_apply, val_main_call2_v2_apply, val_main_call2_cst_apply, val_main_call2_v1_apply,
    val_main_call2_v0_apply]
  exact silu_words _

/-- The new features of a node. -/
theorem ref_x (n : Fin 50000) (j : Fin 64) :
    val_main_v77 (F := Ideal) x0 x1 x2 x3 x4 x5 x6 x7 x8 x9 x10 x11 x12 (ix2 n j)
      = Spec.xnew (fun k => x0 (ix2 n k)) (fun k => Spec.avg (sel x2 n) one (fun e => MSG x0 x1 x2 x3 x4 x5 x6 x7 x8 (ix2 e k)))
          (fun k j => x9 (ix2 k j)) (fun k => x10 (ix1 k)) (fun k j => x11 (ix2 k j)) (fun j => x12 (ix1 j)) j := by
  rw [val_main_v77_apply, val_main_v74_apply, val_main_v76_apply, i76, val_main_v75_apply, i75]
  simp only [i74l, i74r, ref_nact, ref_npre, Ideal.addf_def]
  unfold Spec.xnew Spec.xnewK Spec.hidK
  rfl

/-- The new position of a node. -/
theorem ref_p (n : Fin 50000) (k : Fin 3) :
    val_main_v89 (F := Ideal) x0 x1 x2 x3 x4 x5 x6 x7 x8 x13 x14 (ix2 n k)
      = x1 (ix2 n k)
        + Spec.avg (sel x2 n) one (fun e => GAM x0 x1 x2 x3 x4 x5 x6 x7 x8 x13 x14 (ix2 e (0 : Fin 1)) * DF x1 x2 (ix2 e k)) := by
  have h86 : val_main_v86 (F := Ideal) x0 x1 x2 x3 x4 x5 x6 x7 x8 x13 x14 (ix2 n k)
      = Spec.segsum (sel x2 n) (fun e => GAM x0 x1 x2 x3 x4 x5 x6 x7 x8 x13 x14 (ix2 e (0 : Fin 1)) * DF x1 x2 (ix2 e k)) := by
    have e1 : val_main_v86 (F := Ideal) x0 x1 x2 x3 x4 x5 x6 x7 x8 x13 x14
        = Ideal.hostScatterAdd scatter_S50000x3_S800000x1_S800000x3_1_0_0_1 (val_main_v84 (F := Ideal))
            (val_main_v85 (F := Ideal) x2) (val_main_v83 (F := Ideal) x0 x1 x2 x3 x4 x5 x6 x7 x8 x13 x14) :=
      Ideal.hostScatterAdd_def _ _ _ _ _
    rw [e1, scatter3_lit]
    refine (scatter_zero_rows x2 _ _ zero84 _ (idx85 x2) _ n k).trans ?_
    refine congrArg (Spec.segsum (sel x2 n)) (funext fun e => ?_)
    rw [val_main_v83_apply, val_main_v82_apply, i82, Ideal.mulf_def]
  rw [val_main_v89_apply, val_main_v88_apply, val_main_v87_apply, i87, h86, ref_deg, Ideal.hostDivf_def,
    Ideal.addf_def]
  unfold Spec.avg
  rfl

end Cert.ReferenceIdeal.RefValue

end
-- ==== Proof.Bridge.lean ====
/- The two programs' results are the same arrays, on the extended reals, when they start from the same arguments.
   Both results have been read entry by entry against one specification: the new features are the node network of
   a node's features and its averaged message, the new positions the position plus the averaged weighted coordinate
   difference. What remains is that the two programs feed the specification the same data. The edge index is cut
   and made non-negative by the same operations in both, so the gathered features, coordinate differences and gate
   are the same arrays (the kernel's narrowing of the features before gathering is the identity here, and its gate
   is the reference's vector laid down as a column); an edge points at a node in one program exactly when it does in
   the other; hence the messages, the coordinate weights, and the averages over a node's edges agree. -/
import proofs.«400004_j53979148976481_3_alg».proof.Proof.KValue
import proofs.«400004_j53979148976481_3_alg».proof.Proof.RefValue
import proofs.«400004_j53979148976481_3_alg».proof.Proof.Gen.ReferenceIdeal.Read
import proofs.«400004_j53979148976481_3_alg».proof.Proof.SpecCongr
import Idealize.ShloMosaic.Lib.ValueIdx

set_option maxRecDepth 16384

noncomputable section

namespace Cert.Proof.Bridge

open Idealize.ShloMosaic Idealize.ShloMosaic.TcCoe Idealize.ShloMosaic.ValueIdx Idealize.SL.Sem
open Cert.KernelIdeal Cert.KernelIdeal.Gen Cert.KernelIdeal.GenP
open Cert.ReferenceIdeal.Read (val_main_v0 val_main_v1 val_main_v2 val_main_v3 val_main_c val_main_v4 val_main_v5 val_main_c_0 val_main_v6
  val_main_v7 val_main_v8 val_main_v9 val_main_v10 val_main_c_1 val_main_v11 val_main_v12 val_main_c_2 val_main_v13
  val_main_v14 val_main_v15 val_main_v16 val_main_v17 val_main_v18 val_main_c_3 val_main_v22 val_main_v23 val_main_c_4
  val_main_v24 val_main_v25 val_main_v26 val_main_v27 val_main_v28 val_main_c_5 val_main_v29 val_main_v30 val_main_c_6
  val_main_v31 val_main_v32 val_main_v33 val_main_v34 val_main_v35 val_main_c_7 val_main_v47 val_main_v48 val_main_c_8
  val_main_v49 val_main_v50 val_main_v51 val_main_v52 val_main_v53 val_main_v77 val_main_v89)

/-- Equal arguments give equal messages. -/
theorem msg_congr {xd xd' xs xs' : Fin 64 → EReal} {df df' : Fin 3 → EReal} {ea ea' : Fin 16 → EReal} {s s' : EReal}
    {Wa Wa' : Fin 145 → Fin 128 → EReal} {ba ba' : Fin 128 → EReal} {Wb Wb' : Fin 128 → Fin 128 → EReal} {bb bb' : Fin 128 → EReal}
    (h0 : xd = xd') (h1 : xs = xs') (h2 : df = df') (h3 : ea = ea') (h4 : s = s') (h5 : Wa = Wa') (h6 : ba = ba')
    (h7 : Wb = Wb') (h8 : bb = bb') (j : Fin 128) :
    Spec.msg xd xs df ea s Wa ba Wb bb j = Spec.msg xd' xs' df' ea' s' Wa' ba' Wb' bb' j := by
  subst h0 h1 h2 h3 h4 h5 h6 h7 h8; rfl

section
variable (m : (ℓ : Loc nD τ sig) → Buf (Elt Ideal) ℓ) (c : Dev nD)

/-! ## The edge index, cut and made non-negative: the same terms in both programs -/

/-- The target node of each edge. -/
theorem dst_eq : HostPre.dstIdx m c = val_main_v3 (F := Ideal) (HostPre.a2 m c) := by
  unfold val_main_v3 val_main_v2; rfl

/-- The column of non-negative target nodes, as the three target-side gathers read it. -/
theorem wrapDst9 : HostPre.wrapIdx (HostPre.dstIdx m c) = val_main_v9 (F := Ideal) (HostPre.a2 m c) := by
  unfold val_main_v9 val_main_v8 val_main_v7 val_main_v6 val_main_c_0 val_main_v5 val_main_v4 val_main_c val_main_v3 val_main_v2; rfl

theorem wrapDst27 : HostPre.wrapIdx (HostPre.dstIdx m c) = val_main_v27 (F := Ideal) (HostPre.a2 m c) := by
  unfold val_main_v27 val_main_v26 val_main_v25 val_main_v24 val_main_c_4 val_main_v23 val_main_v22 val_main_c_3 val_main_v3 val_main_v2; rfl

/-- The column of non-negative source nodes, as the three source-side gathers read it. -/
theorem wrapSrc16 : HostPre.wrapIdx (HostPre.srcIdx m c) = val_main_v16 (F := Ideal) (HostPre.a2 m c) := by
  unfold val_main_v16 val_main_v15 val_main_v14 val_main_v13 val_main_c_2 val_main_v12 val_main_v11 val_main_c_1 val_main_v1 val_main_v0; rfl

theorem wrapSrc34 : HostPre.wrapIdx (HostPre.srcIdx m c) = val_main_v34 (F := Ideal) (HostPre.a2 m c) := by
  unfold val_main_v34 val_main_v33 val_main_v32 val_main_v31 val_main_c_6 val_main_v30 val_main_v29 val_main_c_5 val_main_v1 val_main_v0; rfl

theorem wrapSrc52 : HostPre.wrapIdx (HostPre.srcIdx m c) = val_main_v52 (F := Ideal) (HostPre.a2 m c) := by
  unfold val_main_v52 val_main_v51 val_main_v50 val_main_v49 val_main_c_8 val_main_v48 val_main_v47 val_main_c_7 val_main_v1 val_main_v0; rfl

/-! ## The gathers: the two programs' dimension records carry the same data -/

theorem gatherFeat_eq : Cert.KernelIdeal.gather_S50000x64_S800000x1_S800000x64_1_0_n_n_0_1_164
    = Cert.ReferenceIdeal.gather_S50000x64_S800000x1_S800000x64_1_0_n_n_0_1_164 := rfl

theorem gatherPos_eq : Cert.KernelIdeal.gather_S50000x3_S800000x1_S800000x3_1_0_n_n_0_1_13
    = Cert.ReferenceIdeal.gather_S50000x3_S800000x1_S800000x3_1_0_n_n_0_1_13 := rfl

theorem gatherGate_eq : Cert.KernelIdeal.gather_S50000_S800000x1_S800000_n_0_n_n_0_1_1
    = Cert.ReferenceIdeal.gather_S50000_S800000x1_S800000_n_0_n_n_0_1_1 := rfl

/-- Narrowing the node features is the identity on the extended reals. -/
theorem narrow_eq :
    truncf (F := Ideal) (s := S50000x64) (φ := .f32) .bf16 (KValue.a0 m c) bitsLt_bf16_f32 = KValue.a0 m c := rfl

/-! ## The gathered arrays are the same -/

/-- The features gathered at each edge's target. -/
theorem xd_eq : (W1 m c main_v11 : S800000x64.Idx → EReal) = val_main_v28 (F := Ideal) (KValue.a0 m c) (HostPre.a2 m c) := by
  refine (HostPre.pre_v11 m c).trans ?_
  unfold val_main_v28
  rw [narrow_eq m c, wrapDst27 m c, gatherFeat_eq]

/-- The features gathered at each edge's source. -/
theorem xs_eq : (W1 m c main_v18 : S800000x64.Idx → EReal) = val_main_v35 (F := Ideal) (KValue.a0 m c) (HostPre.a2 m c) := by
  refine (HostPre.pre_v18 m c).trans ?_
  unfold val_main_v35
  rw [narrow_eq m c, wrapSrc34 m c, gatherFeat_eq]

/-- The coordinate differences: position at the target minus position at the source. -/
theorem df_eq : (W1 m c main_v33 : S800000x3.Idx → EReal) = val_main_v18 (F := Ideal) (KValue.a1 m c) (HostPre.a2 m c) := by
  refine (HostPre.pre_v33 m c).trans ?_
  unfold val_main_v18 val_main_v10 val_main_v17
  rw [wrapDst9 m c, wrapSrc16 m c, gatherPos_eq]

/-- The gate gathered at each edge's source, as a vector. -/
theorem gate_eq : Host.gather Cert.KernelIdeal.gather_S50000_S800000x1_S800000_n_0_n_n_0_1_1 (HostPre.a4 m c)
      (HostPre.wrapIdx (HostPre.srcIdx m c))
    = val_main_v53 (F := Ideal) (HostPre.a2 m c) (HostPre.a4 m c) := by
  unfold val_main_v53
  rw [wrapSrc52 m c, gatherGate_eq]

/-- The kernel's gate is that vector laid down as a column. -/
theorem ss_at (e : Fin 800000) :
    (W1 m c main_v41 : S800000x1.Idx → EReal) (ix2 e 0) = val_main_v53 (F := Ideal) (HostPre.a2 m c) (HostPre.a4 m c) (ix1 e) := by
  refine (congrFun (HostPre.pre_v41 m c) (ix2 e 0)).trans ?_
  refine (EdgeBlock.shapeCast_a_a1_apply _ _ e 0).trans ?_
  exact congrFun (gate_eq m c) (ix1 e)

/-! ## The selection, the messages, the coordinate weights -/

/-- An edge points at a node in the reference exactly when it does in the kernel's program. -/
theorem hsel (n : Fin 50000) (e : Fin 800000) : Cert.ReferenceIdeal.RefValue.sel (HostPre.a2 m c) n e ↔ HostMid.sel m c n e := by
  have h : (W1 m c main_v3 : IVec S800000 32) = val_main_v3 (F := Ideal) (HostPre.a2 m c) :=
    (HostPre.pre_v3 m c).trans (dst_eq m c)
  show (BitVec.toInt (val_main_v3 (F := Ideal) (HostPre.a2 m c) (ix1 e)) = (n.val : Int))
    ↔ (BitVec.toInt ((W1 m c main_v3 : IVec S800000 32) (ix1 e)) = (n.val : Int))
  rw [h]

/-- The two programs' messages agree entry by entry. -/
theorem hmsg (e : Fin 800000) (k : Fin 128) :
    Cert.ReferenceIdeal.RefValue.MSG (KValue.a0 m c) (KValue.a1 m c) (HostPre.a2 m c) (KValue.a3 m c) (HostPre.a4 m c) (KValue.a5 m c) (KValue.a6 m c) (KValue.a7 m c) (KValue.a8 m c) (ix2 e k) = KValue.MSG m c (ix2 e k) := by
  refine (Cert.ReferenceIdeal.RefValue.ref_msg (x0 := KValue.a0 m c) (x1 := KValue.a1 m c) (x2 := HostPre.a2 m c) (x3 := KValue.a3 m c) (x4 := HostPre.a4 m c) (x5 := KValue.a5 m c) (x6 := KValue.a6 m c) (x7 := KValue.a7 m c) (x8 := KValue.a8 m c) e k).trans ?_
  refine Eq.trans ?_ (KValue.msg_at m c e k).symm
  exact msg_congr (funext fun k => (congrFun (xd_eq m c) (ix2 e k)).symm) (funext fun k => (congrFun (xs_eq m c) (ix2 e k)).symm)
    (funext fun k => (congrFun (df_eq m c) (ix2 e k)).symm) rfl (ss_at m c e).symm rfl rfl rfl rfl k

/-- … and so do their coordinate weights. -/
theorem hgam (e : Fin 800000) :
    Cert.ReferenceIdeal.RefValue.GAM (KValue.a0 m c) (KValue.a1 m c) (HostPre.a2 m c) (KValue.a3 m c) (HostPre.a4 m c) (KValue.a5 m c) (KValue.a6 m c) (KValue.a7 m c) (KValue.a8 m c) (KValue.a13 m c) (KValue.a14 m c) (ix2 e (0 : Fin 1)) = KValue.GAM m c (ix2 e 0) := by
  refine (Cert.ReferenceIdeal.RefValue.ref_gam (x0 := KValue.a0 m c) (x1 := KValue.a1 m c) (x2 := HostPre.a2 m c) (x3 := KValue.a3 m c) (x4 := HostPre.a4 m c) (x5 := KValue.a5 m c) (x6 := KValue.a6 m c) (x7 := KValue.a7 m c) (x8 := KValue.a8 m c) (x13 := KValue.a13 m c) (x14 := KValue.a14 m c) e).trans ?_
  refine Eq.trans ?_ (KValue.gam_at m c e).symm
  exact EdgeValue.gam_congr (funext fun k => hmsg m c e k) rfl rfl

/-! ## The two results, entry by entry -/

theorem core0 (n : Fin 50000) (j : Fin 64) :
    val_main_v77 (F := Ideal) (KValue.a0 m c) (KValue.a1 m c) (HostPre.a2 m c) (KValue.a3 m c) (HostPre.a4 m c) (KValue.a5 m c) (KValue.a6 m c) (KValue.a7 m c) (KValue.a8 m c) (KValue.a9 m c) (KValue.a10 m c) (KValue.a11 m c) (KValue.a12 m c) (ix2 n j)
      = (W4 m c main_v80_0 : S50000x64.Idx → EReal) (ix2 n j) := by
  refine (Cert.ReferenceIdeal.RefValue.ref_x (x0 := KValue.a0 m c) (x1 := KValue.a1 m c) (x2 := HostPre.a2 m c) (x3 := KValue.a3 m c) (x4 := HostPre.a4 m c) (x5 := KValue.a5 m c) (x6 := KValue.a6 m c) (x7 := KValue.a7 m c) (x8 := KValue.a8 m c) (x9 := KValue.a9 m c) (x10 := KValue.a10 m c) (x11 := KValue.a11 m c) (x12 := KValue.a12 m c) n j).trans ?_
  refine Eq.trans ?_ (KValue.out0_at m c n j).symm
  exact congrArg (fun ma => Spec.xnew (fun k => KValue.a0 m c (ix2 n k)) ma (fun k j => KValue.a9 m c (ix2 k j))
      (fun k => KValue.a10 m c (ix1 k)) (fun k j => KValue.a11 m c (ix2 k j)) (fun j => KValue.a12 m c (ix1 j)) j)
    (funext fun k => Spec.avg_congr KValue.one (hsel m c n) (fun e => hmsg m c e k))

theorem core1 (n : Fin 50000) (k : Fin 3) :
    val_main_v89 (F := Ideal) (KValue.a0 m c) (KValue.a1 m c) (HostPre.a2 m c) (KValue.a3 m c) (HostPre.a4 m c) (KValue.a5 m c) (KValue.a6 m c) (KValue.a7 m c) (KValue.a8 m c) (KValue.a13 m c) (KValue.a14 m c) (ix2 n k)
      = (W4 m c main_v80_1 : S50000x3.Idx → EReal) (ix2 n k) := by
  refine (Cert.ReferenceIdeal.RefValue.ref_p (x0 := KValue.a0 m c) (x1 := KValue.a1 m c) (x2 := HostPre.a2 m c) (x3 := KValue.a3 m c) (x4 := HostPre.a4 m c) (x5 := KValue.a5 m c) (x6 := KValue.a6 m c) (x7 := KValue.a7 m c) (x8 := KValue.a8 m c) (x13 := KValue.a13 m c) (x14 := KValue.a14 m c) n k).trans ?_
  refine Eq.trans ?_ (KValue.out1_at m c n k).symm
  exact congrArg (fun t => (HAdd.hAdd : EReal → EReal → EReal) (KValue.a1 m c (ix2 n k)) t)
    (Spec.avg_congr KValue.one (hsel m c n) (fun e =>
      congrArg₂ (fun a b : EReal => a * b) (hgam m c e) (congrFun (df_eq m c) (ix2 e k)).symm))

end

/-! ## The two results as arrays -/

theorem res0_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    Cert.ReferenceIdeal.Value.res_main_v77 (F := Ideal) m' c = Cert.KernelIdeal.GenP.W4 m c Cert.KernelIdeal.main_v80_0 := by
  obtain ⟨h0, h1, h2, h3, h4, h5, h6, h7, h8, h9, h10, h11, h12, h13, h14⟩ := hag
  refine (Cert.ReferenceIdeal.Read.val_main_v77_eq m' c).trans ?_
  rw [h0, h1, h2, h3, h4, h5, h6, h7, h8, h9, h10, h11, h12]
  funext i
  obtain ⟨n, j, rfl⟩ : ∃ (n : Fin 50000) (j : Fin 64), i = ix2 n j := ⟨i 0, i 1, eq_ix2 i⟩
  exact core0 m c n j

theorem res1_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    Cert.ReferenceIdeal.Value.res_main_v89 (F := Ideal) m' c = Cert.KernelIdeal.GenP.W4 m c Cert.KernelIdeal.main_v80_1 := by
  obtain ⟨h0, h1, h2, h3, h4, h5, h6, h7, h8, h9, h10, h11, h12, h13, h14⟩ := hag
  refine (Cert.ReferenceIdeal.Read.val_main_v89_eq m' c).trans ?_
  rw [h0, h1, h2, h3, h4, h5, h6, h7, h8, h13, h14]
  funext i
  obtain ⟨n, k, rfl⟩ : ∃ (n : Fin 50000) (k : Fin 3), i = ix2 n k := ⟨i 0, i 1, eq_ix2 i⟩
  exact core1 m c n k

end Cert.Proof.Bridge

end
-- ==== Proof.lean ====
/- The certificate's five claims assembled.
   The three frames: each kernel program is the two pallas_calls among its host stretches, run call by call (every
   grid point's body loads its input blocks, computes, and stores each output block whole, so nothing an argument
   array holds is ever written); the reference is a straight line of host operations. The idealization rewrote
   nothing. The value claim: on the extended reals both programs compute, for every node, the same function of the
   arguments — the per-edge network's gated message and coordinate weight, their averages over the edges pointing at
   the node, then the node network and the shifted position. The kernel arranges the first layer's 145-row product as
   four row-band products and the node network's 192-row product as two, fuses the three segment sums into one over
   joined columns, and evaluates in blocks of 4000 edges and 5000 nodes; a finite sum regrouped and a join read
   column by column are the whole difference, so only commutativity and associativity of addition are used and
   the precondition is never opened. -/
import proofs.«400004_j53979148976481_3_alg».proof.Defs
import proofs.«400004_j53979148976481_3_alg».proof.Proof.Gen.Kernel
import proofs.«400004_j53979148976481_3_alg».proof.Proof.Gen.KernelIdeal
import proofs.«400004_j53979148976481_3_alg».proof.Proof.Gen.ReferenceIdeal
import proofs.«400004_j53979148976481_3_alg».proof.Proof.Gen.Pre_finite_inputs
import proofs.«400004_j53979148976481_3_alg».proof.Proof.Gen.ReferenceIdeal.Run
import proofs.«400004_j53979148976481_3_alg».proof.Proof.Gen.ReferenceIdeal.Read
import proofs.«400004_j53979148976481_3_alg».proof.Proof.KFrame
import proofs.«400004_j53979148976481_3_alg».proof.Proof.KIFrame
import proofs.«400004_j53979148976481_3_alg».proof.Proof.Bridge

noncomputable section

namespace Cert.Proof

open Idealize.ShloMosaic Idealize.ShloMosaic.TcCoe Idealize.SL.Sem

/-- The word-level kernel program runs to the end and leaves its arguments as launched. -/
theorem frame_k : Cert.frame_Kernel := fun m ρ _ => Cert.Kernel.GenP.frame m ρ

/-- So does the idealized kernel program. -/
theorem frame_ki : Cert.frame_KernelIdeal := fun m ρ _ => Cert.KernelIdeal.GenP.frame m ρ

/-- The reference is host operations only: its run with the results dropped. -/
theorem frame_r : Cert.frame_ReferenceIdeal := fun m ρ _ =>
  (θ_run Cert.ReferenceIdeal.defs _ _).mono (fun _ h c => (h c).2.2) (Cert.ReferenceIdeal.Value.run (F := Ideal) m ρ)

/-- Both idealized programs end with the same two arrays: the kernel's read off the last boundary's contents, the
    reference's its composed term, equal entry by entry by the bridge. -/
theorem algebraic : Cert.algebraic_KernelIdeal_ReferenceIdeal := by
  intro m ρ m' ρ' _ hagree
  refine ⟨fun c => Cert.KernelIdeal.GenP.W4 m c Cert.KernelIdeal.main_v80_0,
    fun c => Cert.KernelIdeal.GenP.W4 m c Cert.KernelIdeal.main_v80_1, ?_, ?_⟩
  · refine (θ_run Cert.KernelIdeal.defs _ _).mono (fun r h c => ?_) (Cert.KernelIdeal.GenP.run_main (F := Ideal) m ρ)
    exact ⟨h c _ (Cert.KernelIdeal.GenP.mem_uc Cert.KernelIdeal.main_v80_0 (by decide)),
      h c _ (Cert.KernelIdeal.GenP.mem_uc Cert.KernelIdeal.main_v80_1 (by decide)),
      (h c _ (Cert.KernelIdeal.GenP.mem_uc Cert.KernelIdeal.main_arg0 (by decide))).trans (Cert.KernelIdeal.GenP.W4_main_arg0 m c),
      (h c _ (Cert.KernelIdeal.GenP.mem_uc Cert.KernelIdeal.main_arg1 (by decide))).trans (Cert.KernelIdeal.GenP.W4_main_arg1 m c),
      (h c _ (Cert.KernelIdeal.GenP.mem_uc Cert.KernelIdeal.main_arg2 (by decide))).trans (Cert.KernelIdeal.GenP.W4_main_arg2 m c),
      (h c _ (Cert.KernelIdeal.GenP.mem_uc Cert.KernelIdeal.main_arg3 (by decide))).trans (Cert.KernelIdeal.GenP.W4_main_arg3 m c),
      (h c _ (Cert.KernelIdeal.GenP.mem_uc Cert.KernelIdeal.main_arg4 (by decide))).trans (Cert.KernelIdeal.GenP.W4_main_arg4 m c),
      (h c _ (Cert.KernelIdeal.GenP.mem_uc Cert.KernelIdeal.main_arg5 (by decide))).trans (Cert.KernelIdeal.GenP.W4_main_arg5 m c),
      (h c _ (Cert.KernelIdeal.GenP.mem_uc Cert.KernelIdeal.main_arg6 (by decide))).trans (Cert.KernelIdeal.GenP.W4_main_arg6 m c),
      (h c _ (Cert.KernelIdeal.GenP.mem_uc Cert.KernelIdeal.main_arg7 (by decide))).trans (Cert.KernelIdeal.GenP.W4_main_arg7 m c),
      (h c _ (Cert.KernelIdeal.GenP.mem_uc Cert.KernelIdeal.main_arg8 (by decide))).trans (Cert.KernelIdeal.GenP.W4_main_arg8 m c),
      (h c _ (Cert.KernelIdeal.GenP.mem_uc Cert.KernelIdeal.main_arg9 (by decide))).trans (Cert.KernelIdeal.GenP.W4_main_arg9 m c),
      (h c _ (Cert.KernelIdeal.GenP.mem_uc Cert.KernelIdeal.main_arg10 (by decide))).trans (Cert.KernelIdeal.GenP.W4_main_arg10 m c),
      (h c _ (Cert.KernelIdeal.GenP.mem_uc Cert.KernelIdeal.main_arg11 (by decide))).trans (Cert.KernelIdeal.GenP.W4_main_arg11 m c),
      (h c _ (Cert.KernelIdeal.GenP.mem_uc Cert.KernelIdeal.main_arg12 (by decide))).trans (Cert.KernelIdeal.GenP.W4_main_arg12 m c),
      (h c _ (Cert.KernelIdeal.GenP.mem_uc Cert.KernelIdeal.main_arg13 (by decide))).trans (Cert.KernelIdeal.GenP.W4_main_arg13 m c),
      (h c _ (Cert.KernelIdeal.GenP.mem_uc Cert.KernelIdeal.main_arg14 (by decide))).trans (Cert.KernelIdeal.GenP.W4_main_arg14 m c)⟩
  · refine (θ_run Cert.ReferenceIdeal.defs _ _).mono (fun r h c => ?_) (Cert.ReferenceIdeal.Value.run (F := Ideal) m' ρ')
    exact ⟨(h c).1.trans (Cert.Proof.Bridge.res0_eq m m' c (hagree c)),
      (h c).2.1.trans (Cert.Proof.Bridge.res1_eq m m' c (hagree c)), (h c).2.2⟩

theorem claim : Cert.Claim :=
  ⟨Cert.Kernel.Gen.facts, Cert.KernelIdeal.Gen.facts, Cert.ReferenceIdeal.Gen.facts, Cert.Pre_finite_inputs.Gen.facts,
    frame_k, frame_ki, frame_r, trivial, algebraic⟩

end Cert.Proof

end
